-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x8x256 : Shape := ⟨4, ![4, 512, 8, 256]⟩
abbrev S256x256 : Shape := ⟨2, ![256, 256]⟩
abbrev S256 : Shape := ⟨1, ![256]⟩
abbrev S_ : Shape := ⟨0, ![]⟩

class Facts : Prop where
  bcast_S_S4x512x8x256 : S_.BroadcastsInDim S4x512x8x256 (![] : Fin 0 → Fin S4x512x8x256.rank)
  reducesTo_S4x512x8x256_S_d0_1_2_3 : S4x512x8x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x512x8x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S4x512x8x256 .f32 := Host.absf main_arg0
  let main_cst : FVec F S_ .f32 := constant S_ .f32 0x7F800000#32
  let main_v1 : FVec F S4x512x8x256 .f32 := broadcastInDim S4x512x8x256 ![] bcast_S_S4x512x8x256 main_cst
  let main_v2 : IVec S4x512x8x256 1 := cmpf .olt main_v0 main_v1
  let main_c : IVec S_ 1 := constantI S_ 1 1#1
  let main_v3 : IVec S_ 1 := (fun x v => Host.reduce IntOp.andi x v reducesTo_S4x512x8x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S4x512x8x256 : Shape := ⟨4, ![4, 512, 8, 256]⟩
abbrev S256x256 : Shape := ⟨2, ![256, 256]⟩
abbrev S256 : Shape := ⟨1, ![256]⟩
abbrev S4x4096x256 : Shape := ⟨3, ![4, 4096, 256]⟩
abbrev S1x256 : Shape := ⟨2, ![1, 256]⟩
abbrev S1x2048x256 : Shape := ⟨3, ![1, 2048, 256]⟩
abbrev S2048x256 : Shape := ⟨2, ![2048, 256]⟩
abbrev S1x1024x256 : Shape := ⟨3, ![1, 1024, 256]⟩
abbrev S1024x1 : Shape := ⟨2, ![1024, 1]⟩
abbrev S1024x256 : Shape := ⟨2, ![1024, 256]⟩
abbrev S1024x2048 : Shape := ⟨2, ![1024, 2048]⟩
abbrev S1024 : Shape := ⟨1, ![1024]⟩

abbrev nBuf : Space → Nat
  | .hbm => 27
  | .vmem => 31
  | .smem => 0
  | _ => 0

abbrev bufTy : (tb : Table) → Fin (tcTables nBuf tb) → BufTy
  | .hbm, ⟨0, _⟩ => ⟨S4x512x8x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S4x4096x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S4x4096x256, .bf16⟩
  | .hbm, ⟨23, _⟩ => ⟨S4x4096x256, .bf16⟩
  | .hbm, ⟨24, _⟩ => ⟨S4x4096x256, .bf16⟩
  | .hbm, ⟨25, _⟩ => ⟨S4x4096x256, .f32⟩
  | .hbm, ⟨26, _⟩ => ⟨S4x512x8x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x2048x256, .bf16⟩
  | .local _ .vmem, ⟨19, _⟩ => ⟨S1x2048x256, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x1024x256, .f32⟩
  | .local _ .vmem, ⟨23, _⟩ => ⟨S1x1024x256, .f32⟩
  | .local _ .vmem, ⟨24, _⟩ => ⟨S256x256, .f32⟩
  | .local _ .vmem, ⟨25, _⟩ => ⟨S1x256, .f32⟩
  | .local _ .vmem, ⟨26, _⟩ => ⟨S1x1024x256, .f32⟩
  | .local _ .vmem, ⟨27, _⟩ => ⟨S1x1024x256, .f32⟩
  | .local _ .vmem, ⟨28, _⟩ => ⟨S1024x1, .f32⟩
  | .local _ .vmem, ⟨29, _⟩ => ⟨S1024x1, .f32⟩
  | .local _ .vmem, ⟨30, _⟩ => ⟨S1024x256, .f32⟩
  | _, _ => ⟨S4x512x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x512x8x256_S4x4096x256 : S4x512x8x256.ShapeCasts S4x4096x256
  transposes_S256x256_S256x256_1_0 : S256x256.Transposes [1, 0] S256x256
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  broadcasts_S1x256_S1024x256 : S1x256.Broadcasts S1024x256
  shapeCasts_S1024x256_S1x1024x256 : S1024x256.ShapeCasts S1x1024x256
  shapeCasts_S4x4096x256_S4x512x8x256 : S4x4096x256.ShapeCasts S4x512x8x256
  dot_S2048x256_S256x256_S2048x256_1_0_0_1_n_n_wf : DotDims.WF S2048x256 S256x256 S2048x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x4096x256.size a
  hwx0_0 : ∀ i : grid0.Coords, EltTy.bits .f32 = 32 ∨ (Rect.block (s := S4x4096x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x256.size a ≤ S4x4096x256.size a
  hwx0_9 : ∀ i : grid0.Coords, EltTy.bits .bf16 = 32 ∨ (Rect.block (s := S4x4096x256) S1x2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2048x256.size a ≤ S4x4096x256.size a
  hwx0_10 : ∀ i : grid0.Coords, EltTy.bits .bf16 = 32 ∨ (Rect.block (s := S4x4096x256) S1x2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2048x256.size a ≤ S4x4096x256.size a
  hwx0_11 : ∀ i : grid0.Coords, EltTy.bits .bf16 = 32 ∨ (Rect.block (s := S4x4096x256) S1x2048x256.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S4x4096x256.size a
  hwx1_1 : ∀ i : grid1.Coords, EltTy.bits .bf16 = 32 ∨ (Rect.block (s := S4x4096x256) S1x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S4x4096x256.size a
  hwx1_2 : ∀ i : grid1.Coords, EltTy.bits .bf16 = 32 ∨ (Rect.block (s := S4x4096x256) S1x2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S4x4096x256.size a
  hwx1_3 : ∀ i : grid1.Coords, EltTy.bits .f32 = 32 ∨ (Rect.block (s := S4x4096x256) S1x1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x256.size a ≤ S4x4096x256.size a
  hwx1_6 : ∀ i : grid1.Coords, EltTy.bits .f32 = 32 ∨ (Rect.block (s := S4x4096x256) S1x1024x256.size (cc1_transform_6 i) (hinb1_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S1x2048x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S1x2048x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_2) S1x2048x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v11_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S1x2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x512x8x256 : Shape := ⟨4, ![4, 512, 8, 256]⟩
abbrev S256x256 : Shape := ⟨2, ![256, 256]⟩
abbrev S256 : Shape := ⟨1, ![256]⟩
abbrev S1x1x1x256 : Shape := ⟨4, ![1, 1, 1, 256]⟩
abbrev S4x4096x256 : Shape := ⟨3, ![4, 4096, 256]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x512x8x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S4x512x8x256, .f32⟩
  | .hbm, ⟨12, _⟩ => ⟨S1x1x1x256, .f32⟩
  | .hbm, ⟨13, _⟩ => ⟨S4x512x8x256, .f32⟩
  | .hbm, ⟨14, _⟩ => ⟨S4x512x8x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S1x1x256, .f32⟩
  | .hbm, ⟨22, _⟩ => ⟨S4x4096x256, .f32⟩
  | .hbm, ⟨23, _⟩ => ⟨S4x4096x256, .f32⟩
  | .hbm, ⟨24, _⟩ => ⟨S4x4096x256, .f32⟩
  | .hbm, ⟨25, _⟩ => ⟨S1x1x256, .f32⟩
  | .hbm, ⟨26, _⟩ => ⟨S4x4096x256, .f32⟩
  | .hbm, ⟨27, _⟩ => ⟨S4x4096x256, .f32⟩
  | .hbm, ⟨28, _⟩ => ⟨S4x4096x4096, .f32⟩
  | .hbm, ⟨29, _⟩ => ⟨S_, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x256, .f32⟩
  | .hbm, ⟨48, _⟩ => ⟨S_, .f32⟩
  | .hbm, ⟨49, _⟩ => ⟨S_, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S1x1x256, .f32⟩
  | .hbm, ⟨54, _⟩ => ⟨S4x4096x256, .f32⟩
  | .hbm, ⟨55, _⟩ => ⟨S4x4096x256, .f32⟩
  | .hbm, ⟨56, _⟩ => ⟨S4x512x8x256, .f32⟩
  | .hbm, ⟨57, _⟩ => ⟨S4x512x8x256, .f32⟩
  | _, _ => ⟨S4x512x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S4x512x8x256_0_1_2_3 : S1x1x1x256.BroadcastsInDim S4x512x8x256 (![0, 1, 2, 3] : Fin 4 → Fin S4x512x8x256.rank)
  shapeCasts_S4x512x8x256_S4x4096x256 : S4x512x8x256.ShapeCasts S4x4096x256
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x256 : S_.BroadcastsInDim S4x4096x256 (![] : Fin 0 → Fin S4x4096x256.rank)
  shapeCasts_S4x4096x256_S4x512x8x256 : S4x4096x256.ShapeCasts S4x512x8x256
  dot_S4x512x8x256_S256x256_S4x512x8x256_3_1_012_0_n_n_wf : DotDims.WF S4x512x8x256 S256x256 S4x512x8x256 [3] [1] [0, 1, 2] [0] [] []
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x512x8x256_S256x256_S4x512x8x256_3_1_012_0_n_n : DotDims S4x512x8x256 S256x256 S4x512x8x256 where
  lhsContracting := [3]
  rhsContracting := [1]
  lhsNonContracting := [0, 1, 2]
  rhsNonContracting := [0]
  lhsBatch := []
  rhsBatch := []
  wf := dot_S4x512x8x256_S256x256_S4x512x8x256_3_1_012_0_n_n_wf
def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Bits.R0Defs.lean ====
/-
  The projection region (the first pallas_call): what each grid point reads and what it leaves.
  A point (b, n) of the 4 × 2 grid reads rows [2048 n, 2048 n + 2048) of batch b of the reshaped input and the
  four weight matrices with their biases, whole; it leaves in its three output blocks
    θ' = ((x·Wc + bc)·Wθ + bθ) · 2⁻⁴,   φ = (x·Wc + bc)·Wφ + bφ,   g = (x·Wc + bc)·Wg + bg,
  each as the one whole-block store of the corresponding arithmetic term of the kernel body.
-/
import proofs.«419256_j1580547972144_3_alg».proof.Proof.Gen.Kernel.Launch
import proofs.«419256_j1580547972144_3_alg».proof.Proof.Gen.Kernel.Skeleton
import proofs.«419256_j1580547972144_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block, the whole weight matrix, the whole bias row: the only rectangles the body touches. -/
abbrev rX0 : Rect S1x2048x256 := Rect.unit (s := S1x2048x256) ![0, 0, 0] S1x2048x256.size inb_S1x2048x256_S1x2048x256_0_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The scaled θ block: the body's one store into output window 9. -/
def out0_9 (x : Vec F S1x2048x256 .f32) (wc : Vec F S256x256 .f32) (bc : Vec F S1x256 .f32) (wt : Vec F S256x256 .f32) (bt : Vec F S1x256 .f32) :
    Vec F S1x2048x256 .bf16 :=
  View.canon [⟨rX0, k0_pay4 (View.ld x rX0) (View.ld wc rW0) (View.ld bc rB0) (View.ld wt rW0) (View.ld bt rB0)⟩]

/-- The φ block: the body's one store into output window 10. -/
def out0_10 (x : Vec F S1x2048x256 .f32) (wc : Vec F S256x256 .f32) (bc : Vec F S1x256 .f32) (wp : Vec F S256x256 .f32) (bp : Vec F S1x256 .f32) :
    Vec F S1x2048x256 .bf16 :=
  View.canon [⟨rX0, k0_pay1 (k0_pay5 (View.ld x rX0) (View.ld wc rW0) (View.ld bc rB0) (View.ld wp rW0) (View.ld bp rB0))⟩]

/-- The g block: the body's one store into output window 11. -/
def out0_11 (x : Vec F S1x2048x256 .f32) (wc : Vec F S256x256 .f32) (bc : Vec F S1x256 .f32) (wg : Vec F S256x256 .f32) (bg : Vec F S1x256 .f32) :
    Vec F S1x2048x256 .bf16 :=
  View.canon [⟨rX0, k0_pay2 (k0_pay3 (View.ld x rX0) (View.ld wc rW0) (View.ld bc rB0)) (View.ld wg rW0) (View.ld bg rB0)⟩]

/-- The proof data of the projection pipeline on core `c`: the arrays as the region finds them; after the body at
    point `t` each input's buffer at its block and each output's at the stored term of the input blocks; the
    class invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 5 t) (iblk0 V c 6 t)
    | ⟨11, _⟩ => out0_11 (iblk0 V c 0 t) (iblk0 V c 1 t) (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 5 t) (iblk0 V c 6 t) := by dsimp only [dat0]
theorem after0_11 (c : Dev nD) (t : Fin cfg0.N) : (dat0 V c).after 11 t = out0_11 (iblk0 V c 0 t) (iblk0 V c 1 t) (iblk0 V c 2 t) (iblk0 V c 7 t) (iblk0 V c 8 t) := by dsimp only [dat0]

end Region0

end Cert.Kernel.Hand

end
-- ==== Proof.Bits.R0.lean ====
/-
  The projection region: the body obligation of its pipeline.
  At a point (b, n) of the 4 × 2 grid every input window's current buffer holds that window's block of its
  array, whether or not the block was moved there at this very point: the row block of x changes with every
  point and is moved every time, while the four weight matrices and their bias rows have one block each, moved
  once, which the body only reads. Started on buffers holding these nine blocks, the body stores
    θ' = ((x·Wc + bc)·Wθ + bθ) · 2⁻⁴,   φ = (x·Wc + bc)·Wφ + bφ,   g = (x·Wc + bc)·Wg + bg
  over the whole of its three output buffers (whatever they held before: the body reads each once and drops
  the value), and leaves the inputs as they were.
-/
import proofs.«419256_j1580547972144_3_alg».proof.Proof.Gen.Kernel.Launch
import proofs.«419256_j1580547972144_3_alg».proof.Proof.Gen.Kernel.Skeleton
import proofs.«419256_j1580547972144_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.Bits.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## What the body finds in each input window's buffer -/

/-- x's row block: moved at every point, so the buffer holds the block of this point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Wc, whole: one block, moved at the first point only and left in place by the body, so it is still
    there at every later point. The same holds of the seven windows after it. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- bc. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Wθ. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- bθ. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Wφ. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- bφ. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Wg. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- bg. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body's triple -/

/-- A single whole-block store covers the block. -/
theorem cover0_X (p : rX0.shape.Idx → Elt F .bf16) (y : S1x2048x256.Idx) :
    ∃ pc ∈ ([⟨rX0, p⟩] : List (View.Piece (Elt F) S1x2048x256 .bf16)), y ∈ pc.1.set :=
  View.cover_of_tiled [⟨rX0, p⟩] S1x2048x256.size (by rfl) y

set_option maxHeartbeats 1000000 in
/-- The body on whole buffers, the nine inputs' at contents x0 … x8 and the three outputs' at anything: it runs to its
    continuation with the inputs' buffers unchanged and each output's holding the stored term of x0 … x8. Each
    output buffer is written once, over its whole extent, so what it held before does not show. -/
theorem sound_kernel0 (c : Dev nD) (E : Set ℕ) (i : grid0.Coords)
    (a0 : Memref sig .tc .vmem S1x2048x256 .f32) (h0 : a0.IsWhole)
    (a1 : Memref sig .tc .vmem S256x256 .f32) (h1 : a1.IsWhole)
    (a2 : Memref sig .tc .vmem S1x256 .f32) (h2 : a2.IsWhole)
    (a3 : Memref sig .tc .vmem S256x256 .f32) (h3 : a3.IsWhole)
    (a4 : Memref sig .tc .vmem S1x256 .f32) (h4 : a4.IsWhole)
    (a5 : Memref sig .tc .vmem S256x256 .f32) (h5 : a5.IsWhole)
    (a6 : Memref sig .tc .vmem S1x256 .f32) (h6 : a6.IsWhole)
    (a7 : Memref sig .tc .vmem S256x256 .f32) (h7 : a7.IsWhole)
    (a8 : Memref sig .tc .vmem S1x256 .f32) (h8 : a8.IsWhole)
    (a9 : Memref sig .tc .vmem S1x2048x256 .bf16) (h9 : a9.IsWhole)
    (a10 : Memref sig .tc .vmem S1x2048x256 .bf16) (h10 : a10.IsWhole)
    (a11 : Memref sig .tc .vmem S1x2048x256 .bf16) (h11 : a11.IsWhole)
    (x0 : Vec F S1x2048x256 .f32) (x1 : Vec F S256x256 .f32) (x2 : Vec F S1x256 .f32)
    (x3 : Vec F S256x256 .f32) (x4 : Vec F S1x256 .f32) (x5 : Vec F S256x256 .f32) (x6 : Vec F S1x256 .f32)
    (x7 : Vec F S256x256 .f32) (x8 : Vec F S1x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ owns (c : Thread nD τ) a6 fullShare x6 ∗ owns (c : Thread nD τ) a7 fullShare x7
        ∗ owns (c : Thread nD τ) a8 fullShare x8
        ∗ (∃ d, owns (c : Thread nD τ) a9 fullShare d) ∗ (∃ d, owns (c : Thread nD τ) a10 fullShare d)
        ∗ (∃ d, owns (c : Thread nD τ) a11 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare x8
            ∗ owns (c : Thread nD τ) a9 fullShare (out0_9 x0 x1 x2 x3 x4)
            ∗ owns (c : Thread nD τ) a10 fullShare (out0_10 x0 x1 x2 x5 x6)
            ∗ owns (c : Thread nD τ) a11 fullShare (out0_11 x0 x1 x2 x7 x8)) -∗ K ⟨⟩))
      ⊢ wp frame (wpE (defs₀ (F := F)) Variants.none c none) E
          (cc0_proj_kernel i a0 h0 a1 h1 a2 h2 a3 h3 a4 h4 a5 h5 a6 h6 a7 h7 a8 h8 a9 h9 a10 h10 a11 h11) K := by
  simp only [cc0_proj_kernel_eq_skeleton]; unfold cc0_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact View.read_writes_eq_canon _ _ _ (cover0_X _)
  isplitl [H10]
  · iexists _; isplitr
    swap; · iexact H10
    ipureintro
    exact View.read_writes_eq_canon _ _ _ (cover0_X _)
  iexists _; isplitr
  swap; · iexact H11
  ipureintro
  exact View.read_writes_eq_canon _ _ _ (cover0_X _)

/-! ## The body obligation, at a generic point -/

/-- What the body is handed at point t: the class invariant, the core's debts, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' buffers hold their blocks, so the body's triple applies at those blocks; the
    invariant and the core's debts do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Bits.R1Defs.lean ====
/-
  The attention region (the second pallas_call): what each grid point reads, what it carries in its three scratch
  buffers, and what it leaves. A point (b, i, j) of the 4 × 4 × 2 grid reads query rows [1024 i, 1024 i + 1024) of
  θ', key/value rows [2048 j, 2048 j + 2048) of φ and g, and the residual rows of x. The scratch carries, per query
  row, the running maximum m, the running sum l of exp(s − m) and the running weighted sum acc of the g rows. At
  j = 0 the three are reset (−∞, 0, 0) before the update; at j = 1 (the last kv block) the epilogue stores
  ((acc / l) · 2⁻⁶) · Wf + bf + x into the output block.
-/
import proofs.«419256_j1580547972144_3_alg».proof.Proof.Gen.Kernel.Launch
import proofs.«419256_j1580547972144_3_alg».proof.Proof.Gen.Kernel.Skeleton
import proofs.«419256_j1580547972144_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks the body touches: the query rows, the key/value rows, a column, the accumulator, the weight and the bias. -/
abbrev rQ1 : Rect S1x1024x256 := Rect.unit (s := S1x1024x256) ![0, 0, 0] S1x1024x256.size inb_S1x1024x256_S1x1024x256_0_0_0
abbrev rK1 : Rect S1x2048x256 := Rect.unit (s := S1x2048x256) ![0, 0, 0] S1x2048x256.size inb_S1x2048x256_S1x2048x256_0_0_0
abbrev rM1 : Rect S1024x1 := Rect.unit (s := S1024x1) ![0, 0] S1024x1.size inb_S1024x1_S1024x1_0_0
abbrev rA1 : Rect S1024x256 := Rect.unit (s := S1024x256) ![0, 0] S1024x256.size inb_S1024x256_S1024x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0

/-- The scratch operands: whole scoped buffers of the kernel's own (the running maximum, the running sum, the accumulator). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-- What the reset stores: −∞ for the maximum, 0 for the sum and the accumulator. -/
def mInit1 : Vec F S1024x1 .f32 := k1_pay4 (F := F)
def lInit1 : Vec F S1024x1 .f32 := k1_pay5 (F := F)
def aInit1 : Vec F S1024x256 .f32 := k1_pay6 (F := F)

/-- One kv step of the running maximum: max(m, rowmax(q·kᵀ)). -/
def mStep1 (q : Vec F S1x1024x256 .bf16) (k : Vec F S1x2048x256 .bf16) (m0 : Vec F S1024x1 .f32) : Vec F S1024x1 .f32 :=
  k1_pay2 (k1_pay9 q k m0)
/-- One kv step of the running sum: exp(m − m')·l + Σ exp(s − m'). -/
def lStep1 (q : Vec F S1x1024x256 .bf16) (k : Vec F S1x2048x256 .bf16) (m0 l0 : Vec F S1024x1 .f32) : Vec F S1024x1 .f32 :=
  k1_pay12 q k m0 m0 l0
/-- One kv step of the accumulator: exp(m − m')·acc + exp(s − m')·v. -/
def aStep1 (q : Vec F S1x1024x256 .bf16) (k v : Vec F S1x2048x256 .bf16) (m0 : Vec F S1024x1 .f32) (a0 : Vec F S1024x256 .f32) : Vec F S1024x256 .f32 :=
  k1_pay1 (k1_pay7 v) (k1_pay13 q k m0) a0 (k1_pay14 q k m0 m0)
/-- The epilogue's store: ((acc / l)·2⁻⁶)·Wf + bf + residual. -/
def oFin1 (a : Vec F S1024x256 .f32) (l : Vec F S1024x1 .f32) (wf : Vec F S256x256 .f32) (bf : Vec F S1x256 .f32) (res : Vec F S1x1024x256 .f32) :
    Vec F S1x1024x256 .f32 :=
  k1_pay3 a l wf bf res

/-- The scratch (maximum, sum, accumulator) after a point that resets it first: one step from the reset values. -/
def scReset1 (c : Dev nD) (t : Fin cfg1.N) : Vec F S1024x1 .f32 × Vec F S1024x1 .f32 × Vec F S1024x256 .f32 :=
  (mStep1 (iblk1 V c 0 t) (iblk1 V c 1 t) mInit1,
   lStep1 (iblk1 V c 0 t) (iblk1 V c 1 t) mInit1 lInit1,
   aStep1 (iblk1 V c 0 t) (iblk1 V c 1 t) (iblk1 V c 2 t) mInit1 aInit1)

/-- The scratch after point `n`: at an even point (kv block 0) one step from the reset values; at an odd point
    (kv block 1) one step from what the even point before it left. -/
def scAt1 (c : Dev nD) (n : ℕ) (hn : n < cfg1.N) : Vec F S1024x1 .f32 × Vec F S1024x1 .f32 × Vec F S1024x256 .f32 :=
  if n % 2 = 0 then scReset1 V c ⟨n, hn⟩
  else
    let p := scReset1 V c ⟨n - 1, Nat.lt_of_le_of_lt (Nat.sub_le _ _) hn⟩
    (mStep1 (iblk1 V c 0 ⟨n, hn⟩) (iblk1 V c 1 ⟨n, hn⟩) p.1,
     lStep1 (iblk1 V c 0 ⟨n, hn⟩) (iblk1 V c 1 ⟨n, hn⟩) p.1 p.2.1,
     aStep1 (iblk1 V c 0 ⟨n, hn⟩) (iblk1 V c 1 ⟨n, hn⟩) (iblk1 V c 2 ⟨n, hn⟩) p.1 p.2.2)

/-- The output block after point `t` (stored at the odd points only; elsewhere a placeholder nothing reads). -/
def out1_6 (c : Dev nD) (t : Fin cfg1.N) : Vec F S1x1024x256 .f32 :=
  oFin1 (scAt1 V c t.val t.isLt).2.2 (scAt1 V c t.val t.isLt).2.1 (iblk1 V c 4 t) (iblk1 V c 5 t) (iblk1 V c 3 t)

/-- The core's scoped buffers that are no staging buffer of this pipeline and no scratch (the projection pipeline's
    staging buffers), each whole at some contents, beside a rest `T`. -/
def stgWith1 (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ T)

/-- The region invariant before position `n`: before the first point the class's (every scratch at anything);
    afterwards the scoped rest with the three scratch buffers at what the point before left, and the generator register
    at some state. -/
def PhiS1 (c : Dev nD) : (n : ℕ) → n ≤ cfg1.N → sProp 𝕄
  | 0, _ => Pipeline.ΦA spec1 c
  | n + 1, hn => iprop(stgWith1 c iprop(owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r))

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

end Region1

end Cert.Kernel.Hand

end
-- ==== Proof.Bits.R1.lean ====
/-
  The attention region's body at a grid point, in its two cases, and the region invariant carried between points.

  A point (b, i, j) with j = 0 (the even points) resets the three scratch buffers to (−∞, 0, 0), makes one step of the
  running maximum, sum and accumulator from those values, and stores nothing into the output block. A point with
  j = 1 (the odd points) makes the same step from what the even point before it left, and then stores
  ((acc / l) · 2⁻⁶) · Wf + bf + x into the output block. The invariant before a point other than the first holds the
  three scratch buffers at what the point before left.
-/
import proofs.«419256_j1580547972144_3_alg».proof.Proof.Gen.Kernel.Launch
import proofs.«419256_j1580547972144_3_alg».proof.Proof.Gen.Kernel.Skeleton
import proofs.«419256_j1580547972144_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«419256_j1580547972144_3_alg».proof.Proof.Bits.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace R1

/-- The condition of the body's first branch (the reset), from the grid coordinates. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The condition of the body's second branch (the epilogue). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The zero offsets of a whole-buffer rectangle, rank two and rank three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store went through the whole-shape rectangle at zero offsets reads that store's payload,
    whatever was stored before and whatever it held: the store covers every index. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

set_option maxHeartbeats 1000000 in
/-- The body at a point of kv block 0 (the reset taken, the epilogue not), on whole memrefs: the inputs at their
    contents, the output's buffer at contents `xo` it never touches, the three scratch buffers at anything. It runs to
    the continuation holding the inputs and the output's buffer as they were and the scratch at one step from the
    reset values: the reset's stores are overwritten by the update's, each load of a scratch after its reset reads
    the reset value. -/
theorem runEven (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .f32) (harg12 : arg12.IsWhole) (hc0 : cond1_0 i) (hc1 : ¬cond1_1 i)
    (q : Vec F S1x1024x256 .bf16) (k v : Vec F S1x2048x256 .bf16) (res : Vec F S1x1024x256 .f32) (wf : Vec F S256x256 .f32) (bf : Vec F S1x256 .f32)
    (xo : Vec F S1x1024x256 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
        ∗ owns (c : Thread nD τ) arg9 fullShare xo
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
            ∗ owns (c : Thread nD τ) arg9 fullShare xo
            ∗ owns (c : Thread nD τ) arg10 fullShare (mStep1 q k mInit1)
            ∗ owns (c : Thread nD τ) arg11 fullShare (lStep1 q k mInit1 lInit1)
            ∗ owns (c : Thread nD τ) arg12 fullShare (aStep1 q k v mInit1 aInit1)) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10 arg11 harg11 arg12 harg12) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [HS0]
  · iexists _; isplitr
    swap; · iexact HS0
    ipureintro
    sl_unfold_words
    rw [read_writes_cons_whole (S := S1024x1) _ _ hz2]
    simp only [View.readAt_eq_ld, harg3.read_unread, harg4.read_unread, View.ld_unit_zero (S := S1x1024x256) hz3,
      View.ld_unit_zero (S := S1x2048x256) hz3, View.readCov_unit_zero (S := S1024x1) _ hz2, mStep1, mInit1]
  isplitl [HS1]
  · iexists _; isplitr
    swap; · iexact HS1
    ipureintro
    sl_unfold_words
    rw [read_writes_cons_whole (S := S1024x1) _ _ hz2]
    simp only [View.readAt_eq_ld, harg3.read_unread, harg4.read_unread, View.ld_unit_zero (S := S1x1024x256) hz3,
      View.ld_unit_zero (S := S1x2048x256) hz3, View.readCov_unit_zero (S := S1024x1) _ hz2, lStep1, mInit1, lInit1]
  · iexists _; isplitr
    swap; · iexact HS2
    ipureintro
    sl_unfold_words
    rw [read_writes_cons_whole (S := S1024x256) _ _ hz2]
    simp only [View.readAt_eq_ld, harg3.read_unread, harg4.read_unread, harg5.read_unread, View.ld_unit_zero (S := S1x1024x256) hz3,
      View.ld_unit_zero (S := S1x2048x256) hz3, View.readCov_unit_zero (S := S1024x1) _ hz2,
      View.readCov_unit_zero (S := S1024x256) _ hz2, aStep1, mInit1, aInit1]

set_option maxHeartbeats 1000000 in
/-- The body at a point of kv block 1 (the reset not taken, the epilogue taken), on whole memrefs: the inputs at their
    contents, the output's buffer at anything, the three scratch buffers at `m0`, `l0`, `a0`. It runs to the
    continuation holding the inputs as they were, the scratch at one step from (`m0`, `l0`, `a0`), and the output's
    buffer at the epilogue's value of the stepped accumulator and sum: the epilogue's loads of the scratch read what
    the update just stored. -/
theorem runOdd (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .f32) (harg12 : arg12.IsWhole) (hc0 : ¬cond1_0 i) (hc1 : cond1_1 i)
    (q : Vec F S1x1024x256 .bf16) (k v : Vec F S1x2048x256 .bf16) (res : Vec F S1x1024x256 .f32) (wf : Vec F S256x256 .f32) (bf : Vec F S1x256 .f32)
    (m0 l0 : Vec F S1024x1 .f32) (a0 : Vec F S1024x256 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
        ∗ (∃ d, owns (c : Thread nD τ) arg9 fullShare d)
        ∗ owns (c : Thread nD τ) arg10 fullShare m0 ∗ owns (c : Thread nD τ) arg11 fullShare l0 ∗ owns (c : Thread nD τ) arg12 fullShare a0
        ∗ (iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
            ∗ owns (c : Thread nD τ) arg9 fullShare (oFin1 (aStep1 q k v m0 a0) (lStep1 q k m0 l0) wf bf res)
            ∗ owns (c : Thread nD τ) arg10 fullShare (mStep1 q k m0)
            ∗ owns (c : Thread nD τ) arg11 fullShare (lStep1 q k m0 l0)
            ∗ owns (c : Thread nD τ) arg12 fullShare (aStep1 q k v m0 a0)) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10 arg11 harg11 arg12 harg12) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg10.eq_unread hfs0; obtain rfl := harg11.eq_unread hfs1; obtain rfl := harg12.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_writes_cons_whole (S := S1x1024x256) _ _ hz3]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  isplitl [HS0]
  · iexists _; isplitr
    swap; · iexact HS0
    ipureintro
    sl_unfold_words
    rw [read_writes_cons_whole (S := S1024x1) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  isplitl [HS1]
  · iexists _; isplitr
    swap; · iexact HS1
    ipureintro
    sl_unfold_words
    rw [read_writes_cons_whole (S := S1024x1) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  · iexists _; isplitr
    swap; · iexact HS2
    ipureintro
    sl_unfold_words
    rw [read_writes_cons_whole (S := S1024x256) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]

section Region1
-- the TensorCore's buffer contents when the region is entered
variable (V : (c : Dev nD) → (b : Ref sig .tc) → Buf (Elt F) ((c : Thread nD τ).loc b))

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the even points (kv block 0) the output block is idle: the epilogue is not taken; -/
theorem idleAt1_6_even : ∀ t : Fin cfg1.N, t.val % 2 = 0 → cfg1.idle 6 (grid1.coords t) = true :=
  (by decide +kernel : ∀ t : Fin grid1.N, t.val % 2 = 0 → cfg1.idle 6 (grid1.coords t) = true)
/-- and the pipeline does not write it back there. -/
theorem noFlush1_6_even (t : Fin cfg1.N) (h : t.val % 2 = 0) : (cfg1.win 6).flush t = false := by
  cases hf : (cfg1.win 6).flush t with
  | false => rfl
  | true => exact absurd ((flush1_6 t).mp hf) (by omega)
/-- At the odd points (kv block 1) the output block is live: the epilogue stores it. -/
theorem liveAt1_6_odd : ∀ t : Fin cfg1.N, t.val % 2 = 1 → cfg1.idle 6 (grid1.coords t) = false :=
  (by decide +kernel : ∀ t : Fin grid1.N, t.val % 2 = 1 → cfg1.idle 6 (grid1.coords t) = false)

/-! ## The staging memrefs at a point -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x256 .f32 := win1_6.stage (cfg1.slots t 6)
abbrev hs1_6 (t : Fin cfg1.N) : (ms1_6 t).IsWhole := hstage1_6 ((cfg1.slots t 6).cast nbuf1_6)

/-! ## The scratch contents, point by point -/

/-- At an even point the scratch is one step from the reset values. -/
theorem scAt1_of_even (c : Dev nD) (n : ℕ) (hn : n < cfg1.N) (h : n % 2 = 0) : scAt1 V c n hn = scReset1 V c ⟨n, hn⟩ := by
  unfold scAt1; rw [if_pos h]

/-- At an odd point it is one step from what the point before left: that point is even, so what it left is one step
    from the reset values. -/
theorem scAt1_of_odd (c : Dev nD) (n : ℕ) (hn : n < cfg1.N) (h : n % 2 = 1) :
    scAt1 V c n hn =
      (mStep1 (iblk1 V c 0 ⟨n, hn⟩) (iblk1 V c 1 ⟨n, hn⟩) (scAt1 V c (n - 1) (Nat.lt_of_le_of_lt (Nat.sub_le _ _) hn)).1,
       lStep1 (iblk1 V c 0 ⟨n, hn⟩) (iblk1 V c 1 ⟨n, hn⟩) (scAt1 V c (n - 1) (Nat.lt_of_le_of_lt (Nat.sub_le _ _) hn)).1
         (scAt1 V c (n - 1) (Nat.lt_of_le_of_lt (Nat.sub_le _ _) hn)).2.1,
       aStep1 (iblk1 V c 0 ⟨n, hn⟩) (iblk1 V c 1 ⟨n, hn⟩) (iblk1 V c 2 ⟨n, hn⟩) (scAt1 V c (n - 1) (Nat.lt_of_le_of_lt (Nat.sub_le _ _) hn)).1
         (scAt1 V c (n - 1) (Nat.lt_of_le_of_lt (Nat.sub_le _ _) hn)).2.2) := by
  rw [scAt1_of_even V c (n - 1) _ (by omega)]
  unfold scAt1; rw [if_neg (by omega)]

theorem scAt1_even (c : Dev nD) (t : Fin cfg1.N) (h : t.val % 2 = 0) : scAt1 V c t.val t.isLt = scReset1 V c t :=
  scAt1_of_even V c t.val t.isLt h

theorem scAt1_odd (c : Dev nD) (t : Fin cfg1.N) (h : t.val % 2 = 1) :
    scAt1 V c t.val t.isLt =
      (mStep1 (iblk1 V c 0 t) (iblk1 V c 1 t) (scAt1 V c (t.val - 1) (Nat.lt_of_le_of_lt (Nat.sub_le _ _) t.isLt)).1,
       lStep1 (iblk1 V c 0 t) (iblk1 V c 1 t) (scAt1 V c (t.val - 1) (Nat.lt_of_le_of_lt (Nat.sub_le _ _) t.isLt)).1
         (scAt1 V c (t.val - 1) (Nat.lt_of_le_of_lt (Nat.sub_le _ _) t.isLt)).2.1,
       aStep1 (iblk1 V c 0 t) (iblk1 V c 1 t) (iblk1 V c 2 t) (scAt1 V c (t.val - 1) (Nat.lt_of_le_of_lt (Nat.sub_le _ _) t.isLt)).1
         (scAt1 V c (t.val - 1) (Nat.lt_of_le_of_lt (Nat.sub_le _ _) t.isLt)).2.2) :=
  scAt1_of_odd V c t.val t.isLt h

/-! ## The invariant -/

/-- What the launch hands the region, with the scratch operands as memrefs owned at some contents. -/
theorem PhiA1_eq (c : Dev nD) :
    (Pipeline.ΦA spec1 c : sProp 𝕄)
      = iprop(stgWith1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA stgWith1; rw [scopedRest1_eq]; simp only [scM1_0, scM1_1, scM1_2, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(stgWith1 c iprop(owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r)) := rfl

/-- Before a point that is not the first: the scratch at what the point before left. -/
theorem PhiS1_pos (c : Dev nD) (n : ℕ) (h : n ≤ cfg1.N) (hz : n ≠ 0) :
    PhiS1 V c n h = iprop(stgWith1 c iprop(owns (c : Thread nD τ) scM1_0 fullShare (scAt1 V c (n - 1) (by omega)).1
      ∗ owns (c : Thread nD τ) scM1_1 fullShare (scAt1 V c (n - 1) (by omega)).2.1
      ∗ owns (c : Thread nD τ) scM1_2 fullShare (scAt1 V c (n - 1) (by omega)).2.2) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks. At an even point the reset case runs: the invariant
    hands it the scratch at anything (the class's at the first point; what the odd point before left, forgotten,
    afterwards) and takes it back one step from the reset values; the output's buffer is handed back untouched. At an
    odd point the epilogue case runs from what the even point before left, and leaves the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_even t h0) (noFlush1_6_even t h0)]
    rw [scAt1_even V c t h0]
    unfold scReset1; dsimp only
    by_cases hz : t.val = 0
    · rw [PhiS1_castSucc V c t, PhiS1_zero V c _ _ hz, PhiA1_eq]
      unfold stgWith1
      iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runEven c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
        (iblk1 V c 0 t) (iblk1 V c 1 t) (iblk1 V c 2 t) (iblk1 V c 3 t) (iblk1 V c 4 t) (iblk1 V c 5 t) ((dat1 V c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [G0 G1 G2 G3 G4 G5 G6 G7 G8 G9 G10 G11 G12 G13 G14 G15 HS0 HS1 HS2 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [HS0]; · iexact HS0
        isplitl [HS1]; · iexact HS1
        iexact HS2

      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      unfold stgWith1
      iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runEven c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
        (iblk1 V c 0 t) (iblk1 V c 1 t) (iblk1 V c 2 t) (iblk1 V c 3 t) (iblk1 V c 4 t) (iblk1 V c 5 t) ((dat1 V c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [G0 G1 G2 G3 G4 G5 G6 G7 G8 G9 G10 G11 G12 G13 G14 G15 HS0 HS1 HS2 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [HS0]; · iexact HS0
        isplitl [HS1]; · iexact HS1
        iexact HS2

      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h1 : t.val % 2 = 1 := by omega
    have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6_odd t h1], after1_6]
    unfold out1_6
    rw [scAt1_odd V c t h1]
    dsimp only
    rw [PhiS1_castSucc V c t, PhiS1_pos V c _ _ hz]
    unfold stgWith1
    iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (runOdd c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
      (iblk1 V c 0 t) (iblk1 V c 1 t) (iblk1 V c 2 t) (iblk1 V c 3 t) (iblk1 V c 4 t) (iblk1 V c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [G0 G1 G2 G3 G4 G5 G6 G7 G8 G9 G10 G11 G12 G13 G14 G15 HS0 HS1 HS2 Hg]
    · isplitr [Hg]
      swap; · iexact Hg
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [HS0]; · iexact HS0
      isplitl [HS1]; · iexact HS1
      iexact HS2

    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- After any point but the first the invariant gives the launch's back: the scratch's named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold stgWith1
  iintro ⟨⟨G0, G1, G2, G3, G4, G5, G6, G7, G8, G9, G10, G11, G12, G13, G14, G15, HS0, HS1, HS2⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [HS0]; · iexists _; iexact HS0
  isplitl [HS1]; · iexists _; iexact HS1
  iexists _; iexact HS2

end Region1

end R1

open R1

section Region1
-- the TensorCore's buffer contents when the region is entered
variable (V : (c : Dev nD) → (b : Ref sig .tc) → Buf (Elt F) ((c : Thread nD τ).loc b))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- The same after the last point. -/
theorem hout1 (c : Dev nD) : (dat1 (F := F) V c).Φ (Fin.last cfg1.N) ⊢ Pipeline.ΦA spec1 c :=
  Phi_out1 V c _ (by rw [Fin.val_last]; have : cfg1.N = 32 := N_1; omega)

end Region1

end Cert.Kernel.Hand

end
-- ==== Proof.Bits.Run.lean ====
/-
  The run of @main over the two regions: the buffer contents at every segment boundary (the host stretch before the
  regions, the projection region, the attention region, the reshape after them), each region as a segment over the
  thread state "every unscoped buffer at the boundary's contents", and the launch: every weakly fair execution
  terminates with every unscoped buffer at the last boundary's contents. From it: no argument array is written, and the
  result array is the reshape of what the attention region leaves in its output array.
-/
import proofs.«419256_j1580547972144_3_alg».proof.Proof.Gen.Kernel.Launch
import proofs.«419256_j1580547972144_3_alg».proof.Proof.Gen.Kernel.Skeleton
import proofs.«419256_j1580547972144_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.Gen.Kernel.Regions
import proofs.«419256_j1580547972144_3_alg».proof.Proof.Bits.R0
import proofs.«419256_j1580547972144_3_alg».proof.Proof.Bits.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch before the regions (the reshape of the input, the transposed weights, the bias rows). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape that follows the regions. -/
abbrev W4 : Dev nD → Valuation τ sig (Elt F) := fun c => StableHlo.after hostOps2 (W3 m ρ c)

/-! ### No segment writes an argument -/

/-- A buffer that no host operation writes and that is no window's array of either region ends as launched. -/
theorem W4_kept (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m ρ c (Proc.devRef .tc b) = m ((c : Thread nD τ).loc b) :=
  (StableHlo.after_of_writes_sub hostOps2 _ hostOps2_writes h2).trans <|
    (W3_of_ne m ρ c b hs1).trans <| (W2_of_ne m ρ c b hs0).trans <|
      (StableHlo.after_of_writes_sub hostOps0 _ hostOps0_writes h0).trans rfl

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W4_main_arg10 (c : Dev nD) : W4 m ρ c (Proc.devRef .tc main_arg10) = m ((c : Thread nD τ).loc main_arg10) :=
  W4_kept m ρ c main_arg10 (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the generator register and the scoped
    rest go into the region's invariant at its first point and come back from it after its last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: no argument array is written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c)⟩) (run_main m ρ)

end Cert.Kernel.Hand

end
-- ==== Proof.R0Defs.lean ====
/-
  The projection region (the first pallas_call): what each grid point reads and what it leaves.
  A point (b, n) of the 4 × 2 grid reads rows [2048 n, 2048 n + 2048) of batch b of the reshaped input and the
  four weight matrices with their biases, whole; it leaves in its three output blocks
    θ' = ((x·Wc + bc)·Wθ + bθ) · 2⁻⁴,   φ = (x·Wc + bc)·Wφ + bφ,   g = (x·Wc + bc)·Wg + bg,
  each as the one whole-block store of the corresponding arithmetic term of the kernel body.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block, the whole weight matrix, the whole bias row: the only rectangles the body touches. -/
abbrev rX0 : Rect S1x2048x256 := Rect.unit (s := S1x2048x256) ![0, 0, 0] S1x2048x256.size inb_S1x2048x256_S1x2048x256_0_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The scaled θ block: the body's one store into output window 9. -/
def out0_9 (x : Vec F S1x2048x256 .f32) (wc : Vec F S256x256 .f32) (bc : Vec F S1x256 .f32) (wt : Vec F S256x256 .f32) (bt : Vec F S1x256 .f32) :
    Vec F S1x2048x256 .bf16 :=
  View.canon [⟨rX0, k0_pay4 (View.ld x rX0) (View.ld wc rW0) (View.ld bc rB0) (View.ld wt rW0) (View.ld bt rB0)⟩]

/-- The φ block: the body's one store into output window 10. -/
def out0_10 (x : Vec F S1x2048x256 .f32) (wc : Vec F S256x256 .f32) (bc : Vec F S1x256 .f32) (wp : Vec F S256x256 .f32) (bp : Vec F S1x256 .f32) :
    Vec F S1x2048x256 .bf16 :=
  View.canon [⟨rX0, k0_pay1 (k0_pay5 (View.ld x rX0) (View.ld wc rW0) (View.ld bc rB0) (View.ld wp rW0) (View.ld bp rB0))⟩]

/-- The g block: the body's one store into output window 11. -/
def out0_11 (x : Vec F S1x2048x256 .f32) (wc : Vec F S256x256 .f32) (bc : Vec F S1x256 .f32) (wg : Vec F S256x256 .f32) (bg : Vec F S1x256 .f32) :
    Vec F S1x2048x256 .bf16 :=
  View.canon [⟨rX0, k0_pay2 (k0_pay3 (View.ld x rX0) (View.ld wc rW0) (View.ld bc rB0)) (View.ld wg rW0) (View.ld bg rB0)⟩]

/-- The proof data of the projection pipeline on core `c`: the arrays as the region finds them; after the body at
    point `t` each input's buffer at its block and each output's at the stored term of the input blocks; the
    class invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 5 t) (iblk0 V c 6 t)
    | ⟨11, _⟩ => out0_11 (iblk0 V c 0 t) (iblk0 V c 1 t) (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 5 t) (iblk0 V c 6 t) := by dsimp only [dat0]
theorem after0_11 (c : Dev nD) (t : Fin cfg0.N) : (dat0 V c).after 11 t = out0_11 (iblk0 V c 0 t) (iblk0 V c 1 t) (iblk0 V c 2 t) (iblk0 V c 7 t) (iblk0 V c 8 t) := by dsimp only [dat0]

end Region0

end Cert.KernelIdeal.Hand

end
-- ==== Proof.R0.lean ====
/-
  The projection region: the body obligation of its pipeline.
  At a point (b, n) of the 4 × 2 grid every input window's current buffer holds that window's block of its
  array, whether or not the block was moved there at this very point: the row block of x changes with every
  point and is moved every time, while the four weight matrices and their bias rows have one block each, moved
  once, which the body only reads. Started on buffers holding these nine blocks, the body stores
    θ' = ((x·Wc + bc)·Wθ + bθ) · 2⁻⁴,   φ = (x·Wc + bc)·Wφ + bφ,   g = (x·Wc + bc)·Wg + bg
  over the whole of its three output buffers (whatever they held before: the body reads each once and drops
  the value), and leaves the inputs as they were.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## What the body finds in each input window's buffer -/

/-- x's row block: moved at every point, so the buffer holds the block of this point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Wc, whole: one block, moved at the first point only and left in place by the body, so it is still
    there at every later point. The same holds of the seven windows after it. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- bc. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Wθ. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- bθ. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Wφ. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- bφ. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Wg. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- bg. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body's triple -/

/-- A single whole-block store covers the block. -/
theorem cover0_X (p : rX0.shape.Idx → Elt F .bf16) (y : S1x2048x256.Idx) :
    ∃ pc ∈ ([⟨rX0, p⟩] : List (View.Piece (Elt F) S1x2048x256 .bf16)), y ∈ pc.1.set :=
  View.cover_of_tiled [⟨rX0, p⟩] S1x2048x256.size (by rfl) y

set_option maxHeartbeats 1000000 in
/-- The body on whole buffers, the nine inputs' at contents x0 … x8 and the three outputs' at anything: it runs to its
    continuation with the inputs' buffers unchanged and each output's holding the stored term of x0 … x8. Each
    output buffer is written once, over its whole extent, so what it held before does not show. -/
theorem sound_kernel0 (c : Dev nD) (E : Set ℕ) (i : grid0.Coords)
    (a0 : Memref sig .tc .vmem S1x2048x256 .f32) (h0 : a0.IsWhole)
    (a1 : Memref sig .tc .vmem S256x256 .f32) (h1 : a1.IsWhole)
    (a2 : Memref sig .tc .vmem S1x256 .f32) (h2 : a2.IsWhole)
    (a3 : Memref sig .tc .vmem S256x256 .f32) (h3 : a3.IsWhole)
    (a4 : Memref sig .tc .vmem S1x256 .f32) (h4 : a4.IsWhole)
    (a5 : Memref sig .tc .vmem S256x256 .f32) (h5 : a5.IsWhole)
    (a6 : Memref sig .tc .vmem S1x256 .f32) (h6 : a6.IsWhole)
    (a7 : Memref sig .tc .vmem S256x256 .f32) (h7 : a7.IsWhole)
    (a8 : Memref sig .tc .vmem S1x256 .f32) (h8 : a8.IsWhole)
    (a9 : Memref sig .tc .vmem S1x2048x256 .bf16) (h9 : a9.IsWhole)
    (a10 : Memref sig .tc .vmem S1x2048x256 .bf16) (h10 : a10.IsWhole)
    (a11 : Memref sig .tc .vmem S1x2048x256 .bf16) (h11 : a11.IsWhole)
    (x0 : Vec F S1x2048x256 .f32) (x1 : Vec F S256x256 .f32) (x2 : Vec F S1x256 .f32)
    (x3 : Vec F S256x256 .f32) (x4 : Vec F S1x256 .f32) (x5 : Vec F S256x256 .f32) (x6 : Vec F S1x256 .f32)
    (x7 : Vec F S256x256 .f32) (x8 : Vec F S1x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ owns (c : Thread nD τ) a6 fullShare x6 ∗ owns (c : Thread nD τ) a7 fullShare x7
        ∗ owns (c : Thread nD τ) a8 fullShare x8
        ∗ (∃ d, owns (c : Thread nD τ) a9 fullShare d) ∗ (∃ d, owns (c : Thread nD τ) a10 fullShare d)
        ∗ (∃ d, owns (c : Thread nD τ) a11 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare x8
            ∗ owns (c : Thread nD τ) a9 fullShare (out0_9 x0 x1 x2 x3 x4)
            ∗ owns (c : Thread nD τ) a10 fullShare (out0_10 x0 x1 x2 x5 x6)
            ∗ owns (c : Thread nD τ) a11 fullShare (out0_11 x0 x1 x2 x7 x8)) -∗ K ⟨⟩))
      ⊢ wp frame (wpE (defs₀ (F := F)) Variants.none c none) E
          (cc0_proj_kernel i a0 h0 a1 h1 a2 h2 a3 h3 a4 h4 a5 h5 a6 h6 a7 h7 a8 h8 a9 h9 a10 h10 a11 h11) K := by
  simp only [cc0_proj_kernel_eq_skeleton]; unfold cc0_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact View.read_writes_eq_canon _ _ _ (cover0_X _)
  isplitl [H10]
  · iexists _; isplitr
    swap; · iexact H10
    ipureintro
    exact View.read_writes_eq_canon _ _ _ (cover0_X _)
  iexists _; isplitr
  swap; · iexact H11
  ipureintro
  exact View.read_writes_eq_canon _ _ _ (cover0_X _)

/-! ## The body obligation, at a generic point -/

/-- What the body is handed at point t: the class invariant, the core's debts, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' buffers hold their blocks, so the body's triple applies at those blocks; the
    invariant and the core's debts do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Defs.lean ====
/-
  The attention region (the second pallas_call): what each grid point reads, what it carries in its three scratch
  buffers, and what it leaves. A point (b, i, j) of the 4 × 4 × 2 grid reads query rows [1024 i, 1024 i + 1024) of
  θ', key/value rows [2048 j, 2048 j + 2048) of φ and g, and the residual rows of x. The scratch carries, per query
  row, the running maximum m, the running sum l of exp(s − m) and the running weighted sum acc of the g rows. At
  j = 0 the three are reset (−∞, 0, 0) before the update; at j = 1 (the last kv block) the epilogue stores
  ((acc / l) · 2⁻⁶) · Wf + bf + x into the output block.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks the body touches: the query rows, the key/value rows, a column, the accumulator, the weight and the bias. -/
abbrev rQ1 : Rect S1x1024x256 := Rect.unit (s := S1x1024x256) ![0, 0, 0] S1x1024x256.size inb_S1x1024x256_S1x1024x256_0_0_0
abbrev rK1 : Rect S1x2048x256 := Rect.unit (s := S1x2048x256) ![0, 0, 0] S1x2048x256.size inb_S1x2048x256_S1x2048x256_0_0_0
abbrev rM1 : Rect S1024x1 := Rect.unit (s := S1024x1) ![0, 0] S1024x1.size inb_S1024x1_S1024x1_0_0
abbrev rA1 : Rect S1024x256 := Rect.unit (s := S1024x256) ![0, 0] S1024x256.size inb_S1024x256_S1024x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0

/-- The scratch operands: whole scoped buffers of the kernel's own (the running maximum, the running sum, the accumulator). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-- What the reset stores: −∞ for the maximum, 0 for the sum and the accumulator. -/
def mInit1 : Vec F S1024x1 .f32 := k1_pay4 (F := F)
def lInit1 : Vec F S1024x1 .f32 := k1_pay5 (F := F)
def aInit1 : Vec F S1024x256 .f32 := k1_pay6 (F := F)

/-- One kv step of the running maximum: max(m, rowmax(q·kᵀ)). -/
def mStep1 (q : Vec F S1x1024x256 .bf16) (k : Vec F S1x2048x256 .bf16) (m0 : Vec F S1024x1 .f32) : Vec F S1024x1 .f32 :=
  k1_pay2 (k1_pay9 q k m0)
/-- One kv step of the running sum: exp(m − m')·l + Σ exp(s − m'). -/
def lStep1 (q : Vec F S1x1024x256 .bf16) (k : Vec F S1x2048x256 .bf16) (m0 l0 : Vec F S1024x1 .f32) : Vec F S1024x1 .f32 :=
  k1_pay12 q k m0 m0 l0
/-- One kv step of the accumulator: exp(m − m')·acc + exp(s − m')·v. -/
def aStep1 (q : Vec F S1x1024x256 .bf16) (k v : Vec F S1x2048x256 .bf16) (m0 : Vec F S1024x1 .f32) (a0 : Vec F S1024x256 .f32) : Vec F S1024x256 .f32 :=
  k1_pay1 (k1_pay7 v) (k1_pay13 q k m0) a0 (k1_pay14 q k m0 m0)
/-- The epilogue's store: ((acc / l)·2⁻⁶)·Wf + bf + residual. -/
def oFin1 (a : Vec F S1024x256 .f32) (l : Vec F S1024x1 .f32) (wf : Vec F S256x256 .f32) (bf : Vec F S1x256 .f32) (res : Vec F S1x1024x256 .f32) :
    Vec F S1x1024x256 .f32 :=
  k1_pay3 a l wf bf res

/-- The scratch (maximum, sum, accumulator) after a point that resets it first: one step from the reset values. -/
def scReset1 (c : Dev nD) (t : Fin cfg1.N) : Vec F S1024x1 .f32 × Vec F S1024x1 .f32 × Vec F S1024x256 .f32 :=
  (mStep1 (iblk1 V c 0 t) (iblk1 V c 1 t) mInit1,
   lStep1 (iblk1 V c 0 t) (iblk1 V c 1 t) mInit1 lInit1,
   aStep1 (iblk1 V c 0 t) (iblk1 V c 1 t) (iblk1 V c 2 t) mInit1 aInit1)

/-- The scratch after point `n`: at an even point (kv block 0) one step from the reset values; at an odd point
    (kv block 1) one step from what the even point before it left. -/
def scAt1 (c : Dev nD) (n : ℕ) (hn : n < cfg1.N) : Vec F S1024x1 .f32 × Vec F S1024x1 .f32 × Vec F S1024x256 .f32 :=
  if n % 2 = 0 then scReset1 V c ⟨n, hn⟩
  else
    let p := scReset1 V c ⟨n - 1, Nat.lt_of_le_of_lt (Nat.sub_le _ _) hn⟩
    (mStep1 (iblk1 V c 0 ⟨n, hn⟩) (iblk1 V c 1 ⟨n, hn⟩) p.1,
     lStep1 (iblk1 V c 0 ⟨n, hn⟩) (iblk1 V c 1 ⟨n, hn⟩) p.1 p.2.1,
     aStep1 (iblk1 V c 0 ⟨n, hn⟩) (iblk1 V c 1 ⟨n, hn⟩) (iblk1 V c 2 ⟨n, hn⟩) p.1 p.2.2)

/-- The output block after point `t` (stored at the odd points only; elsewhere a placeholder nothing reads). -/
def out1_6 (c : Dev nD) (t : Fin cfg1.N) : Vec F S1x1024x256 .f32 :=
  oFin1 (scAt1 V c t.val t.isLt).2.2 (scAt1 V c t.val t.isLt).2.1 (iblk1 V c 4 t) (iblk1 V c 5 t) (iblk1 V c 3 t)

/-- The core's scoped buffers that are no staging buffer of this pipeline and no scratch (the projection pipeline's
    staging buffers), each whole at some contents, beside a rest `T`. -/
def stgWith1 (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ T)

/-- The region invariant before position `n`: before the first point the class's (every scratch at anything);
    afterwards the scoped rest with the three scratch buffers at what the point before left, and the generator register
    at some state. -/
def PhiS1 (c : Dev nD) : (n : ℕ) → n ≤ cfg1.N → sProp 𝕄
  | 0, _ => Pipeline.ΦA spec1 c
  | n + 1, hn => iprop(stgWith1 c iprop(owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r))

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

end Region1

end Cert.KernelIdeal.Hand

end
-- ==== Proof.R1.lean ====
/-
  The attention region's body at a grid point, in its two cases, and the region invariant carried between points.

  A point (b, i, j) with j = 0 (the even points) resets the three scratch buffers to (−∞, 0, 0), makes one step of the
  running maximum, sum and accumulator from those values, and stores nothing into the output block. A point with
  j = 1 (the odd points) makes the same step from what the even point before it left, and then stores
  ((acc / l) · 2⁻⁶) · Wf + bf + x into the output block. The invariant before a point other than the first holds the
  three scratch buffers at what the point before left.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«419256_j1580547972144_3_alg».proof.Proof.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace R1

/-- The condition of the body's first branch (the reset), from the grid coordinates. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The condition of the body's second branch (the epilogue). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The zero offsets of a whole-buffer rectangle, rank two and rank three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store went through the whole-shape rectangle at zero offsets reads that store's payload,
    whatever was stored before and whatever it held: the store covers every index. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

set_option maxHeartbeats 1000000 in
/-- The body at a point of kv block 0 (the reset taken, the epilogue not), on whole memrefs: the inputs at their
    contents, the output's buffer at contents `xo` it never touches, the three scratch buffers at anything. It runs to
    the continuation holding the inputs and the output's buffer as they were and the scratch at one step from the
    reset values: the reset's stores are overwritten by the update's, each load of a scratch after its reset reads
    the reset value. -/
theorem runEven (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .f32) (harg12 : arg12.IsWhole) (hc0 : cond1_0 i) (hc1 : ¬cond1_1 i)
    (q : Vec F S1x1024x256 .bf16) (k v : Vec F S1x2048x256 .bf16) (res : Vec F S1x1024x256 .f32) (wf : Vec F S256x256 .f32) (bf : Vec F S1x256 .f32)
    (xo : Vec F S1x1024x256 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
        ∗ owns (c : Thread nD τ) arg9 fullShare xo
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
            ∗ owns (c : Thread nD τ) arg9 fullShare xo
            ∗ owns (c : Thread nD τ) arg10 fullShare (mStep1 q k mInit1)
            ∗ owns (c : Thread nD τ) arg11 fullShare (lStep1 q k mInit1 lInit1)
            ∗ owns (c : Thread nD τ) arg12 fullShare (aStep1 q k v mInit1 aInit1)) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10 arg11 harg11 arg12 harg12) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [HS0]
  · iexists _; isplitr
    swap; · iexact HS0
    ipureintro
    sl_unfold_words
    rw [read_writes_cons_whole (S := S1024x1) _ _ hz2]
    simp only [View.readAt_eq_ld, harg3.read_unread, harg4.read_unread, View.ld_unit_zero (S := S1x1024x256) hz3,
      View.ld_unit_zero (S := S1x2048x256) hz3, View.readCov_unit_zero (S := S1024x1) _ hz2, mStep1, mInit1]
  isplitl [HS1]
  · iexists _; isplitr
    swap; · iexact HS1
    ipureintro
    sl_unfold_words
    rw [read_writes_cons_whole (S := S1024x1) _ _ hz2]
    simp only [View.readAt_eq_ld, harg3.read_unread, harg4.read_unread, View.ld_unit_zero (S := S1x1024x256) hz3,
      View.ld_unit_zero (S := S1x2048x256) hz3, View.readCov_unit_zero (S := S1024x1) _ hz2, lStep1, mInit1, lInit1]
  · iexists _; isplitr
    swap; · iexact HS2
    ipureintro
    sl_unfold_words
    rw [read_writes_cons_whole (S := S1024x256) _ _ hz2]
    simp only [View.readAt_eq_ld, harg3.read_unread, harg4.read_unread, harg5.read_unread, View.ld_unit_zero (S := S1x1024x256) hz3,
      View.ld_unit_zero (S := S1x2048x256) hz3, View.readCov_unit_zero (S := S1024x1) _ hz2,
      View.readCov_unit_zero (S := S1024x256) _ hz2, aStep1, mInit1, aInit1]

set_option maxHeartbeats 1000000 in
/-- The body at a point of kv block 1 (the reset not taken, the epilogue taken), on whole memrefs: the inputs at their
    contents, the output's buffer at anything, the three scratch buffers at `m0`, `l0`, `a0`. It runs to the
    continuation holding the inputs as they were, the scratch at one step from (`m0`, `l0`, `a0`), and the output's
    buffer at the epilogue's value of the stepped accumulator and sum: the epilogue's loads of the scratch read what
    the update just stored. -/
theorem runOdd (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .f32) (harg12 : arg12.IsWhole) (hc0 : ¬cond1_0 i) (hc1 : cond1_1 i)
    (q : Vec F S1x1024x256 .bf16) (k v : Vec F S1x2048x256 .bf16) (res : Vec F S1x1024x256 .f32) (wf : Vec F S256x256 .f32) (bf : Vec F S1x256 .f32)
    (m0 l0 : Vec F S1024x1 .f32) (a0 : Vec F S1024x256 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
        ∗ (∃ d, owns (c : Thread nD τ) arg9 fullShare d)
        ∗ owns (c : Thread nD τ) arg10 fullShare m0 ∗ owns (c : Thread nD τ) arg11 fullShare l0 ∗ owns (c : Thread nD τ) arg12 fullShare a0
        ∗ (iprop(owns (c : Thread nD τ) arg3 fullShare q ∗ owns (c : Thread nD τ) arg4 fullShare k ∗ owns (c : Thread nD τ) arg5 fullShare v
        ∗ owns (c : Thread nD τ) arg6 fullShare res ∗ owns (c : Thread nD τ) arg7 fullShare wf ∗ owns (c : Thread nD τ) arg8 fullShare bf
            ∗ owns (c : Thread nD τ) arg9 fullShare (oFin1 (aStep1 q k v m0 a0) (lStep1 q k m0 l0) wf bf res)
            ∗ owns (c : Thread nD τ) arg10 fullShare (mStep1 q k m0)
            ∗ owns (c : Thread nD τ) arg11 fullShare (lStep1 q k m0 l0)
            ∗ owns (c : Thread nD τ) arg12 fullShare (aStep1 q k v m0 a0)) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10 arg11 harg11 arg12 harg12) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg10.eq_unread hfs0; obtain rfl := harg11.eq_unread hfs1; obtain rfl := harg12.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_writes_cons_whole (S := S1x1024x256) _ _ hz3]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  isplitl [HS0]
  · iexists _; isplitr
    swap; · iexact HS0
    ipureintro
    sl_unfold_words
    rw [read_writes_cons_whole (S := S1024x1) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  isplitl [HS1]
  · iexists _; isplitr
    swap; · iexact HS1
    ipureintro
    sl_unfold_words
    rw [read_writes_cons_whole (S := S1024x1) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]
  · iexists _; isplitr
    swap; · iexact HS2
    ipureintro
    sl_unfold_words
    rw [read_writes_cons_whole (S := S1024x256) _ _ hz2]
    simp only [View.readAt_eq_ld, harg3.read_unread, harg4.read_unread, harg5.read_unread, harg6.read_unread, harg7.read_unread,
      harg8.read_unread, harg10.read_unread, harg11.read_unread, harg12.read_unread,
      View.ld_unit_zero (S := S1x1024x256) hz3, View.ld_unit_zero (S := S1x2048x256) hz3, View.ld_unit_zero (S := S1024x1) hz2,
      View.ld_unit_zero (S := S1024x256) hz2, View.ld_unit_zero (S := S256x256) hz2, View.ld_unit_zero (S := S1x256) hz2,
      View.readCov_unit_zero (S := S1024x1) _ hz2, View.readCov_unit_zero (S := S1024x256) _ hz2,
      oFin1, mStep1, lStep1, aStep1]

section Region1
-- the TensorCore's buffer contents when the region is entered
variable (V : (c : Dev nD) → (b : Ref sig .tc) → Buf (Elt F) ((c : Thread nD τ).loc b))

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the even points (kv block 0) the output block is idle: the epilogue is not taken; -/
theorem idleAt1_6_even : ∀ t : Fin cfg1.N, t.val % 2 = 0 → cfg1.idle 6 (grid1.coords t) = true :=
  (by decide +kernel : ∀ t : Fin grid1.N, t.val % 2 = 0 → cfg1.idle 6 (grid1.coords t) = true)
/-- and the pipeline does not write it back there. -/
theorem noFlush1_6_even (t : Fin cfg1.N) (h : t.val % 2 = 0) : (cfg1.win 6).flush t = false := by
  cases hf : (cfg1.win 6).flush t with
  | false => rfl
  | true => exact absurd ((flush1_6 t).mp hf) (by omega)
/-- At the odd points (kv block 1) the output block is live: the epilogue stores it. -/
theorem liveAt1_6_odd : ∀ t : Fin cfg1.N, t.val % 2 = 1 → cfg1.idle 6 (grid1.coords t) = false :=
  (by decide +kernel : ∀ t : Fin grid1.N, t.val % 2 = 1 → cfg1.idle 6 (grid1.coords t) = false)

/-! ## The staging memrefs at a point -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x256 .f32 := win1_6.stage (cfg1.slots t 6)
abbrev hs1_6 (t : Fin cfg1.N) : (ms1_6 t).IsWhole := hstage1_6 ((cfg1.slots t 6).cast nbuf1_6)

/-! ## The scratch contents, point by point -/

/-- At an even point the scratch is one step from the reset values. -/
theorem scAt1_of_even (c : Dev nD) (n : ℕ) (hn : n < cfg1.N) (h : n % 2 = 0) : scAt1 V c n hn = scReset1 V c ⟨n, hn⟩ := by
  unfold scAt1; rw [if_pos h]

/-- At an odd point it is one step from what the point before left: that point is even, so what it left is one step
    from the reset values. -/
theorem scAt1_of_odd (c : Dev nD) (n : ℕ) (hn : n < cfg1.N) (h : n % 2 = 1) :
    scAt1 V c n hn =
      (mStep1 (iblk1 V c 0 ⟨n, hn⟩) (iblk1 V c 1 ⟨n, hn⟩) (scAt1 V c (n - 1) (Nat.lt_of_le_of_lt (Nat.sub_le _ _) hn)).1,
       lStep1 (iblk1 V c 0 ⟨n, hn⟩) (iblk1 V c 1 ⟨n, hn⟩) (scAt1 V c (n - 1) (Nat.lt_of_le_of_lt (Nat.sub_le _ _) hn)).1
         (scAt1 V c (n - 1) (Nat.lt_of_le_of_lt (Nat.sub_le _ _) hn)).2.1,
       aStep1 (iblk1 V c 0 ⟨n, hn⟩) (iblk1 V c 1 ⟨n, hn⟩) (iblk1 V c 2 ⟨n, hn⟩) (scAt1 V c (n - 1) (Nat.lt_of_le_of_lt (Nat.sub_le _ _) hn)).1
         (scAt1 V c (n - 1) (Nat.lt_of_le_of_lt (Nat.sub_le _ _) hn)).2.2) := by
  rw [scAt1_of_even V c (n - 1) _ (by omega)]
  unfold scAt1; rw [if_neg (by omega)]

theorem scAt1_even (c : Dev nD) (t : Fin cfg1.N) (h : t.val % 2 = 0) : scAt1 V c t.val t.isLt = scReset1 V c t :=
  scAt1_of_even V c t.val t.isLt h

theorem scAt1_odd (c : Dev nD) (t : Fin cfg1.N) (h : t.val % 2 = 1) :
    scAt1 V c t.val t.isLt =
      (mStep1 (iblk1 V c 0 t) (iblk1 V c 1 t) (scAt1 V c (t.val - 1) (Nat.lt_of_le_of_lt (Nat.sub_le _ _) t.isLt)).1,
       lStep1 (iblk1 V c 0 t) (iblk1 V c 1 t) (scAt1 V c (t.val - 1) (Nat.lt_of_le_of_lt (Nat.sub_le _ _) t.isLt)).1
         (scAt1 V c (t.val - 1) (Nat.lt_of_le_of_lt (Nat.sub_le _ _) t.isLt)).2.1,
       aStep1 (iblk1 V c 0 t) (iblk1 V c 1 t) (iblk1 V c 2 t) (scAt1 V c (t.val - 1) (Nat.lt_of_le_of_lt (Nat.sub_le _ _) t.isLt)).1
         (scAt1 V c (t.val - 1) (Nat.lt_of_le_of_lt (Nat.sub_le _ _) t.isLt)).2.2) :=
  scAt1_of_odd V c t.val t.isLt h

/-! ## The invariant -/

/-- What the launch hands the region, with the scratch operands as memrefs owned at some contents. -/
theorem PhiA1_eq (c : Dev nD) :
    (Pipeline.ΦA spec1 c : sProp 𝕄)
      = iprop(stgWith1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA stgWith1; rw [scopedRest1_eq]; simp only [scM1_0, scM1_1, scM1_2, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(stgWith1 c iprop(owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r)) := rfl

/-- Before a point that is not the first: the scratch at what the point before left. -/
theorem PhiS1_pos (c : Dev nD) (n : ℕ) (h : n ≤ cfg1.N) (hz : n ≠ 0) :
    PhiS1 V c n h = iprop(stgWith1 c iprop(owns (c : Thread nD τ) scM1_0 fullShare (scAt1 V c (n - 1) (by omega)).1
      ∗ owns (c : Thread nD τ) scM1_1 fullShare (scAt1 V c (n - 1) (by omega)).2.1
      ∗ owns (c : Thread nD τ) scM1_2 fullShare (scAt1 V c (n - 1) (by omega)).2.2) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks. At an even point the reset case runs: the invariant
    hands it the scratch at anything (the class's at the first point; what the odd point before left, forgotten,
    afterwards) and takes it back one step from the reset values; the output's buffer is handed back untouched. At an
    odd point the epilogue case runs from what the even point before left, and leaves the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_even t h0) (noFlush1_6_even t h0)]
    rw [scAt1_even V c t h0]
    unfold scReset1; dsimp only
    by_cases hz : t.val = 0
    · rw [PhiS1_castSucc V c t, PhiS1_zero V c _ _ hz, PhiA1_eq]
      unfold stgWith1
      iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runEven c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
        (iblk1 V c 0 t) (iblk1 V c 1 t) (iblk1 V c 2 t) (iblk1 V c 3 t) (iblk1 V c 4 t) (iblk1 V c 5 t) ((dat1 V c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [G0 G1 G2 G3 G4 G5 G6 G7 G8 G9 G10 G11 G12 G13 G14 G15 HS0 HS1 HS2 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [HS0]; · iexact HS0
        isplitl [HS1]; · iexact HS1
        iexact HS2

      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      unfold stgWith1
      iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runEven c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
        (iblk1 V c 0 t) (iblk1 V c 1 t) (iblk1 V c 2 t) (iblk1 V c 3 t) (iblk1 V c 4 t) (iblk1 V c 5 t) ((dat1 V c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [G0 G1 G2 G3 G4 G5 G6 G7 G8 G9 G10 G11 G12 G13 G14 G15 HS0 HS1 HS2 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [HS0]; · iexact HS0
        isplitl [HS1]; · iexact HS1
        iexact HS2

      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h1 : t.val % 2 = 1 := by omega
    have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6_odd t h1], after1_6]
    unfold out1_6
    rw [scAt1_odd V c t h1]
    dsimp only
    rw [PhiS1_castSucc V c t, PhiS1_pos V c _ _ hz]
    unfold stgWith1
    iintro ⟨⟨⟨G0, G1, G2, G3, G4, G5, G6, G7, G8, G9, G10, G11, G12, G13, G14, G15, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (runOdd c (grid1.coords t) _ (hs1_0 t) _ (hs1_1 t) _ (hs1_2 t) _ (hs1_3 t) _ (hs1_4 t) _ (hs1_5 t) _ (hs1_6 t) scM1_0 (Memref.isWhole_whole _) scM1_1 (Memref.isWhole_whole _) scM1_2 (Memref.isWhole_whole _) hc0 hc1
      (iblk1 V c 0 t) (iblk1 V c 1 t) (iblk1 V c 2 t) (iblk1 V c 3 t) (iblk1 V c 4 t) (iblk1 V c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [G0 G1 G2 G3 G4 G5 G6 G7 G8 G9 G10 G11 G12 G13 G14 G15 HS0 HS1 HS2 Hg]
    · isplitr [Hg]
      swap; · iexact Hg
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [HS0]; · iexact HS0
      isplitl [HS1]; · iexact HS1
      iexact HS2

    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- After any point but the first the invariant gives the launch's back: the scratch's named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold stgWith1
  iintro ⟨⟨G0, G1, G2, G3, G4, G5, G6, G7, G8, G9, G10, G11, G12, G13, G14, G15, HS0, HS1, HS2⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [HS0]; · iexists _; iexact HS0
  isplitl [HS1]; · iexists _; iexact HS1
  iexists _; iexact HS2

end Region1

end R1

open R1

section Region1
-- the TensorCore's buffer contents when the region is entered
variable (V : (c : Dev nD) → (b : Ref sig .tc) → Buf (Elt F) ((c : Thread nD τ).loc b))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- The same after the last point. -/
theorem hout1 (c : Dev nD) : (dat1 (F := F) V c).Φ (Fin.last cfg1.N) ⊢ Pipeline.ΦA spec1 c :=
  Phi_out1 V c _ (by rw [Fin.val_last]; have : cfg1.N = 32 := N_1; omega)

end Region1

end Cert.KernelIdeal.Hand

end
-- ==== Proof.Run.lean ====
/-
  The run of @main over the two regions: the buffer contents at every segment boundary (the host stretch before the
  regions, the projection region, the attention region, the reshape after them), each region as a segment over the
  thread state "every unscoped buffer at the boundary's contents", and the launch: every weakly fair execution
  terminates with every unscoped buffer at the last boundary's contents. From it: no argument array is written, and the
  result array is the reshape of what the attention region leaves in its output array.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.Gen.KernelIdeal.Regions
import proofs.«419256_j1580547972144_3_alg».proof.Proof.R0
import proofs.«419256_j1580547972144_3_alg».proof.Proof.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch before the regions (the reshape of the input, the transposed weights, the bias rows). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape that follows the regions. -/
abbrev W4 : Dev nD → Valuation τ sig (Elt F) := fun c => StableHlo.after hostOps2 (W3 m ρ c)

/-! ### No segment writes an argument -/

/-- A buffer that no host operation writes and that is no window's array of either region ends as launched. -/
theorem W4_kept (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m ρ c (Proc.devRef .tc b) = m ((c : Thread nD τ).loc b) :=
  (StableHlo.after_of_writes_sub hostOps2 _ hostOps2_writes h2).trans <|
    (W3_of_ne m ρ c b hs1).trans <| (W2_of_ne m ρ c b hs0).trans <|
      (StableHlo.after_of_writes_sub hostOps0 _ hostOps0_writes h0).trans rfl

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W4_main_arg10 (c : Dev nD) : W4 m ρ c (Proc.devRef .tc main_arg10) = m ((c : Thread nD τ).loc main_arg10) :=
  W4_kept m ρ c main_arg10 (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the generator register and the scoped
    rest go into the region's invariant at its first point and come back from it after its last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: no argument array is written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c)⟩) (run_main m ρ)

end Cert.KernelIdeal.Hand

end
-- ==== Proof.AttnSpec.lean ====
/-
  The mathematics of the certificate, free of any program: the attention layer as the kernel computes it (the keys in
  two blocks of 2048, an online softmax carried across them, the query pre-scaled) and as the reference computes it (one
  softmax over all 4096 keys), as functions of arrays of extended reals, and the statement that the two agree on
  real-valued arrays.
-/
import Idealize.ShloMosaic.PureOps.Ideal
import Idealize.ShloMosaic.PureOps.Ideal.Laws

noncomputable section

namespace Cert.Attn

open Idealize.ShloMosaic

/-- Activations [batch, row, channel]; a weight matrix; a bias. -/
abbrev T3 := Fin 4 → Fin 4096 → Fin 256 → EReal
abbrev Mat := Fin 256 → Fin 256 → EReal
abbrev Vc := Fin 256 → EReal

/-- A row-wise affine layer, the weight indexed [in, out] (the transposed weight the kernel is handed). -/
def layerT (a : T3) (wT : Mat) (bias : Vc) : T3 := fun b n k => (∑ h, a b n h * wT h k) + bias k
/-- The same, the weight indexed [out, in] (as the reference contracts it). -/
def layer (a : T3) (w : Mat) (bias : Vc) : T3 := fun b n k => (∑ h, a b n h * w k h) + bias k

/-- Key row `r` of key block `j`: row 2048 j + r. -/
def kidx (j : Fin 2) (r : Fin 2048) : Fin 4096 := ⟨2048 * j.val + r.val, by omega⟩

/-! ## One block of the online softmax, for one query row -/

/-- The running maximum after a block with scores `s`. -/
def stepM (m0 : EReal) (s : Fin 2048 → EReal) : EReal := max m0 ((Finset.univ : Finset (Fin 2048)).fold max ⊥ s)
/-- The running sum of exponentials after the block. -/
def stepL (m0 l0 : EReal) (s : Fin 2048 → EReal) : EReal :=
  Ideal.exp (m0 - stepM m0 s) * l0 + ∑ r, Ideal.exp (s r - stepM m0 s)
/-- The running weighted sum of one value column after the block. -/
def stepA (m0 a0 : EReal) (s v : Fin 2048 → EReal) : EReal :=
  Ideal.exp (m0 - stepM m0 s) * a0 + ∑ r, Ideal.exp (s r - stepM m0 s) * v r

/-! ## The kernel's attention: two key blocks, the query already scaled -/

section Kernel
variable (th' ph g x : T3) (wfT : Mat) (bf : Vc) (c64 : EReal)

/-- The scores of query row `n` against key block `j`. -/
def kerS (b : Fin 4) (n : Fin 4096) (j : Fin 2) (r : Fin 2048) : EReal := ∑ k, th' b n k * ph b (kidx j r) k
def kerM0 (b : Fin 4) (n : Fin 4096) : EReal := stepM ⊥ (kerS th' ph b n 0)
def kerL0 (b : Fin 4) (n : Fin 4096) : EReal := stepL ⊥ 0 (kerS th' ph b n 0)
def kerA0 (b : Fin 4) (n : Fin 4096) (k : Fin 256) : EReal := stepA ⊥ 0 (kerS th' ph b n 0) (fun r => g b (kidx 0 r) k)
def kerM1 (b : Fin 4) (n : Fin 4096) : EReal := stepM (kerM0 th' ph b n) (kerS th' ph b n 1)
def kerL1 (b : Fin 4) (n : Fin 4096) : EReal := stepL (kerM0 th' ph b n) (kerL0 th' ph b n) (kerS th' ph b n 1)
def kerA1 (b : Fin 4) (n : Fin 4096) (k : Fin 256) : EReal :=
  stepA (kerM0 th' ph b n) (kerA0 th' ph g b n k) (kerS th' ph b n 1) (fun r => g b (kidx 1 r) k)
/-- The kernel's result: the normalised, scaled weighted sum through the output layer, plus the residual. -/
def kerOut : T3 := fun b n o =>
  ((∑ k, (Ideal.div (kerA1 th' ph g b n k) (kerL1 th' ph b n) * c64) * wfT k o) + bf o) + x b n o

end Kernel

/-! ## The reference's attention: one softmax over all keys -/

section Reference
variable (th ph g x : T3) (wf : Mat) (bf : Vc) (d1 d2 : EReal)

def refS (b : Fin 4) (n m : Fin 4096) : EReal := Ideal.div (∑ k, th b n k * ph b m k) d1
def refMax (b : Fin 4) (n : Fin 4096) : EReal := max ⊥ ((Finset.univ : Finset (Fin 4096)).fold max ⊥ (refS th ph d1 b n))
def refE (b : Fin 4) (n m : Fin 4096) : EReal := Ideal.exp (refS th ph d1 b n m - refMax th ph d1 b n)
def refL (b : Fin 4) (n : Fin 4096) : EReal := 0 + ∑ m, refE th ph d1 b n m
def refY (b : Fin 4) (n m : Fin 4096) : EReal := Ideal.div (refE th ph d1 b n m) (refL th ph d1 b n)
def refZ (b : Fin 4) (n : Fin 4096) (k : Fin 256) : EReal := Ideal.div (∑ m, refY th ph d1 b n m * g b m k) d2
/-- The reference's result. -/
def refOut : T3 := fun b n o => ((∑ k, refZ th ph g d1 d2 b n k * wf o k) + bf o) + x b n o

end Reference

/-- An array all of whose entries are real numbers. -/
def IsReal3 (a : T3) : Prop := ∀ b n k, ∃ r : ℝ, a b n k = (r : EReal)
def IsRealM (a : Mat) : Prop := ∀ i j, ∃ r : ℝ, a i j = (r : EReal)
def IsRealV (a : Vc) : Prop := ∀ i, ∃ r : ℝ, a i = (r : EReal)

/-! ## Finite sums and maxima of real numbers inside the extended reals -/

/-- The coercion ℝ → EReal commutes with the maximum. -/
private theorem coe_max' (x y : ℝ) : ((max x y : ℝ) : EReal) = max (x : EReal) (y : EReal) :=
  EReal.coe_strictMono.monotone.map_max

/-- A finite sum of real numbers, computed in the extended reals, is the real sum. -/
private theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of a nonempty finite family of real numbers, folded from ⊥ in the extended reals, is a real number. -/
private theorem fold_max_coe {ι : Type*} (s : Finset ι) (hs : s.Nonempty) (f : ι → ℝ) :
    ∃ r : ℝ, s.fold max ⊥ (fun i => (f i : EReal)) = (r : EReal) := by
  induction hs using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr, coe_max']⟩

/-! ## One block of the online softmax on real scores -/

/-- Started from ⊥, the running maximum of real scores is real. -/
private theorem stepM_bot_real (s : Fin 2048 → ℝ) : ∃ M : ℝ, stepM ⊥ (fun r => (s r : EReal)) = (M : EReal) := by
  obtain ⟨r, hr⟩ := fold_max_coe (Finset.univ : Finset (Fin 2048)) Finset.univ_nonempty s
  exact ⟨r, by rw [stepM, hr]; exact max_bot_left _⟩

/-- Started from a real number, the running maximum of real scores is real. -/
private theorem stepM_coe_real (m0 : ℝ) (s : Fin 2048 → ℝ) :
    ∃ M : ℝ, stepM (m0 : EReal) (fun r => (s r : EReal)) = (M : EReal) := by
  obtain ⟨r, hr⟩ := fold_max_coe (Finset.univ : Finset (Fin 2048)) Finset.univ_nonempty s
  exact ⟨max m0 r, by rw [stepM, hr, coe_max']⟩

/-- The first block: the carried sum is 0 and exp(⊥ − M) · 0 = 0, so only the block's own exponentials remain. -/
private theorem stepL_bot (s : Fin 2048 → ℝ) (M : ℝ) (hM : stepM ⊥ (fun r => (s r : EReal)) = (M : EReal)) :
    stepL ⊥ 0 (fun r => (s r : EReal)) = ((∑ r, Real.exp (s r - M) : ℝ) : EReal) := by
  rw [stepL, hM, EReal.bot_sub, Ideal.exp_bot, mul_zero, zero_add, ← coe_sum]
  refine Finset.sum_congr rfl fun r _ => ?_
  rw [← EReal.coe_sub, Ideal.exp_coe]

private theorem stepA_bot (s v : Fin 2048 → ℝ) (M : ℝ) (hM : stepM ⊥ (fun r => (s r : EReal)) = (M : EReal)) :
    stepA ⊥ 0 (fun r => (s r : EReal)) (fun r => (v r : EReal)) = ((∑ r, Real.exp (s r - M) * v r : ℝ) : EReal) := by
  rw [stepA, hM, EReal.bot_sub, Ideal.exp_bot, mul_zero, zero_add, ← coe_sum]
  refine Finset.sum_congr rfl fun r _ => ?_
  rw [← EReal.coe_sub, Ideal.exp_coe, ← EReal.coe_mul]

/-- A later block: every quantity is real, and the step is the real formula. -/
private theorem stepL_coe (m0 l0 : ℝ) (s : Fin 2048 → ℝ) (M : ℝ)
    (hM : stepM (m0 : EReal) (fun r => (s r : EReal)) = (M : EReal)) :
    stepL (m0 : EReal) (l0 : EReal) (fun r => (s r : EReal))
      = ((Real.exp (m0 - M) * l0 + ∑ r, Real.exp (s r - M) : ℝ) : EReal) := by
  rw [stepL, hM, ← EReal.coe_sub, Ideal.exp_coe, ← EReal.coe_mul, EReal.coe_add, ← coe_sum]
  congr 1

private theorem stepA_coe (m0 a0 : ℝ) (s v : Fin 2048 → ℝ) (M : ℝ)
    (hM : stepM (m0 : EReal) (fun r => (s r : EReal)) = (M : EReal)) :
    stepA (m0 : EReal) (a0 : EReal) (fun r => (s r : EReal)) (fun r => (v r : EReal))
      = ((Real.exp (m0 - M) * a0 + ∑ r, Real.exp (s r - M) * v r : ℝ) : EReal) := by
  rw [stepA, hM, ← EReal.coe_sub, Ideal.exp_coe, ← EReal.coe_mul, EReal.coe_add, ← coe_sum]
  congr 1

/-! ## The two key blocks cover the keys -/

/-- A sum over all 4096 keys is the sum over the first block of 2048 plus the sum over the second. -/
private theorem sum_blocks (F : Fin 4096 → ℝ) : ∑ m, F m = ∑ r, F (kidx 0 r) + ∑ r, F (kidx 1 r) := by
  have h := Fin.sum_univ_add (a := 2048) (b := 2048) F
  have h0 : ∀ r : Fin 2048, Fin.castAdd 2048 r = kidx 0 r := fun r => Fin.ext (by simp [kidx])
  have h1 : ∀ r : Fin 2048, Fin.natAdd 2048 r = kidx 1 r := fun r => Fin.ext (by simp [kidx]; omega)
  simp only [h0, h1] at h
  exact h

/-! ## The online softmax over two blocks is the softmax, over the reals -/

/-- The sum of exponentials of shifted scores is positive. -/
private theorem sumExp_pos (S : Fin 4096 → ℝ) (M : ℝ) : 0 < ∑ m, Real.exp (S m - M) :=
  Finset.sum_pos (fun m _ => Real.exp_pos _) Finset.univ_nonempty

/-- The carried sum after the second block is the sum of exponentials over all keys, shifted by the final maximum. -/
private theorem online_sum (S v : Fin 4096 → ℝ) (M0 M1 : ℝ) :
    Real.exp (M0 - M1) * (∑ r, Real.exp (S (kidx 0 r) - M0) * v (kidx 0 r))
        + ∑ r, Real.exp (S (kidx 1 r) - M1) * v (kidx 1 r)
      = ∑ m, Real.exp (S m - M1) * v m := by
  rw [sum_blocks (fun m => Real.exp (S m - M1) * v m), Finset.mul_sum]
  congr 1
  refine Finset.sum_congr rfl fun r _ => ?_
  rw [← mul_assoc, ← Real.exp_add]
  congr 2
  ring

/-- Changing the shift multiplies every exponential by the same positive factor. -/
private theorem shift_sum (S v : Fin 4096 → ℝ) (M M1 : ℝ) :
    ∑ m, Real.exp (S m - M1) * v m = Real.exp (M - M1) * ∑ m, Real.exp (S m - M) * v m := by
  rw [Finset.mul_sum]
  refine Finset.sum_congr rfl fun m _ => ?_
  rw [← mul_assoc, ← Real.exp_add]
  congr 2
  ring

/-- The real statement: the two-block online softmax's normalised weighted sum is the softmax's, whatever real numbers the
    running maxima and the reference's maximum are. -/
private theorem online_softmax (S v : Fin 4096 → ℝ) (M0 M1 M : ℝ) :
    (Real.exp (M0 - M1) * (∑ r, Real.exp (S (kidx 0 r) - M0) * v (kidx 0 r))
          + ∑ r, Real.exp (S (kidx 1 r) - M1) * v (kidx 1 r))
        * (1 / (Real.exp (M0 - M1) * (∑ r, Real.exp (S (kidx 0 r) - M0)) + ∑ r, Real.exp (S (kidx 1 r) - M1)))
      = ∑ m, Real.exp (S m - M) * (1 / ∑ m', Real.exp (S m' - M)) * v m := by
  have hL := online_sum S (fun _ => 1) M0 M1
  simp only [mul_one] at hL
  rw [online_sum, hL, shift_sum S v M M1]
  have hL' := shift_sum S (fun _ => 1) M M1
  simp only [mul_one] at hL'
  rw [hL']
  have hc : Real.exp (M - M1) ≠ 0 := (Real.exp_pos _).ne'
  have hl : (∑ m, Real.exp (S m - M)) ≠ 0 := (sumExp_pos S M).ne'
  have : ∀ m, Real.exp (S m - M) * (1 / ∑ m', Real.exp (S m' - M)) * v m
      = Real.exp (S m - M) * v m * (1 / ∑ m', Real.exp (S m' - M)) := fun m => by ring
  simp only [this]
  rw [← Finset.sum_mul]
  field_simp

/-! ## The scores -/

/-- The real score of query row n against key row m: the contraction over the channels, scaled by 1/16. -/
private def scoreR (thr phr : Fin 4 → Fin 4096 → Fin 256 → ℝ) (b : Fin 4) (n m : Fin 4096) : ℝ :=
  (∑ k, thr b n k * phr b m k) * (1 / 16)

/-- The kernel's score, the query scaled before the contraction, is the real score of the key row the block holds. -/
private theorem kerS_coe (thr phr : Fin 4 → Fin 4096 → Fin 256 → ℝ) (b : Fin 4) (n : Fin 4096) (j : Fin 2) (r : Fin 2048) :
    kerS (fun b n k => (thr b n k : EReal) * ((1 / 16 : ℝ) : EReal)) (fun b n k => (phr b n k : EReal)) b n j r
      = ((scoreR thr phr b n (kidx j r) : ℝ) : EReal) := by
  rw [kerS, scoreR, Finset.sum_mul, ← coe_sum]
  refine Finset.sum_congr rfl fun k _ => ?_
  rw [← EReal.coe_mul, ← EReal.coe_mul, mul_right_comm]

/-- The reference's score, the contraction divided by 16, is the same real score. -/
private theorem refS_coe (thr phr : Fin 4 → Fin 4096 → Fin 256 → ℝ) (b : Fin 4) (n m : Fin 4096) :
    refS (fun b n k => (thr b n k : EReal)) (fun b n k => (phr b n k : EReal)) ((16 : ℝ) : EReal) b n m
      = ((scoreR thr phr b n m : ℝ) : EReal) := by
  rw [refS, Ideal.div_coe (by norm_num : (16 : ℝ) ≠ 0), scoreR, EReal.coe_mul, ← coe_sum]
  congr 1

/-! ## One query row, one value column -/

/-- For one query row and one value column, the kernel's normalised and scaled weighted sum is the reference's. -/
private theorem attn_core (thr phr gr : Fin 4 → Fin 4096 → Fin 256 → ℝ) (b : Fin 4) (n : Fin 4096) (k : Fin 256) :
    Ideal.div
        (kerA1 (fun b n k => (thr b n k : EReal) * ((1 / 16 : ℝ) : EReal)) (fun b n k => (phr b n k : EReal))
          (fun b n k => (gr b n k : EReal)) b n k)
        (kerL1 (fun b n k => (thr b n k : EReal) * ((1 / 16 : ℝ) : EReal)) (fun b n k => (phr b n k : EReal)) b n)
        * ((1 / 64 : ℝ) : EReal)
      = refZ (fun b n k => (thr b n k : EReal)) (fun b n k => (phr b n k : EReal)) (fun b n k => (gr b n k : EReal))
          ((16 : ℝ) : EReal) ((64 : ℝ) : EReal) b n k := by
  -- the real scores of this query row
  obtain ⟨S, hS⟩ : ∃ S : Fin 4096 → ℝ, S = scoreR thr phr b n := ⟨_, rfl⟩
  have hs : ∀ j, kerS (fun b n k => (thr b n k : EReal) * ((1 / 16 : ℝ) : EReal)) (fun b n k => (phr b n k : EReal)) b n j
      = fun r => ((S (kidx j r) : ℝ) : EReal) := fun j => funext fun r => by rw [hS]; exact kerS_coe thr phr b n j r
  -- the kernel's two blocks
  obtain ⟨M0, hM0⟩ := stepM_bot_real (fun r => S (kidx 0 r))
  obtain ⟨M1, hM1⟩ := stepM_coe_real M0 (fun r => S (kidx 1 r))
  have eM0 : kerM0 (fun b n k => (thr b n k : EReal) * ((1 / 16 : ℝ) : EReal)) (fun b n k => (phr b n k : EReal)) b n
      = (M0 : EReal) := by rw [kerM0, hs 0]; exact hM0
  have eL0 : kerL0 (fun b n k => (thr b n k : EReal) * ((1 / 16 : ℝ) : EReal)) (fun b n k => (phr b n k : EReal)) b n
      = ((∑ r, Real.exp (S (kidx 0 r) - M0) : ℝ) : EReal) := by
    rw [kerL0, hs 0]; exact stepL_bot _ M0 hM0
  have eA0 : kerA0 (fun b n k => (thr b n k : EReal) * ((1 / 16 : ℝ) : EReal)) (fun b n k => (phr b n k : EReal))
      (fun b n k => (gr b n k : EReal)) b n k
      = ((∑ r, Real.exp (S (kidx 0 r) - M0) * gr b (kidx 0 r) k : ℝ) : EReal) := by
    rw [kerA0, hs 0]; exact stepA_bot _ (fun r => gr b (kidx 0 r) k) M0 hM0
  have eL1 : kerL1 (fun b n k => (thr b n k : EReal) * ((1 / 16 : ℝ) : EReal)) (fun b n k => (phr b n k : EReal)) b n
      = ((Real.exp (M0 - M1) * (∑ r, Real.exp (S (kidx 0 r) - M0)) + ∑ r, Real.exp (S (kidx 1 r) - M1) : ℝ) : EReal) := by
    rw [kerL1, eM0, eL0, hs 1]; exact stepL_coe _ _ _ M1 hM1
  have eA1 : kerA1 (fun b n k => (thr b n k : EReal) * ((1 / 16 : ℝ) : EReal)) (fun b n k => (phr b n k : EReal))
      (fun b n k => (gr b n k : EReal)) b n k
      = ((Real.exp (M0 - M1) * (∑ r, Real.exp (S (kidx 0 r) - M0) * gr b (kidx 0 r) k)
          + ∑ r, Real.exp (S (kidx 1 r) - M1) * gr b (kidx 1 r) k : ℝ) : EReal) := by
    rw [kerA1, eM0, eA0, hs 1]; exact stepA_coe _ _ _ (fun r => gr b (kidx 1 r) k) M1 hM1
  have hL1 : Real.exp (M0 - M1) * (∑ r, Real.exp (S (kidx 0 r) - M0)) + ∑ r, Real.exp (S (kidx 1 r) - M1) ≠ 0 :=
    (add_pos (mul_pos (Real.exp_pos _) (Finset.sum_pos (fun r _ => Real.exp_pos _) Finset.univ_nonempty))
      (Finset.sum_pos (fun r _ => Real.exp_pos _) Finset.univ_nonempty)).ne'
  -- the reference's single softmax
  have hS' : refS (fun b n k => (thr b n k : EReal)) (fun b n k => (phr b n k : EReal)) ((16 : ℝ) : EReal) b n
      = fun m => ((S m : ℝ) : EReal) := funext fun m => by rw [hS]; exact refS_coe thr phr b n m
  obtain ⟨M, hM⟩ : ∃ M : ℝ,
      refMax (fun b n k => (thr b n k : EReal)) (fun b n k => (phr b n k : EReal)) ((16 : ℝ) : EReal) b n = (M : EReal) := by
    obtain ⟨r, hr⟩ := fold_max_coe (Finset.univ : Finset (Fin 4096)) Finset.univ_nonempty S
    exact ⟨r, by rw [refMax, hS', hr]; exact max_bot_left _⟩
  have eE : ∀ m, refE (fun b n k => (thr b n k : EReal)) (fun b n k => (phr b n k : EReal)) ((16 : ℝ) : EReal) b n m
      = ((Real.exp (S m - M) : ℝ) : EReal) := fun m => by
    rw [refE, hM, congrFun hS' m, ← EReal.coe_sub, Ideal.exp_coe]
  have eL : refL (fun b n k => (thr b n k : EReal)) (fun b n k => (phr b n k : EReal)) ((16 : ℝ) : EReal) b n
      = ((∑ m, Real.exp (S m - M) : ℝ) : EReal) := by
    rw [refL, zero_add, ← coe_sum]; exact Finset.sum_congr rfl fun m _ => eE m
  have hL : (∑ m, Real.exp (S m - M)) ≠ 0 := (sumExp_pos S M).ne'
  have eY : ∀ m, refY (fun b n k => (thr b n k : EReal)) (fun b n k => (phr b n k : EReal)) ((16 : ℝ) : EReal) b n m
      = ((Real.exp (S m - M) * (1 / ∑ m', Real.exp (S m' - M)) : ℝ) : EReal) := fun m => by
    rw [refY, eE, eL, Ideal.div_coe hL, ← EReal.coe_mul]
  have eZ : refZ (fun b n k => (thr b n k : EReal)) (fun b n k => (phr b n k : EReal)) (fun b n k => (gr b n k : EReal))
      ((16 : ℝ) : EReal) ((64 : ℝ) : EReal) b n k
      = (((∑ m, Real.exp (S m - M) * (1 / ∑ m', Real.exp (S m' - M)) * gr b m k) * (1 / 64) : ℝ) : EReal) := by
    have hsum : (∑ m, refY (fun b n k => (thr b n k : EReal)) (fun b n k => (phr b n k : EReal)) ((16 : ℝ) : EReal) b n m
          * ((gr b m k : ℝ) : EReal))
        = ∑ m, ((Real.exp (S m - M) * (1 / ∑ m', Real.exp (S m' - M)) * gr b m k : ℝ) : EReal) :=
      Finset.sum_congr rfl fun m _ => by rw [eY, ← EReal.coe_mul]
    rw [refZ, hsum, Ideal.div_coe (by norm_num : (64 : ℝ) ≠ 0), coe_sum, ← EReal.coe_mul]
  rw [eA1, eL1, eZ, Ideal.div_coe hL1, ← EReal.coe_mul, ← EReal.coe_mul,
    online_softmax S (fun m => gr b m k) M0 M1 M]

/-- A layer of real arrays is real. -/
theorem isReal_layerT {a : T3} {wT : Mat} {bias : Vc} (ha : IsReal3 a) (hw : IsRealM wT) (hb : IsRealV bias) :
    IsReal3 (layerT a wT bias) := by
  intro b n k
  choose ar har using (ha : ∀ b n k, ∃ r : ℝ, a b n k = (r : EReal))
  choose wr hwr using (hw : ∀ i j, ∃ r : ℝ, wT i j = (r : EReal))
  choose br hbr using (hb : ∀ i, ∃ r : ℝ, bias i = (r : EReal))
  refine ⟨(∑ h, ar b n h * wr h k) + br k, ?_⟩
  show (∑ h, a b n h * wT h k) + bias k = _
  rw [EReal.coe_add, ← coe_sum, hbr]
  congr 1
  refine Finset.sum_congr rfl fun h _ => ?_
  rw [har, hwr, EReal.coe_mul]

/-- THE BRIDGE. On real-valued arrays the kernel's two-block online softmax over the query pre-scaled by 1/16, with the
    weighted sum scaled by 1/64, is the reference's softmax of the scores divided by √256 with the weighted sum divided by
    √4096: the rescaling by exp(m₀ − m₁) moves both partial sums to the common maximum, and dividing the combined weighted sum
    by the combined sum is the sum of the normalised weights' products (all quantities finite, the sum of exponentials
    positive). The output layer's weight is read transposed. -/
theorem kerOut_eq_refOut (th ph g x : T3) (wf : Mat) (bf : Vc) (c16 c64 d1 d2 : EReal)
    (hth : IsReal3 th) (hph : IsReal3 ph) (hg : IsReal3 g) (hx : IsReal3 x) (hwf : IsRealM wf) (hbf : IsRealV bf)
    (h16 : c16 = ((1 / 16 : ℝ) : EReal)) (h64 : c64 = ((1 / 64 : ℝ) : EReal))
    (hd1 : d1 = ((16 : ℝ) : EReal)) (hd2 : d2 = ((64 : ℝ) : EReal)) :
    kerOut (fun b n k => th b n k * c16) ph g x (fun k o => wf o k) bf c64 = refOut th ph g x wf bf d1 d2 := by
  choose thr hthr using (hth : ∀ b n k, ∃ r : ℝ, th b n k = (r : EReal))
  choose phr hphr using (hph : ∀ b n k, ∃ r : ℝ, ph b n k = (r : EReal))
  choose gr hgr using (hg : ∀ b n k, ∃ r : ℝ, g b n k = (r : EReal))
  obtain rfl : th = fun b n k => (thr b n k : EReal) := funext fun b => funext fun n => funext fun k => hthr b n k
  obtain rfl : ph = fun b n k => (phr b n k : EReal) := funext fun b => funext fun n => funext fun k => hphr b n k
  obtain rfl : g = fun b n k => (gr b n k : EReal) := funext fun b => funext fun n => funext fun k => hgr b n k
  subst h16 h64 hd1 hd2
  funext b n o
  show ((∑ k, (Ideal.div (kerA1 _ _ _ b n k) (kerL1 _ _ b n) * _) * wf o k) + bf o) + x b n o
    = ((∑ k, refZ _ _ _ _ _ b n k * wf o k) + bf o) + x b n o
  refine congrArg (fun t => t + bf o + x b n o) (Finset.sum_congr rfl fun k _ => ?_)
  rw [attn_core thr phr gr b n k]

end Cert.Attn

end
-- ==== Proof.Arr.lean ====
/-
  Whole arrays of the program read as curried functions of their coordinates: a [4, 4096, 256] activation by
  (batch, row, channel), a [4, 512, 8, 256] one by (batch, 8·l + a, channel), a matrix, a [1, 256] row, a [256] vector.
-/
import Idealize.ShloMosaic.Lib.ValueIdx
import proofs.«419256_j1580547972144_3_alg».proof.Proof.AttnSpec

noncomputable section

namespace Cert.Attn

open Idealize.ShloMosaic Idealize.ShloMosaic.ValueIdx

def t3 (a : (⟨3, ![4, 4096, 256]⟩ : Shape).Idx → EReal) : T3 := fun b n k => a (ix3 b n k)
def mt (a : (⟨2, ![256, 256]⟩ : Shape).Idx → EReal) : Mat := fun i j => a (ix2 i j)
def rw1 (a : (⟨2, ![1, 256]⟩ : Shape).Idx → EReal) : Vc := fun j => a (ix2 (0 : Fin 1) j)
def vc (a : (⟨1, ![256]⟩ : Shape).Idx → EReal) : Vc := fun j => a (ix1 j)
/-- Row n of the flattened [4096] axis is (l, a) = (n / 8, n % 8) of the [512, 8] axes. -/
def t4 (a : (⟨4, ![4, 512, 8, 256]⟩ : Shape).Idx → EReal) : T3 :=
  fun b n k => a (ix4 b (⟨n.val / 8, by omega⟩ : Fin 512) (⟨n.val % 8, by omega⟩ : Fin 8) k)
/-- The flattened row of a [4, 512, 8, 256] index. -/
def row8 (i : (⟨4, ![4, 512, 8, 256]⟩ : Shape).Idx) : Fin 4096 :=
  ⟨(i 1).val * 8 + (i 2).val, by have h1 : (i 1).val < 512 := (i 1).isLt; have h2 : (i 2).val < 8 := (i 2).isLt; omega⟩

end Cert.Attn

end
-- ==== Proof.Glue.lean ====
/-
  The arrays the two regions are handed and the result array, read at an index through the host operations around the
  regions: the reshape [4, 512, 8, 256] → [4, 4096, 256] of the input (row 8 l + a), the five weight matrices transposed,
  the five bias vectors as rows, what each region's arrays hold when the next item is entered, and the final reshape back.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.Run
import proofs.«419256_j1580547972144_3_alg».proof.Proof.Arr
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Attn Idealize.ShloMosaic.ValueIdx

variable (m : (ℓ : Loc nD τ sig) → Buf (Elt Ideal) ℓ) (ρ : Dev nD → PrngReg)

/-! ## The host stretch before the regions -/

/-- The input, flattened to [4, 4096, 256]. -/
theorem V1_main_v0 (c : Dev nD) :
    (V1 m ρ c main_v0 : S4x4096x256.Idx → EReal) = shapeCast S4x4096x256 (m ((c : Thread nD τ).loc main_arg0)) Facts₀.shapeCasts_S4x512x8x256_S4x4096x256 := by
  show StableHlo.after hostOps0 (W0 m ρ c) (Proc.devRef .tc main_v0) = _
  after_results; rfl

theorem t3_V1_main_v0 (c : Dev nD) : t3 (V1 m ρ c main_v0) = t4 (m ((c : Thread nD τ).loc main_arg0)) := by
  funext b n k
  unfold t3 t4
  rw [V1_main_v0]
  refine shapeCast_apply (s := S4x512x8x256) (t := S4x4096x256) _ _ _ _ ?_
  show (S4x512x8x256.rowMajor _).val = (S4x4096x256.rowMajor _).val
  rewrite [Shape.rowMajor_val_four, Shape.rowMajor_val_three]
  have hn : n.val < 4096 := n.isLt
  show ((b.val * 512 + n.val / 8) * 8 + n.val % 8) * 256 + k.val = (b.val * 4096 + n.val) * 256 + k.val
  omega

/-- A weight matrix as the regions are handed it: transposed. -/
theorem V1_main_v1 (c : Dev nD) :
    (V1 m ρ c main_v1 : S256x256.Idx → EReal) = transpose S256x256 [1, 0] (m ((c : Thread nD τ).loc main_arg1)) Facts₀.transposes_S256x256_S256x256_1_0 := by
  show StableHlo.after hostOps0 (W0 m ρ c) (Proc.devRef .tc main_v1) = _
  after_results <;> rfl
theorem mt_V1_main_v1 (c : Dev nD) : mt (V1 m ρ c main_v1) = fun i j => mt (m ((c : Thread nD τ).loc main_arg1)) j i := by
  funext i j
  unfold Cert.Attn.mt
  rw [V1_main_v1]
  exact transpose_ix2_apply (a := 256) (b := 256) _ _ i j
theorem V1_main_v2 (c : Dev nD) :
    (V1 m ρ c main_v2 : S256x256.Idx → EReal) = transpose S256x256 [1, 0] (m ((c : Thread nD τ).loc main_arg3)) Facts₀.transposes_S256x256_S256x256_1_0 := by
  show StableHlo.after hostOps0 (W0 m ρ c) (Proc.devRef .tc main_v2) = _
  after_results <;> rfl
theorem mt_V1_main_v2 (c : Dev nD) : mt (V1 m ρ c main_v2) = fun i j => mt (m ((c : Thread nD τ).loc main_arg3)) j i := by
  funext i j
  unfold Cert.Attn.mt
  rw [V1_main_v2]
  exact transpose_ix2_apply (a := 256) (b := 256) _ _ i j
theorem V1_main_v3 (c : Dev nD) :
    (V1 m ρ c main_v3 : S256x256.Idx → EReal) = transpose S256x256 [1, 0] (m ((c : Thread nD τ).loc main_arg5)) Facts₀.transposes_S256x256_S256x256_1_0 := by
  show StableHlo.after hostOps0 (W0 m ρ c) (Proc.devRef .tc main_v3) = _
  after_results <;> rfl
theorem mt_V1_main_v3 (c : Dev nD) : mt (V1 m ρ c main_v3) = fun i j => mt (m ((c : Thread nD τ).loc main_arg5)) j i := by
  funext i j
  unfold Cert.Attn.mt
  rw [V1_main_v3]
  exact transpose_ix2_apply (a := 256) (b := 256) _ _ i j
theorem V1_main_v4 (c : Dev nD) :
    (V1 m ρ c main_v4 : S256x256.Idx → EReal) = transpose S256x256 [1, 0] (m ((c : Thread nD τ).loc main_arg7)) Facts₀.transposes_S256x256_S256x256_1_0 := by
  show StableHlo.after hostOps0 (W0 m ρ c) (Proc.devRef .tc main_v4) = _
  after_results <;> rfl
theorem mt_V1_main_v4 (c : Dev nD) : mt (V1 m ρ c main_v4) = fun i j => mt (m ((c : Thread nD τ).loc main_arg7)) j i := by
  funext i j
  unfold Cert.Attn.mt
  rw [V1_main_v4]
  exact transpose_ix2_apply (a := 256) (b := 256) _ _ i j
theorem V1_main_v5 (c : Dev nD) :
    (V1 m ρ c main_v5 : S256x256.Idx → EReal) = transpose S256x256 [1, 0] (m ((c : Thread nD τ).loc main_arg9)) Facts₀.transposes_S256x256_S256x256_1_0 := by
  show StableHlo.after hostOps0 (W0 m ρ c) (Proc.devRef .tc main_v5) = _
  after_results <;> rfl
theorem mt_V1_main_v5 (c : Dev nD) : mt (V1 m ρ c main_v5) = fun i j => mt (m ((c : Thread nD τ).loc main_arg9)) j i := by
  funext i j
  unfold Cert.Attn.mt
  rw [V1_main_v5]
  exact transpose_ix2_apply (a := 256) (b := 256) _ _ i j

/-- A bias vector as the regions are handed it: a [1, 256] row. -/
theorem V1_main_v6 (c : Dev nD) :
    (V1 m ρ c main_v6 : S1x256.Idx → EReal) = shapeCast S1x256 (m ((c : Thread nD τ).loc main_arg2)) Facts₀.shapeCasts_S256_S1x256 := by
  show StableHlo.after hostOps0 (W0 m ρ c) (Proc.devRef .tc main_v6) = _
  after_results; rfl
theorem rw1_V1_main_v6 (c : Dev nD) : rw1 (V1 m ρ c main_v6) = vc (m ((c : Thread nD τ).loc main_arg2)) := by
  funext j
  unfold rw1 vc
  rw [V1_main_v6]
  refine shapeCast_apply (s := S256) (t := S1x256) _ _ _ _ ?_
  show (S256.rowMajor _).val = (S1x256.rowMajor _).val
  rewrite [Shape.rowMajor_val_one, Shape.rowMajor_val_two]
  show j.val = 0 * 256 + j.val
  omega
theorem V1_main_v7 (c : Dev nD) :
    (V1 m ρ c main_v7 : S1x256.Idx → EReal) = shapeCast S1x256 (m ((c : Thread nD τ).loc main_arg4)) Facts₀.shapeCasts_S256_S1x256 := by
  show StableHlo.after hostOps0 (W0 m ρ c) (Proc.devRef .tc main_v7) = _
  after_results; rfl
theorem rw1_V1_main_v7 (c : Dev nD) : rw1 (V1 m ρ c main_v7) = vc (m ((c : Thread nD τ).loc main_arg4)) := by
  funext j
  unfold rw1 vc
  rw [V1_main_v7]
  refine shapeCast_apply (s := S256) (t := S1x256) _ _ _ _ ?_
  show (S256.rowMajor _).val = (S1x256.rowMajor _).val
  rewrite [Shape.rowMajor_val_one, Shape.rowMajor_val_two]
  show j.val = 0 * 256 + j.val
  omega
theorem V1_main_v8 (c : Dev nD) :
    (V1 m ρ c main_v8 : S1x256.Idx → EReal) = shapeCast S1x256 (m ((c : Thread nD τ).loc main_arg6)) Facts₀.shapeCasts_S256_S1x256 := by
  show StableHlo.after hostOps0 (W0 m ρ c) (Proc.devRef .tc main_v8) = _
  after_results; rfl
theorem rw1_V1_main_v8 (c : Dev nD) : rw1 (V1 m ρ c main_v8) = vc (m ((c : Thread nD τ).loc main_arg6)) := by
  funext j
  unfold rw1 vc
  rw [V1_main_v8]
  refine shapeCast_apply (s := S256) (t := S1x256) _ _ _ _ ?_
  show (S256.rowMajor _).val = (S1x256.rowMajor _).val
  rewrite [Shape.rowMajor_val_one, Shape.rowMajor_val_two]
  show j.val = 0 * 256 + j.val
  omega
theorem V1_main_v9 (c : Dev nD) :
    (V1 m ρ c main_v9 : S1x256.Idx → EReal) = shapeCast S1x256 (m ((c : Thread nD τ).loc main_arg8)) Facts₀.shapeCasts_S256_S1x256 := by
  show StableHlo.after hostOps0 (W0 m ρ c) (Proc.devRef .tc main_v9) = _
  after_results; rfl
theorem rw1_V1_main_v9 (c : Dev nD) : rw1 (V1 m ρ c main_v9) = vc (m ((c : Thread nD τ).loc main_arg8)) := by
  funext j
  unfold rw1 vc
  rw [V1_main_v9]
  refine shapeCast_apply (s := S256) (t := S1x256) _ _ _ _ ?_
  show (S256.rowMajor _).val = (S1x256.rowMajor _).val
  rewrite [Shape.rowMajor_val_one, Shape.rowMajor_val_two]
  show j.val = 0 * 256 + j.val
  omega
theorem V1_main_v10 (c : Dev nD) :
    (V1 m ρ c main_v10 : S1x256.Idx → EReal) = shapeCast S1x256 (m ((c : Thread nD τ).loc main_arg10)) Facts₀.shapeCasts_S256_S1x256 := by
  show StableHlo.after hostOps0 (W0 m ρ c) (Proc.devRef .tc main_v10) = _
  after_results; rfl
theorem rw1_V1_main_v10 (c : Dev nD) : rw1 (V1 m ρ c main_v10) = vc (m ((c : Thread nD τ).loc main_arg10)) := by
  funext j
  unfold rw1 vc
  rw [V1_main_v10]
  refine shapeCast_apply (s := S256) (t := S1x256) _ _ _ _ ?_
  show (S256.rowMajor _).val = (S1x256.rowMajor _).val
  rewrite [Shape.rowMajor_val_one, Shape.rowMajor_val_two]
  show j.val = 0 * 256 + j.val
  omega

/-! ## What the attention region is handed: the projection region's three output arrays, the rest as before it -/

theorem V2_main_v11_0 (c : Dev nD) : V2 m ρ c main_v11_0 = (dat0 (V1 m ρ) c).arrAt 9 cfg0.N := W2_arr m ρ c 9
theorem V2_main_v11_1 (c : Dev nD) : V2 m ρ c main_v11_1 = (dat0 (V1 m ρ) c).arrAt 10 cfg0.N := W2_arr m ρ c 10
theorem V2_main_v11_2 (c : Dev nD) : V2 m ρ c main_v11_2 = (dat0 (V1 m ρ) c).arrAt 11 cfg0.N := W2_arr m ρ c 11
/-- The flattened input is an input window of the projection region: it leaves it as it found it. -/
theorem V2_main_v0 (c : Dev nD) : V2 m ρ c main_v0 = V1 m ρ c main_v0 :=
  (W2_arr m ρ c 0).trans (((dat0 (V1 m ρ) c).arrAt_in 0 rfl _).trans (A_eq0 (V1 m ρ) c 0))
/-- The output layer's weight and bias are no array of the projection region. -/
theorem V2_main_v5 (c : Dev nD) : V2 m ρ c main_v5 = V1 m ρ c main_v5 := W2_of_ne m ρ c main_v5 (by decide)
theorem V2_main_v10 (c : Dev nD) : V2 m ρ c main_v10 = V1 m ρ c main_v10 := W2_of_ne m ρ c main_v10 (by decide)

/-! ## The result: the attention region's output array, reshaped back to [4, 512, 8, 256] -/

theorem V3_main_v12 (c : Dev nD) : V3 m ρ c main_v12 = (dat1 (V2 m ρ) c).arrAt 6 cfg1.N := W3_arr m ρ c 6

theorem W4_main_v13 (c : Dev nD) :
    (W4 m ρ c (Proc.devRef .tc main_v13) : S4x512x8x256.Idx → EReal)
      = shapeCast S4x512x8x256 (V3 m ρ c main_v12 : S4x4096x256.Idx → EReal) Facts₀.shapeCasts_S4x4096x256_S4x512x8x256 := by
  show StableHlo.after hostOps2 (W3 m ρ c) (Proc.devRef .tc main_v13) = _
  after_results <;> rfl

theorem W4_main_v13_apply (c : Dev nD) (i : S4x512x8x256.Idx) :
    (W4 m ρ c (Proc.devRef .tc main_v13) : S4x512x8x256.Idx → EReal) i = t3 (V3 m ρ c main_v12) (i 0) (row8 i) (i 3) := by
  rw [W4_main_v13]
  unfold t3 row8
  refine shapeCast_apply (s := S4x4096x256) (t := S4x512x8x256) _ _ _ _ ?_
  show (S4x4096x256.rowMajor _).val = (S4x512x8x256.rowMajor _).val
  rewrite [Shape.rowMajor_val_three, Shape.rowMajor_val_four]
  have h1 : (i 1).val < 512 := (i 1).isLt
  have h2 : (i 2).val < 8 := (i 2).isLt
  show ((i 0).val * 4096 + ((i 1).val * 8 + (i 2).val)) * 256 + (i 3).val = (((i 0).val * 512 + (i 1).val) * 8 + (i 2).val) * 256 + (i 3).val
  omega

end Cert.KernelIdeal.Hand

end
-- ==== Proof.Val0.lean ====
/-
  What the projection region leaves in its three output arrays, at the extended reals: each block is the body's
  stored term of the point's input blocks, the blocks tile the arrays, and read at an index the term is two row-wise
  affine layers of the input rows (the scaled one times 2⁻⁴).
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.R0Defs
import proofs.«419256_j1580547972144_3_alg».proof.Proof.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Attn Idealize.ShloMosaic.ValueIdx

-- the TensorCore's buffer contents when the region is entered, at the extended reals
variable (V : (c : Dev nD) → (b : Ref sig .tc) → Buf (Elt Ideal) ((c : Thread nD τ).loc b))

/-! ## The matrix unit's product, contracted on the left operand's columns and the right operand's rows, at an index -/

/-- The left operand is read in the result's row: its axis 0 is the result's axis 0. -/
theorem mmL0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Its axis 1 is the contracted coordinate. -/
theorem mmL1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
/-- The right operand's axis 0 is the contracted coordinate. -/
theorem mmR0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
/-- The right operand is read in the result's column: its axis 1 is the result's axis 1. -/
theorem mmR1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A [2048, 256] matrix times a [256, 256] matrix, accumulated into the zero splat, at (r, k): ∑ₕ A r h · B h k. -/
theorem mm_apply {φ₁ φ₂ : FTy} (A : FVec Ideal S2048x256 φ₁) (B : FVec Ideal S256x256 φ₂) (r : Fin 2048) (k : Fin 256) :
    matmul dot_S2048x256_S256x256_S2048x256_1_0_0_1_n_n none A B (constant S2048x256 .f32 0x00000000#32) (ix2 r k)
      = ∑ h : Fin 256, A (ix2 r h) * B (ix2 h k) := by
  refine (Ideal.matmul_constant_zero_apply dot_S2048x256_S256x256_S2048x256_1_0_0_1_n_n none A B (ix2 r k)).trans ?_
  rw [← Equiv.sum_comp (contrEquiv1 dot_S2048x256_S256x256_S2048x256_1_0_0_1_n_n 256 rfl rfl).symm]
  refine Finset.sum_congr rfl fun h _ => ?_
  have hk := contrEquiv1_symm_val dot_S2048x256_S256x256_S2048x256_1_0_0_1_n_n 256 rfl rfl h
  have el : dot_S2048x256_S256x256_S2048x256_1_0_0_1_n_n.lhsIdx (ix2 r k) ((contrEquiv1 dot_S2048x256_S256x256_S2048x256_1_0_0_1_n_n 256 rfl rfl).symm h) = ix2 r h := funext fun a => Fin.ext (by
    match a with
    | ⟨0, _⟩ => exact mmL0 _ _
    | ⟨1, _⟩ => exact (mmL1 _ _).trans hk)
  have er : dot_S2048x256_S256x256_S2048x256_1_0_0_1_n_n.rhsIdx (ix2 r k) ((contrEquiv1 dot_S2048x256_S256x256_S2048x256_1_0_0_1_n_n 256 rfl rfl).symm h) = ix2 h k := funext fun a => Fin.ext (by
    match a with
    | ⟨0, _⟩ => exact (mmR0 _ _).trans hk
    | ⟨1, _⟩ => exact mmR1 _ _)
  rw [el, er]

/-! ## The body's arithmetic at an index

Narrowing the float format is the identity on extended reals, the casts of a matrix or a row to its own shape are the
identity, and the bias row is repeated down the 2048 rows; so each affine layer of the body reads, at (r, k), the sum
over h of the operand's row r times the weight's column k, plus the bias entry k. -/

/-- One affine layer of a block of 2048 rows, in the body's spelling, at (r, k). -/
theorem lay_apply {φ₁ : FTy} (a : FVec Ideal S2048x256 φ₁) (w : Vec Ideal S256x256 .f32) (b : Vec Ideal S1x256 .f32)
    (r : Fin 2048) (k : Fin 256) :
    addf (matmul dot_S2048x256_S256x256_S2048x256_1_0_0_1_n_n none a
          (truncf .bf16 (shapeCast S256x256 w shapeCasts_S256x256_S256x256) bitsLt_bf16_f32) (constant S2048x256 .f32 0x00000000#32))
        (broadcastTo S2048x256 (shapeCast S1x256 b shapeCasts_S1x256_S1x256) broadcasts_S1x256_S2048x256) (ix2 r k)
      = (∑ h : Fin 256, a (ix2 r h) * w (ix2 h k)) + b (ix2 (0 : Fin 1) k) := by
  rw [addf_apply, mm_apply, broadcastTo_1b_ab_apply, shapeCast_self, shapeCast_self]
  rfl

/-- The first layer x·Wc + bc of the block (its unit axis dropped), at (r, k). -/
theorem pay3_apply (x : Vec Ideal S1x2048x256 .f32) (wc : Vec Ideal S256x256 .f32) (bc : Vec Ideal S1x256 .f32)
    (r : Fin 2048) (k : Fin 256) :
    k0_pay3 x wc bc (ix2 r k) = (∑ h : Fin 256, x (ix3 (0 : Fin 1) r h) * wc (ix2 h k)) + bc (ix2 (0 : Fin 1) k) := by
  unfold k0_pay3
  rw [truncf_apply]
  refine (lay_apply _ wc bc r k).trans ?_
  refine congrArg (· + bc (ix2 (0 : Fin 1) k)) (Finset.sum_congr rfl fun h _ => ?_)
  rw [truncf_apply, shapeCast_1ab_ab_apply]

/-- The scaled block: the second layer of the first layer's rows, times the scalar 2⁻⁴, at (u, r, k). -/
theorem pay4_apply (x : Vec Ideal S1x2048x256 .f32) (wc : Vec Ideal S256x256 .f32) (bc : Vec Ideal S1x256 .f32)
    (wt : Vec Ideal S256x256 .f32) (bt : Vec Ideal S1x256 .f32) (u : Fin 1) (r : Fin 2048) (k : Fin 256) :
    k0_pay4 x wc bc wt bt (ix3 u r k)
      = ((∑ h : Fin 256, ((∑ g : Fin 256, x (ix3 (0 : Fin 1) r g) * wc (ix2 g h)) + bc (ix2 (0 : Fin 1) h)) * wt (ix2 h k))
          + bt (ix2 (0 : Fin 1) k)) * Ideal.ofBits .f32 0x3D800000#32 := by
  unfold k0_pay4
  rw [shapeCast_ab_1ab_apply, truncf_apply, mulf_apply, broadcast_apply]
  refine congrArg (· * Ideal.ofBits .f32 0x3D800000#32) ?_
  refine (lay_apply _ wt bt r k).trans ?_
  refine congrArg (· + bt (ix2 (0 : Fin 1) k)) (Finset.sum_congr rfl fun h _ => ?_)
  rw [pay3_apply]

/-- The unscaled second layer of the first layer's rows, at (r, k). -/
theorem pay5_apply (x : Vec Ideal S1x2048x256 .f32) (wc : Vec Ideal S256x256 .f32) (bc : Vec Ideal S1x256 .f32)
    (wp : Vec Ideal S256x256 .f32) (bp : Vec Ideal S1x256 .f32) (r : Fin 2048) (k : Fin 256) :
    k0_pay5 x wc bc wp bp (ix2 r k)
      = (∑ h : Fin 256, ((∑ g : Fin 256, x (ix3 (0 : Fin 1) r g) * wc (ix2 g h)) + bc (ix2 (0 : Fin 1) h)) * wp (ix2 h k))
          + bp (ix2 (0 : Fin 1) k) := by
  unfold k0_pay5
  rw [truncf_apply]
  refine (lay_apply _ wp bp r k).trans ?_
  refine congrArg (· + bp (ix2 (0 : Fin 1) k)) (Finset.sum_congr rfl fun h _ => ?_)
  rw [pay3_apply]

/-- A matrix given a leading unit axis reads, at (u, r, k), its entry (r, k). -/
theorem pay1_apply (v : FVec Ideal S2048x256 .bf16) (u : Fin 1) (r : Fin 2048) (k : Fin 256) :
    k0_pay1 v (ix3 u r k) = v (ix2 r k) := by
  unfold k0_pay1
  rw [shapeCast_ab_1ab_apply]

/-- A second layer of given rows a, with a leading unit axis, at (u, r, k). -/
theorem pay2_apply (a : FVec Ideal S2048x256 .bf16) (wg : Vec Ideal S256x256 .f32) (bg : Vec Ideal S1x256 .f32)
    (u : Fin 1) (r : Fin 2048) (k : Fin 256) :
    k0_pay2 a wg bg (ix3 u r k) = (∑ h : Fin 256, a (ix2 r h) * wg (ix2 h k)) + bg (ix2 (0 : Fin 1) k) := by
  unfold k0_pay2
  rw [shapeCast_ab_1ab_apply, truncf_apply]
  exact lay_apply _ wg bg r k

/-! ## A block's rows are rows of the whole-array layers

Row r of a block's result reads row r of the block only. So if row r of the block is row n of batch b of the whole
input, the block's result at (r, k) is the two whole-array layers at (b, n, k). -/

theorem blk9_rows (x : Vec Ideal S1x2048x256 .f32) (wc : Vec Ideal S256x256 .f32) (bc : Vec Ideal S1x256 .f32)
    (wt : Vec Ideal S256x256 .f32) (bt : Vec Ideal S1x256 .f32) (X : S4x4096x256.Idx → EReal)
    (u : Fin 1) (r : Fin 2048) (k : Fin 256) (b : Fin 4) (n : Fin 4096)
    (hx : ∀ g : Fin 256, x (ix3 (0 : Fin 1) r g) = X (ix3 b n g)) :
    k0_pay4 x wc bc wt bt (ix3 u r k)
      = layerT (layerT (t3 X) (mt wc) (rw1 bc)) (mt wt) (rw1 bt) b n k * Ideal.ofBits .f32 0x3D800000#32 := by
  rw [pay4_apply]
  simp only [layerT, t3, Attn.mt, rw1, hx]

theorem blk10_rows (x : Vec Ideal S1x2048x256 .f32) (wc : Vec Ideal S256x256 .f32) (bc : Vec Ideal S1x256 .f32)
    (wp : Vec Ideal S256x256 .f32) (bp : Vec Ideal S1x256 .f32) (X : S4x4096x256.Idx → EReal)
    (u : Fin 1) (r : Fin 2048) (k : Fin 256) (b : Fin 4) (n : Fin 4096)
    (hx : ∀ g : Fin 256, x (ix3 (0 : Fin 1) r g) = X (ix3 b n g)) :
    k0_pay1 (k0_pay5 x wc bc wp bp) (ix3 u r k)
      = layerT (layerT (t3 X) (mt wc) (rw1 bc)) (mt wp) (rw1 bp) b n k := by
  rw [pay1_apply, pay5_apply]
  simp only [layerT, t3, Attn.mt, rw1, hx]

theorem blk11_rows (x : Vec Ideal S1x2048x256 .f32) (wc : Vec Ideal S256x256 .f32) (bc : Vec Ideal S1x256 .f32)
    (wg : Vec Ideal S256x256 .f32) (bg : Vec Ideal S1x256 .f32) (X : S4x4096x256.Idx → EReal)
    (u : Fin 1) (r : Fin 2048) (k : Fin 256) (b : Fin 4) (n : Fin 4096)
    (hx : ∀ g : Fin 256, x (ix3 (0 : Fin 1) r g) = X (ix3 b n g)) :
    k0_pay2 (k0_pay3 x wc bc) wg bg (ix3 u r k)
      = layerT (layerT (t3 X) (mt wc) (rw1 bc)) (mt wg) (rw1 bg) b n k := by
  rw [pay2_apply]
  simp only [pay3_apply, layerT, t3, Attn.mt, rw1, hx]

/-- The scaled block at any block index y and any array index i with the same channel, given that row y₁ of the block
    is row i₁ of batch i₀ of the input and that the weight and bias blocks are the whole weights and biases. -/
theorem blk9_at (x : Vec Ideal S1x2048x256 .f32) (wc : Vec Ideal S256x256 .f32) (bc : Vec Ideal S1x256 .f32)
    (wt : Vec Ideal S256x256 .f32) (bt : Vec Ideal S1x256 .f32)
    (X : S4x4096x256.Idx → EReal) (Wc : S256x256.Idx → EReal) (Bc : S1x256.Idx → EReal) (Wt : S256x256.Idx → EReal) (Bt : S1x256.Idx → EReal)
    (hwc : wc = Wc) (hbc : bc = Bc) (hwt : wt = Wt) (hbt : bt = Bt)
    (y : S1x2048x256.Idx) (i : S4x4096x256.Idx)
    (hx : ∀ g : Fin 256, x (ix3 (0 : Fin 1) (y 1) g) = X (ix3 (i 0) (i 1) g)) (h2 : (i 2).val = (y 2).val) :
    k0_pay4 x wc bc wt bt y
      = layerT (layerT (t3 X) (mt Wc) (rw1 Bc)) (mt Wt) (rw1 Bt) (i 0) (i 1) (i 2) * Ideal.ofBits .f32 0x3D800000#32 := by
  subst hwc hbc hwt hbt
  have e2 : i 2 = y 2 := Fin.ext h2
  rw [e2, eq_ix3 y]
  exact blk9_rows x wc bc wt bt X (y 0) (y 1) (y 2) (i 0) (i 1) hx

theorem blk10_at (x : Vec Ideal S1x2048x256 .f32) (wc : Vec Ideal S256x256 .f32) (bc : Vec Ideal S1x256 .f32)
    (wp : Vec Ideal S256x256 .f32) (bp : Vec Ideal S1x256 .f32)
    (X : S4x4096x256.Idx → EReal) (Wc : S256x256.Idx → EReal) (Bc : S1x256.Idx → EReal) (Wp : S256x256.Idx → EReal) (Bp : S1x256.Idx → EReal)
    (hwc : wc = Wc) (hbc : bc = Bc) (hwp : wp = Wp) (hbp : bp = Bp)
    (y : S1x2048x256.Idx) (i : S4x4096x256.Idx)
    (hx : ∀ g : Fin 256, x (ix3 (0 : Fin 1) (y 1) g) = X (ix3 (i 0) (i 1) g)) (h2 : (i 2).val = (y 2).val) :
    k0_pay1 (k0_pay5 x wc bc wp bp) y
      = layerT (layerT (t3 X) (mt Wc) (rw1 Bc)) (mt Wp) (rw1 Bp) (i 0) (i 1) (i 2) := by
  subst hwc hbc hwp hbp
  have e2 : i 2 = y 2 := Fin.ext h2
  rw [e2, eq_ix3 y]
  exact blk10_rows x wc bc wp bp X (y 0) (y 1) (y 2) (i 0) (i 1) hx

theorem blk11_at (x : Vec Ideal S1x2048x256 .f32) (wc : Vec Ideal S256x256 .f32) (bc : Vec Ideal S1x256 .f32)
    (wg : Vec Ideal S256x256 .f32) (bg : Vec Ideal S1x256 .f32)
    (X : S4x4096x256.Idx → EReal) (Wc : S256x256.Idx → EReal) (Bc : S1x256.Idx → EReal) (Wg : S256x256.Idx → EReal) (Bg : S1x256.Idx → EReal)
    (hwc : wc = Wc) (hbc : bc = Bc) (hwg : wg = Wg) (hbg : bg = Bg)
    (y : S1x2048x256.Idx) (i : S4x4096x256.Idx)
    (hx : ∀ g : Fin 256, x (ix3 (0 : Fin 1) (y 1) g) = X (ix3 (i 0) (i 1) g)) (h2 : (i 2).val = (y 2).val) :
    k0_pay2 (k0_pay3 x wc bc) wg bg y
      = layerT (layerT (t3 X) (mt Wc) (rw1 Bc)) (mt Wg) (rw1 Bg) (i 0) (i 1) (i 2) := by
  subst hwc hbc hwg hbg
  have e2 : i 2 = y 2 := Fin.ext h2
  rw [e2, eq_ix3 y]
  exact blk11_rows x wc bc wg bg X (y 0) (y 1) (y 2) (i 0) (i 1) hx

/-! ## Where the blocks sit -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps of the row-block windows over the grid: at every point the input window and the three output windows
    sit at one block index (b, n, 0), with b < 4 and n < 2. -/
theorem idx0 : ∀ t : Fin cfg0.N,
    win0_0.index t (0 : Fin 3) = win0_9.index t (0 : Fin 3) ∧ win0_0.index t (1 : Fin 3) = win0_9.index t (1 : Fin 3)
    ∧ win0_0.index t (2 : Fin 3) = 0 ∧ win0_9.index t (2 : Fin 3) = 0
    ∧ win0_9.index t (0 : Fin 3) < 4 ∧ win0_9.index t (1 : Fin 3) < 2
    ∧ win0_10.index t (0 : Fin 3) = win0_9.index t (0 : Fin 3) ∧ win0_10.index t (1 : Fin 3) = win0_9.index t (1 : Fin 3)
    ∧ win0_10.index t (2 : Fin 3) = 0
    ∧ win0_11.index t (0 : Fin 3) = win0_9.index t (0 : Fin 3) ∧ win0_11.index t (1 : Fin 3) = win0_9.index t (1 : Fin 3)
    ∧ win0_11.index t (2 : Fin 3) = 0 :=
  (by decide +kernel : ∀ t : Fin grid0.N, _)

/-- The weight and bias windows sit at block (0, 0) at every point. -/
theorem idxW : ∀ t : Fin cfg0.N,
    win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

/-- Every block (b, n, 0) of each output array is some point's. -/
theorem onto9 : ∀ (q0 : Fin 4) (q1 : Fin 2), ∃ t : Fin cfg0.N, win0_9.index t = ![q0.val, q1.val, 0] :=
  (by decide +kernel : ∀ (q0 : Fin 4) (q1 : Fin 2), ∃ t : Fin grid0.N, win0_9.index t = ![q0.val, q1.val, 0])
theorem onto10 : ∀ (q0 : Fin 4) (q1 : Fin 2), ∃ t : Fin cfg0.N, win0_10.index t = ![q0.val, q1.val, 0] :=
  (by decide +kernel : ∀ (q0 : Fin 4) (q1 : Fin 2), ∃ t : Fin grid0.N, win0_10.index t = ![q0.val, q1.val, 0])
theorem onto11 : ∀ (q0 : Fin 4) (q1 : Fin 2), ∃ t : Fin cfg0.N, win0_11.index t = ![q0.val, q1.val, 0] :=
  (by decide +kernel : ∀ (q0 : Fin 4) (q1 : Fin 2), ∃ t : Fin grid0.N, win0_11.index t = ![q0.val, q1.val, 0])

/-- The input window's block at the point whose block index is (b, n, 0): its row r is row 2048 n + r of batch b. -/
theorem xblk_apply (c : Dev nD) (t : Fin cfg0.N) (r : Fin 2048) (g : Fin 256) (i : S4x4096x256.Idx)
    (h0 : (i 0).val = win0_9.index t (0 : Fin 3)) (h1 : (i 1).val = win0_9.index t (1 : Fin 3) * 2048 + r.val) (h2 : (i 2).val = g.val) :
    (iblk0 V c 0 t : S1x2048x256.Idx → EReal) (ix3 (0 : Fin 1) r g) = (V c main_v0 : S4x4096x256.Idx → EReal) i := by
  obtain ⟨e00, e01, e02, -⟩ := idx0 t
  show V c main_v0 (((cfg0.win 0).blk t).view.emb (ix3 (0 : Fin 1) r g)) = V c main_v0 i
  refine congrArg _ (funext fun a => Fin.ext ?_)
  match a with
  | ⟨0, _⟩ => show win0_0.index t (0 : Fin 3) * 1 + 1 * 0 = (i 0).val; omega
  | ⟨1, _⟩ => show win0_0.index t (1 : Fin 3) * 2048 + 1 * r.val = (i 1).val; omega
  | ⟨2, _⟩ => show win0_0.index t (2 : Fin 3) * 256 + 1 * g.val = (i 2).val; omega

/-- A weight window's one block is the whole matrix, a bias window's the whole row (block (0, 0) of an array of the
    block's own shape). -/
theorem wblk1 (c : Dev nD) (t : Fin cfg0.N) : (iblk0 V c 1 t : S256x256.Idx → EReal) = (V c main_v1 : S256x256.Idx → EReal) := by
  obtain ⟨e0, e1, -⟩ := idxW t
  funext y
  show V c main_v1 (((cfg0.win 1).blk t).view.emb y) = V c main_v1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem wblk2 (c : Dev nD) (t : Fin cfg0.N) : (iblk0 V c 2 t : S1x256.Idx → EReal) = (V c main_v6 : S1x256.Idx → EReal) := by
  obtain ⟨-, -, e0, e1, -⟩ := idxW t
  funext y
  show V c main_v6 (((cfg0.win 2).blk t).view.emb y) = V c main_v6 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem wblk3 (c : Dev nD) (t : Fin cfg0.N) : (iblk0 V c 3 t : S256x256.Idx → EReal) = (V c main_v2 : S256x256.Idx → EReal) := by
  obtain ⟨-, -, -, -, e0, e1, -⟩ := idxW t
  funext y
  show V c main_v2 (((cfg0.win 3).blk t).view.emb y) = V c main_v2 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem wblk4 (c : Dev nD) (t : Fin cfg0.N) : (iblk0 V c 4 t : S1x256.Idx → EReal) = (V c main_v7 : S1x256.Idx → EReal) := by
  obtain ⟨-, -, -, -, -, -, e0, e1, -⟩ := idxW t
  funext y
  show V c main_v7 (((cfg0.win 4).blk t).view.emb y) = V c main_v7 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem wblk5 (c : Dev nD) (t : Fin cfg0.N) : (iblk0 V c 5 t : S256x256.Idx → EReal) = (V c main_v3 : S256x256.Idx → EReal) := by
  obtain ⟨-, -, -, -, -, -, -, -, e0, e1, -⟩ := idxW t
  funext y
  show V c main_v3 (((cfg0.win 5).blk t).view.emb y) = V c main_v3 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem wblk6 (c : Dev nD) (t : Fin cfg0.N) : (iblk0 V c 6 t : S1x256.Idx → EReal) = (V c main_v8 : S1x256.Idx → EReal) := by
  obtain ⟨-, -, -, -, -, -, -, -, -, -, e0, e1, -⟩ := idxW t
  funext y
  show V c main_v8 (((cfg0.win 6).blk t).view.emb y) = V c main_v8 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem wblk7 (c : Dev nD) (t : Fin cfg0.N) : (iblk0 V c 7 t : S256x256.Idx → EReal) = (V c main_v4 : S256x256.Idx → EReal) := by
  obtain ⟨-, -, -, -, -, -, -, -, -, -, -, -, e0, e1, -⟩ := idxW t
  funext y
  show V c main_v4 (((cfg0.win 7).blk t).view.emb y) = V c main_v4 y
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem wblk8 (c : Dev nD) (t : Fin cfg0.N) : (iblk0 V c 8 t : S1x256.Idx → EReal) = (V c main_v9 : S1x256.Idx → EReal) := by
  obtain ⟨-, -, -, -, -, -, -, -, -, -, -, -, -, -, e0, e1⟩ := idxW t
  funext y
  show V c main_v9 (((cfg0.win 8).blk t).view.emb y) = V c main_v9 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-! ## The three output arrays as functions of the whole arrays -/

/-- θ' = ((x·Wc + bc)·Wθ + bθ)·2⁻⁴, index by index. -/
def whole9 (c : Dev nD) : S4x4096x256.Idx → EReal := fun i =>
  layerT (layerT (t3 (V c main_v0)) (mt (V c main_v1)) (rw1 (V c main_v6))) (mt (V c main_v2)) (rw1 (V c main_v7)) (i 0) (i 1) (i 2)
    * Ideal.ofBits .f32 0x3D800000#32

/-- φ = (x·Wc + bc)·Wφ + bφ, index by index. -/
def whole10 (c : Dev nD) : S4x4096x256.Idx → EReal := fun i =>
  layerT (layerT (t3 (V c main_v0)) (mt (V c main_v1)) (rw1 (V c main_v6))) (mt (V c main_v3)) (rw1 (V c main_v8)) (i 0) (i 1) (i 2)

/-- g = (x·Wc + bc)·Wg + bg, index by index. -/
def whole11 (c : Dev nD) : S4x4096x256.Idx → EReal := fun i =>
  layerT (layerT (t3 (V c main_v0)) (mt (V c main_v1)) (rw1 (V c main_v6))) (mt (V c main_v4)) (rw1 (V c main_v9)) (i 0) (i 1) (i 2)

/-- What a point writes back into the first output array is its block of θ': the body's one whole-block store of the
    scaled term of the whole-block loads, whose rows are the input's rows at the block's offset. -/
theorem flushed9_eq (c : Dev nD) (t : Fin cfg0.N) :
    (dat0 (F := Ideal) V c).flushed 9 t = ((cfg0.win 9).blk t).view.read (Elt Ideal) (whole9 V c) := by
  show (cfg0.win 9).cut (grid0.coords t) ((dat0 (F := Ideal) V c).after 9 t) = _
  rw [after0_9]
  unfold out0_9
  rw [View.canon_unit_zero hz3]
  simp only [View.ld_unit_zero (S := S1x2048x256) hz3, View.ld_unit_zero (S := S256x256) hz2, View.ld_unit_zero (S := S1x256) hz2]
  obtain ⟨-, -, -, e92, l0, l1, -⟩ := idx0 t
  funext y
  have hy0 : (y 0).val < 1 := (y 0).isLt
  refine blk9_at (iblk0 V c 0 t) (iblk0 V c 1 t) (iblk0 V c 2 t) (iblk0 V c 3 t) (iblk0 V c 4 t)
    (V c main_v0) (V c main_v1) (V c main_v6) (V c main_v2) (V c main_v7)
    (wblk1 V c t) (wblk2 V c t) (wblk3 V c t) (wblk4 V c t)
    ((win0 9).xinj (grid0.coords t) y) (((cfg0.win 9).blk t).view.emb y) (fun g => ?_) ?_
  · refine xblk_apply V c t _ g _ ?_ ?_ rfl
    · show win0_9.index t (0 : Fin 3) * 1 + 1 * (y 0).val = win0_9.index t (0 : Fin 3); omega
    · show win0_9.index t (1 : Fin 3) * 2048 + 1 * (y 1).val = win0_9.index t (1 : Fin 3) * 2048 + (y 1).val; omega
  · show win0_9.index t (2 : Fin 3) * 256 + 1 * (y 2).val = (y 2).val; omega

/-- What a point writes back into the second output array is its block of φ. -/
theorem flushed10_eq (c : Dev nD) (t : Fin cfg0.N) :
    (dat0 (F := Ideal) V c).flushed 10 t = ((cfg0.win 10).blk t).view.read (Elt Ideal) (whole10 V c) := by
  show (cfg0.win 10).cut (grid0.coords t) ((dat0 (F := Ideal) V c).after 10 t) = _
  rw [after0_10]
  unfold out0_10
  rw [View.canon_unit_zero hz3]
  simp only [View.ld_unit_zero (S := S1x2048x256) hz3, View.ld_unit_zero (S := S256x256) hz2, View.ld_unit_zero (S := S1x256) hz2]
  obtain ⟨-, -, -, -, l0, l1, e0, e1, e2, -⟩ := idx0 t
  funext y
  have hy0 : (y 0).val < 1 := (y 0).isLt
  refine blk10_at (iblk0 V c 0 t) (iblk0 V c 1 t) (iblk0 V c 2 t) (iblk0 V c 5 t) (iblk0 V c 6 t)
    (V c main_v0) (V c main_v1) (V c main_v6) (V c main_v3) (V c main_v8)
    (wblk1 V c t) (wblk2 V c t) (wblk5 V c t) (wblk6 V c t)
    ((win0 10).xinj (grid0.coords t) y) (((cfg0.win 10).blk t).view.emb y) (fun g => ?_) ?_
  · refine xblk_apply V c t _ g _ ?_ ?_ rfl
    · show win0_10.index t (0 : Fin 3) * 1 + 1 * (y 0).val = win0_9.index t (0 : Fin 3); omega
    · show win0_10.index t (1 : Fin 3) * 2048 + 1 * (y 1).val = win0_9.index t (1 : Fin 3) * 2048 + (y 1).val; omega
  · show win0_10.index t (2 : Fin 3) * 256 + 1 * (y 2).val = (y 2).val; omega

/-- What a point writes back into the third output array is its block of g. -/
theorem flushed11_eq (c : Dev nD) (t : Fin cfg0.N) :
    (dat0 (F := Ideal) V c).flushed 11 t = ((cfg0.win 11).blk t).view.read (Elt Ideal) (whole11 V c) := by
  show (cfg0.win 11).cut (grid0.coords t) ((dat0 (F := Ideal) V c).after 11 t) = _
  rw [after0_11]
  unfold out0_11
  rw [View.canon_unit_zero hz3]
  simp only [View.ld_unit_zero (S := S1x2048x256) hz3, View.ld_unit_zero (S := S256x256) hz2, View.ld_unit_zero (S := S1x256) hz2]
  obtain ⟨-, -, -, -, l0, l1, -, -, -, e0, e1, e2⟩ := idx0 t
  funext y
  have hy0 : (y 0).val < 1 := (y 0).isLt
  refine blk11_at (iblk0 V c 0 t) (iblk0 V c 1 t) (iblk0 V c 2 t) (iblk0 V c 7 t) (iblk0 V c 8 t)
    (V c main_v0) (V c main_v1) (V c main_v6) (V c main_v4) (V c main_v9)
    (wblk1 V c t) (wblk2 V c t) (wblk7 V c t) (wblk8 V c t)
    ((win0 11).xinj (grid0.coords t) y) (((cfg0.win 11).blk t).view.emb y) (fun g => ?_) ?_
  · refine xblk_apply V c t _ g _ ?_ ?_ rfl
    · show win0_11.index t (0 : Fin 3) * 1 + 1 * (y 0).val = win0_9.index t (0 : Fin 3); omega
    · show win0_11.index t (1 : Fin 3) * 2048 + 1 * (y 1).val = win0_9.index t (1 : Fin 3) * 2048 + (y 1).val; omega
  · show win0_11.index t (2 : Fin 3) * 256 + 1 * (y 2).val = (y 2).val; omega

/-! ## The blocks tile the arrays

An index of an output array lies in a point's block iff each coordinate lies in the block's range on its axis; row r of
batch b lies in the block of the point whose block index is (b, r / 2048, 0). -/

theorem mem_blk9 (t : Fin cfg0.N) (i : S4x4096x256.Idx) :
    i ∈ ((cfg0.win 9).blk t).view.set ↔ ∀ a : Fin 3, win0_9.index t a * S1x2048x256.size a ≤ (i a).val ∧ (i a).val < win0_9.index t a * S1x2048x256.size a + S1x2048x256.size a := by
  show i ∈ ((View.whole main_v11_0).slice (win0_9.rect t)).set ↔ _
  rw [View.set_slice_whole, Rect.mem_set_unit]
  exact Iff.rfl

theorem mem_blk10 (t : Fin cfg0.N) (i : S4x4096x256.Idx) :
    i ∈ ((cfg0.win 10).blk t).view.set ↔ ∀ a : Fin 3, win0_10.index t a * S1x2048x256.size a ≤ (i a).val ∧ (i a).val < win0_10.index t a * S1x2048x256.size a + S1x2048x256.size a := by
  show i ∈ ((View.whole main_v11_1).slice (win0_10.rect t)).set ↔ _
  rw [View.set_slice_whole, Rect.mem_set_unit]
  exact Iff.rfl

theorem mem_blk11 (t : Fin cfg0.N) (i : S4x4096x256.Idx) :
    i ∈ ((cfg0.win 11).blk t).view.set ↔ ∀ a : Fin 3, win0_11.index t a * S1x2048x256.size a ≤ (i a).val ∧ (i a).val < win0_11.index t a * S1x2048x256.size a + S1x2048x256.size a := by
  show i ∈ ((View.whole main_v11_2).slice (win0_11.rect t)).set ↔ _
  rw [View.set_slice_whole, Rect.mem_set_unit]
  exact Iff.rfl

theorem cover9 (i : S4x4096x256.Idx) : ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 256 := (i 2).isLt
  obtain ⟨t, ht⟩ := onto9 ⟨(i 0).val, hi0⟩ ⟨(i 1).val / 2048, by omega⟩
  have q0 : win0_9.index t (0 : Fin 3) = (i 0).val := congrFun ht 0
  have q1 : win0_9.index t (1 : Fin 3) = (i 1).val / 2048 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 256 ≤ (i 2).val ∧ (i 2).val < win0_9.index t (2 : Fin 3) * 256 + 256; omega

theorem cover10 (i : S4x4096x256.Idx) : ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 256 := (i 2).isLt
  obtain ⟨t, ht⟩ := onto10 ⟨(i 0).val, hi0⟩ ⟨(i 1).val / 2048, by omega⟩
  have q0 : win0_10.index t (0 : Fin 3) = (i 0).val := congrFun ht 0
  have q1 : win0_10.index t (1 : Fin 3) = (i 1).val / 2048 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 2048 ≤ (i 1).val ∧ (i 1).val < win0_10.index t (1 : Fin 3) * 2048 + 2048; omega
  | ⟨2, _⟩ => show win0_10.index t (2 : Fin 3) * 256 ≤ (i 2).val ∧ (i 2).val < win0_10.index t (2 : Fin 3) * 256 + 256; omega

theorem cover11 (i : S4x4096x256.Idx) : ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 256 := (i 2).isLt
  obtain ⟨t, ht⟩ := onto11 ⟨(i 0).val, hi0⟩ ⟨(i 1).val / 2048, by omega⟩
  have q0 : win0_11.index t (0 : Fin 3) = (i 0).val := congrFun ht 0
  have q1 : win0_11.index t (1 : Fin 3) = (i 1).val / 2048 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 2048 ≤ (i 1).val ∧ (i 1).val < win0_11.index t (1 : Fin 3) * 2048 + 2048; omega
  | ⟨2, _⟩ => show win0_11.index t (2 : Fin 3) * 256 ≤ (i 2).val ∧ (i 2).val < win0_11.index t (2 : Fin 3) * 256 + 256; omega

/-- Every point writes its block back and the blocks cover the array: the array ends holding the whole-array function. -/
theorem final9 (c : Dev nD) : (dat0 (F := Ideal) V c).arrAt 9 cfg0.N = whole9 V c :=
  (dat0 (F := Ideal) V c).arrAt_eq_of_cover 9 (whole9 V c) (fun t _ => flushed9_eq V c t) cover9

theorem final10 (c : Dev nD) : (dat0 (F := Ideal) V c).arrAt 10 cfg0.N = whole10 V c :=
  (dat0 (F := Ideal) V c).arrAt_eq_of_cover 10 (whole10 V c) (fun t _ => flushed10_eq V c t) cover10

theorem final11 (c : Dev nD) : (dat0 (F := Ideal) V c).arrAt 11 cfg0.N = whole11 V c :=
  (dat0 (F := Ideal) V c).arrAt_eq_of_cover 11 (whole11 V c) (fun t _ => flushed11_eq V c t) cover11

/-- θ' : after the region the first output array is ((x·Wc + bc)·Wθ + bθ)·2⁻⁴, index by index. -/
theorem arrAt0_9 (c : Dev nD) :
    t3 ((dat0 (F := Ideal) V c).arrAt 9 cfg0.N) = fun b n k =>
      layerT (layerT (t3 (V c main_v0)) (mt (V c main_v1)) (rw1 (V c main_v6))) (mt (V c main_v2)) (rw1 (V c main_v7)) b n k
        * Ideal.ofBits .f32 0x3D800000#32 := by
  rw [final9]
  rfl

/-- φ : the second output array is (x·Wc + bc)·Wφ + bφ. -/
theorem arrAt0_10 (c : Dev nD) :
    t3 ((dat0 (F := Ideal) V c).arrAt 10 cfg0.N) =
      layerT (layerT (t3 (V c main_v0)) (mt (V c main_v1)) (rw1 (V c main_v6))) (mt (V c main_v3)) (rw1 (V c main_v8)) := by
  rw [final10]
  rfl

/-- g : the third output array is (x·Wc + bc)·Wg + bg. -/
theorem arrAt0_11 (c : Dev nD) :
    t3 ((dat0 (F := Ideal) V c).arrAt 11 cfg0.N) =
      layerT (layerT (t3 (V c main_v0)) (mt (V c main_v1)) (rw1 (V c main_v6))) (mt (V c main_v4)) (rw1 (V c main_v9)) := by
  rw [final11]
  rfl

end Cert.KernelIdeal.Hand

end
-- ==== Proof.Val1.lean ====
/-
  What the attention region leaves in its output array, at the extended reals: the output block of query block i of
  batch b is stored at the second kv point from the scratch the first kv point left, the blocks tile the array, and read
  at an index the stored term is the two-block online softmax of the program-free specification.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.R1Defs
import proofs.«419256_j1580547972144_3_alg».proof.Proof.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Attn Idealize.ShloMosaic.ValueIdx

-- the TensorCore's buffer contents when the region is entered, at the extended reals
variable (V : (c : Dev nD) → (b : Ref sig .tc) → Buf (Elt Ideal) ((c : Thread nD τ).loc b))

namespace Val1

/-! ## The three contractions of the body, read at an index

Each is a sum over the one contracted axis: the scores contract the channel axis of the query rows against the channel
axis of the key rows; the weighted sum contracts the key axis of the weights against the row axis of the values; the
output layer contracts the channel axis against the row axis of the weight. -/

theorem lhs_qk_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_qk_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_qk_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_qk_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The score of query row `r` against key row `c`: the sum over the channels of the products. -/
theorem qk_apply (q : FVec Ideal S1024x256 .bf16) (k : FVec Ideal S2048x256 .bf16) (r : Fin 1024) (c : Fin 2048) :
    matmul dot_S1024x256_S2048x256_S1024x2048_1_1_0_0_n_n none q k (constant (F := Ideal) S1024x2048 .f32 0x00000000#32) (ix2 r c)
      = ∑ d : Fin 256, q (ix2 r d) * k (ix2 c d) := by
  simp only [matmul]
  rw [Ideal.matmul_constant_zero_apply, ← Equiv.sum_comp (contrEquiv1 dot_S1024x256_S2048x256_S1024x2048_1_1_0_0_n_n 256 rfl rfl).symm]
  refine Finset.sum_congr rfl fun d _ => ?_
  have hk := contrEquiv1_symm_val dot_S1024x256_S2048x256_S1024x2048_1_1_0_0_n_n 256 rfl rfl d
  have el : dot_S1024x256_S2048x256_S1024x2048_1_1_0_0_n_n.lhsIdx (ix2 r c) ((contrEquiv1 dot_S1024x256_S2048x256_S1024x2048_1_1_0_0_n_n 256 rfl rfl).symm d) = ix2 r d := funext fun a => Fin.ext (by
    match a with
    | ⟨0, _⟩ => exact lhs_qk_0 _ _
    | ⟨1, _⟩ => exact (lhs_qk_1 _ _).trans hk)
  have er : dot_S1024x256_S2048x256_S1024x2048_1_1_0_0_n_n.rhsIdx (ix2 r c) ((contrEquiv1 dot_S1024x256_S2048x256_S1024x2048_1_1_0_0_n_n 256 rfl rfl).symm d) = ix2 c d := funext fun a => Fin.ext (by
    match a with
    | ⟨0, _⟩ => exact rhs_qk_0 _ _
    | ⟨1, _⟩ => exact (rhs_qk_1 _ _).trans hk)
  rw [el, er]

theorem lhs_pv_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_pv_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_pv_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_pv_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The weighted sum of value column `o` for query row `r`: the sum over the key rows. -/
theorem pv_apply (p : FVec Ideal S1024x2048 .bf16) (v : FVec Ideal S2048x256 .bf16) (r : Fin 1024) (o : Fin 256) :
    matmul dot_S1024x2048_S2048x256_S1024x256_1_0_0_1_n_n none p v (constant (F := Ideal) S1024x256 .f32 0x00000000#32) (ix2 r o)
      = ∑ c : Fin 2048, p (ix2 r c) * v (ix2 c o) := by
  simp only [matmul]
  rw [Ideal.matmul_constant_zero_apply, ← Equiv.sum_comp (contrEquiv1 dot_S1024x2048_S2048x256_S1024x256_1_0_0_1_n_n 2048 rfl rfl).symm]
  refine Finset.sum_congr rfl fun d _ => ?_
  have hk := contrEquiv1_symm_val dot_S1024x2048_S2048x256_S1024x256_1_0_0_1_n_n 2048 rfl rfl d
  have el : dot_S1024x2048_S2048x256_S1024x256_1_0_0_1_n_n.lhsIdx (ix2 r o) ((contrEquiv1 dot_S1024x2048_S2048x256_S1024x256_1_0_0_1_n_n 2048 rfl rfl).symm d) = ix2 r d := funext fun a => Fin.ext (by
    match a with
    | ⟨0, _⟩ => exact lhs_pv_0 _ _
    | ⟨1, _⟩ => exact (lhs_pv_1 _ _).trans hk)
  have er : dot_S1024x2048_S2048x256_S1024x256_1_0_0_1_n_n.rhsIdx (ix2 r o) ((contrEquiv1 dot_S1024x2048_S2048x256_S1024x256_1_0_0_1_n_n 2048 rfl rfl).symm d) = ix2 d o := funext fun a => Fin.ext (by
    match a with
    | ⟨0, _⟩ => exact (rhs_pv_0 _ _).trans hk
    | ⟨1, _⟩ => exact rhs_pv_1 _ _)
  rw [el, er]

theorem lhs_zw_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_zw_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_zw_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_zw_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The output layer at row `r`, channel `o`: the sum over the input channels. -/
theorem zw_apply (z : FVec Ideal S1024x256 .bf16) (w : FVec Ideal S256x256 .bf16) (r : Fin 1024) (o : Fin 256) :
    matmul dot_S1024x256_S256x256_S1024x256_1_0_0_1_n_n none z w (constant (F := Ideal) S1024x256 .f32 0x00000000#32) (ix2 r o)
      = ∑ k : Fin 256, z (ix2 r k) * w (ix2 k o) := by
  simp only [matmul]
  rw [Ideal.matmul_constant_zero_apply, ← Equiv.sum_comp (contrEquiv1 dot_S1024x256_S256x256_S1024x256_1_0_0_1_n_n 256 rfl rfl).symm]
  refine Finset.sum_congr rfl fun d _ => ?_
  have hk := contrEquiv1_symm_val dot_S1024x256_S256x256_S1024x256_1_0_0_1_n_n 256 rfl rfl d
  have el : dot_S1024x256_S256x256_S1024x256_1_0_0_1_n_n.lhsIdx (ix2 r o) ((contrEquiv1 dot_S1024x256_S256x256_S1024x256_1_0_0_1_n_n 256 rfl rfl).symm d) = ix2 r d := funext fun a => Fin.ext (by
    match a with
    | ⟨0, _⟩ => exact lhs_zw_0 _ _
    | ⟨1, _⟩ => exact (lhs_zw_1 _ _).trans hk)
  have er : dot_S1024x256_S256x256_S1024x256_1_0_0_1_n_n.rhsIdx (ix2 r o) ((contrEquiv1 dot_S1024x256_S256x256_S1024x256_1_0_0_1_n_n 256 rfl rfl).symm d) = ix2 d o := funext fun a => Fin.ext (by
    match a with
    | ⟨0, _⟩ => exact (rhs_zw_0 _ _).trans hk
    | ⟨1, _⟩ => exact rhs_zw_1 _ _)
  rw [el, er]

/-! ## Column vectors: a row reduction kept as a [n, 1] column, and a column spread over the columns of a matrix -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The source index over row `r` with column `c` inserted is `(r, c)`. -/
theorem lift_row (h : S1024x2048.Reduces [1] S1024) (r : Fin 1024) (c : Fin 2048) : h.lift (ix1 r) c = ix2 r c :=
  funext fun a => Fin.ext (by
    match a with
    | ⟨0, _⟩ => rfl
    | ⟨1, _⟩ => rfl)

/-- A row maximum from −∞: the fold of `max` from `⊥` over the row. -/
theorem rowmax_apply (src : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 2048)).fold max ⊥ (fun c => src (ix2 r c)) := by
  refine (Ideal.multiReduction_maximumf_single src 0xFF800000#32 h hφ hacc (ix1 r)).trans ?_
  have e0 : FloatOps.ofBits (F := Ideal) .f32 0xFF800000#32 = (⊥ : EReal) := by
    show Ideal.ofBits .f32 0xFF800000#32 = ⊥
    simp [Ideal.ofBits, Ideal.ieee]
  have e1 : (src ∘ h.lift (ix1 r)) = fun c : Fin 2048 => src (ix2 r c) := funext fun c => congrArg src (lift_row h r c)
  rw [e0, e1]
  rfl

/-- A row sum: the sum over the row. -/
theorem rowsum_apply (src : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 2048, src (ix2 r c) := by
  refine (Ideal.multiReduction_add_single src 0x00000000#32 h hφ hacc (ix1 r)).trans ?_
  exact Finset.sum_congr rfl fun c _ => congrArg src (lift_row h r c)

/-! ## The body's arithmetic, read at an index -/

/-- The scores of query row `r` of a query block against the rows of a key block. -/
def sc (q : Vec Ideal S1x1024x256 .bf16) (k : Vec Ideal S1x2048x256 .bf16) (r : Fin 1024) : Fin 2048 → EReal :=
  fun c => ∑ d : Fin 256, q (ix3 (0 : Fin 1) r d) * k (ix3 (0 : Fin 1) c d)

theorem pay8_apply (q : Vec Ideal S1x1024x256 .bf16) (k : Vec Ideal S1x2048x256 .bf16) (r : Fin 1024) (c : Fin 2048) :
    k1_pay8 (F := Ideal) q k (ix2 r c) = sc q k r c := by
  unfold k1_pay8 sc
  refine (qk_apply _ _ r c).trans ?_
  exact Finset.sum_congr rfl fun d _ => congrArg₂ (· * ·) (shapeCast_1ab_ab_apply q _ r d) (shapeCast_1ab_ab_apply k _ c d)

theorem pay9_apply (q : Vec Ideal S1x1024x256 .bf16) (k : Vec Ideal S1x2048x256 .bf16) (m0 : Vec Ideal S1024x1 .f32) (r : Fin 1024) :
    k1_pay9 (F := Ideal) q k m0 (ix2 r (0 : Fin 1)) = stepM (m0 (ix2 r (0 : Fin 1))) (sc q k r) := by
  unfold k1_pay9 stepM
  refine (maximumf_apply _ _ _).trans (congrArg (max (m0 (ix2 r (0 : Fin 1)))) ?_)
  refine (shapeCast_a_a1_apply _ _ r (0 : Fin 1)).trans ?_
  refine (rowmax_apply _ _ _ _ r).trans ?_
  exact congrArg (fun f => (Finset.univ : Finset (Fin 2048)).fold max ⊥ f) (funext fun c => pay8_apply q k r c)

theorem pay10_apply (q : Vec Ideal S1x1024x256 .bf16) (k : Vec Ideal S1x2048x256 .bf16) (m0 m1 : Vec Ideal S1024x1 .f32) (r : Fin 1024) :
    k1_pay10 (F := Ideal) q k m0 m1 (ix2 r (0 : Fin 1))
      = Ideal.exp (m1 (ix2 r (0 : Fin 1)) - stepM (m0 (ix2 r (0 : Fin 1))) (sc q k r)) := by
  unfold k1_pay10
  show Ideal.exp (m1 (ix2 r (0 : Fin 1)) - k1_pay9 (F := Ideal) q k m0 (ix2 r (0 : Fin 1))) = _
  exact congrArg (fun x => Ideal.exp (m1 (ix2 r (0 : Fin 1)) - x)) (pay9_apply q k m0 r)

theorem pay11_apply (q : Vec Ideal S1x1024x256 .bf16) (k : Vec Ideal S1x2048x256 .bf16) (m0 : Vec Ideal S1024x1 .f32) (r : Fin 1024) (c : Fin 2048) :
    k1_pay11 (F := Ideal) q k m0 (ix2 r c) = Ideal.exp (sc q k r c - stepM (m0 (ix2 r (0 : Fin 1))) (sc q k r)) := by
  unfold k1_pay11
  show Ideal.exp (k1_pay8 (F := Ideal) q k (ix2 r c)
      - broadcastTo S1024x2048 (k1_pay9 (F := Ideal) q k m0) broadcasts_S1024x1_S1024x2048 (ix2 r c)) = _
  exact congrArg₂ (fun x y => Ideal.exp (x - y)) (pay8_apply q k r c)
    ((broadcastTo_a1_ab_apply _ _ r c).trans (pay9_apply q k m0 r))

/-- The stored running maximum after one key block. -/
theorem mStep_apply (q : Vec Ideal S1x1024x256 .bf16) (k : Vec Ideal S1x2048x256 .bf16) (m0 : Vec Ideal S1024x1 .f32) (r : Fin 1024) :
    mStep1 (F := Ideal) q k m0 (ix2 r (0 : Fin 1)) = stepM (m0 (ix2 r (0 : Fin 1))) (sc q k r) := by
  unfold mStep1 k1_pay2
  exact (congrFun (shapeCast_self _ _) _).trans (pay9_apply q k m0 r)

/-- The stored running sum of exponentials after one key block. -/
theorem lStep_apply (q : Vec Ideal S1x1024x256 .bf16) (k : Vec Ideal S1x2048x256 .bf16) (m0 l0 : Vec Ideal S1024x1 .f32) (r : Fin 1024) :
    lStep1 (F := Ideal) q k m0 l0 (ix2 r (0 : Fin 1))
      = stepL (m0 (ix2 r (0 : Fin 1))) (l0 (ix2 r (0 : Fin 1))) (sc q k r) := by
  unfold lStep1 k1_pay12 stepL
  refine (congrFun (shapeCast_self _ _) _).trans ?_
  refine (addf_apply _ _ _).trans (congrArg₂ (· + ·) ?_ ?_)
  · exact (mulf_apply _ _ _).trans (congrArg (· * l0 (ix2 r (0 : Fin 1))) (pay10_apply q k m0 m0 r))
  · refine (shapeCast_a_a1_apply _ _ r (0 : Fin 1)).trans ?_
    refine (rowsum_apply _ _ _ _ r).trans ?_
    exact Finset.sum_congr rfl fun c _ => pay11_apply q k m0 r c

/-- The stored running weighted sum of value column `o` after one key block. -/
theorem aStep_apply (q : Vec Ideal S1x1024x256 .bf16) (k v : Vec Ideal S1x2048x256 .bf16) (m0 : Vec Ideal S1024x1 .f32)
    (a0 : Vec Ideal S1024x256 .f32) (r : Fin 1024) (o : Fin 256) :
    aStep1 (F := Ideal) q k v m0 a0 (ix2 r o)
      = stepA (m0 (ix2 r (0 : Fin 1))) (a0 (ix2 r o)) (sc q k r) (fun c => v (ix3 (0 : Fin 1) c o)) := by
  unfold aStep1 k1_pay1 stepA
  refine (congrFun (shapeCast_self _ _) _).trans ?_
  refine (addf_apply _ _ _).trans (congrArg₂ (· + ·) ?_ ?_)
  · refine (mulf_apply _ _ _).trans (congrArg (· * a0 (ix2 r o)) ?_)
    unfold k1_pay14
    exact (broadcastTo_a1_ab_apply _ _ r o).trans (pay10_apply q k m0 m0 r)
  · refine (pv_apply _ _ r o).trans (Finset.sum_congr rfl fun c _ => congrArg₂ (· * ·) ?_ ?_)
    · unfold k1_pay13
      exact (truncf_apply (ψ := .bf16) _ bitsLt_bf16_f32 _).trans (pay11_apply q k m0 r c)
    · unfold k1_pay7
      exact shapeCast_1ab_ab_apply v _ c o

/-- The epilogue's stored value: the normalised, scaled weighted sums through the output layer, plus bias and residual. -/
theorem oFin_apply (a : Vec Ideal S1024x256 .f32) (l : Vec Ideal S1024x1 .f32) (wf : Vec Ideal S256x256 .f32)
    (bf : Vec Ideal S1x256 .f32) (res : Vec Ideal S1x1024x256 .f32) (r : Fin 1024) (o : Fin 256) :
    oFin1 (F := Ideal) a l wf bf res (ix3 (0 : Fin 1) r o)
      = ((∑ k : Fin 256, (Ideal.div (a (ix2 r k)) (l (ix2 r (0 : Fin 1))) * Ideal.ofBits .f32 0x3C800000#32) * wf (ix2 k o))
          + bf (ix2 (0 : Fin 1) o)) + res (ix3 (0 : Fin 1) r o) := by
  unfold oFin1 k1_pay3
  refine (shapeCast_ab_1ab_apply _ _ (0 : Fin 1) r o).trans ?_
  refine (addf_apply _ _ _).trans (congrArg₂ (· + ·) ?_ (shapeCast_1ab_ab_apply res _ r o))
  refine (addf_apply _ _ _).trans (congrArg₂ (· + ·) ?_ ?_)
  · refine (zw_apply _ _ r o).trans (Finset.sum_congr rfl fun k _ => congrArg₂ (· * ·) ?_ ?_)
    · refine (truncf_apply (ψ := .bf16) _ bitsLt_bf16_f32 _).trans ?_
      refine (mulf_apply _ _ _).trans (congrArg₂ (· * ·) ?_ rfl)
      exact (divf_apply _ _ _).trans (congrArg (Ideal.div (a (ix2 r k))) (broadcastTo_a1_ab_apply l _ r k))
    · exact (truncf_apply (ψ := .bf16) _ bitsLt_bf16_f32 _).trans (congrFun (shapeCast_self wf _) (ix2 k o))
  · exact (broadcastTo_1b_ab_apply _ _ r o).trans (congrFun (shapeCast_self bf _) _)

/-- The reset values: −∞ for the maximum, 0 for the sum and the weighted sums. -/
theorem mInit_apply (i : S1024x1.Idx) : mInit1 (F := Ideal) i = ⊥ := by
  unfold mInit1 k1_pay4
  refine (congrFun (shapeCast_self _ _) _).trans ?_
  show Ideal.ofBits .f32 0xFF800000#32 = ⊥
  simp [Ideal.ofBits, Ideal.ieee]
theorem lInit_apply (i : S1024x1.Idx) : lInit1 (F := Ideal) i = 0 := by
  unfold lInit1 k1_pay5
  exact (congrFun (shapeCast_self _ _) _).trans Ideal.ofBits_zero_f32
theorem aInit_apply (i : S1024x256.Idx) : aInit1 (F := Ideal) i = 0 := by
  unfold aInit1 k1_pay6
  exact (congrFun (shapeCast_self _ _) _).trans Ideal.ofBits_zero_f32

/-! ## One query row through the two key blocks

The blocks of the two points of a query block, read where their rectangles say, give the specification's summands:
the first point starts from the reset values, the second from what the first left. -/

theorem sc_eq (q : Vec Ideal S1x1024x256 .bf16) (k : Vec Ideal S1x2048x256 .bf16) (TH PH : T3) (b : Fin 4) (n : Fin 4096)
    (r : Fin 1024) (j : Fin 2) (hq : ∀ d, q (ix3 (0 : Fin 1) r d) = TH b n d)
    (hk : ∀ c d, k (ix3 (0 : Fin 1) c d) = PH b (kidx j c) d) : sc q k r = kerS TH PH b n j := by
  funext c
  unfold sc kerS
  exact Finset.sum_congr rfl fun d _ => by rw [hq d, hk c d]

/-- The stored output element of query row `r`, channel `o`, at the second point of a query block. -/
theorem out_pt (q0 q1 : Vec Ideal S1x1024x256 .bf16) (k0 v0 k1 v1 : Vec Ideal S1x2048x256 .bf16)
    (wf : Vec Ideal S256x256 .f32) (bf : Vec Ideal S1x256 .f32) (res : Vec Ideal S1x1024x256 .f32)
    (TH PH GG X : T3) (W : Mat) (B : Vc) (b : Fin 4) (n : Fin 4096) (r : Fin 1024) (o : Fin 256)
    (hq0 : ∀ d, q0 (ix3 (0 : Fin 1) r d) = TH b n d) (hq1 : ∀ d, q1 (ix3 (0 : Fin 1) r d) = TH b n d)
    (hk0 : ∀ c d, k0 (ix3 (0 : Fin 1) c d) = PH b (kidx 0 c) d) (hk1 : ∀ c d, k1 (ix3 (0 : Fin 1) c d) = PH b (kidx 1 c) d)
    (hv0 : ∀ c d, v0 (ix3 (0 : Fin 1) c d) = GG b (kidx 0 c) d) (hv1 : ∀ c d, v1 (ix3 (0 : Fin 1) c d) = GG b (kidx 1 c) d)
    (hwf : ∀ k o, wf (ix2 k o) = W k o) (hbf : ∀ o, bf (ix2 (0 : Fin 1) o) = B o)
    (hres : res (ix3 (0 : Fin 1) r o) = X b n o) :
    oFin1 (F := Ideal)
        (aStep1 q1 k1 v1 (mStep1 q0 k0 mInit1) (aStep1 q0 k0 v0 mInit1 aInit1))
        (lStep1 q1 k1 (mStep1 q0 k0 mInit1) (lStep1 q0 k0 mInit1 lInit1)) wf bf res (ix3 (0 : Fin 1) r o)
      = kerOut TH PH GG X W B (Ideal.ofBits .f32 0x3C800000#32) b n o := by
  have s0 : sc q0 k0 r = kerS TH PH b n 0 := sc_eq q0 k0 TH PH b n r 0 hq0 hk0
  have s1 : sc q1 k1 r = kerS TH PH b n 1 := sc_eq q1 k1 TH PH b n r 1 hq1 hk1
  have eM0 : mStep1 (F := Ideal) q0 k0 mInit1 (ix2 r (0 : Fin 1)) = kerM0 TH PH b n := by
    rw [mStep_apply, mInit_apply, s0]; rfl
  have eL0 : lStep1 (F := Ideal) q0 k0 mInit1 lInit1 (ix2 r (0 : Fin 1)) = kerL0 TH PH b n := by
    rw [lStep_apply, mInit_apply, lInit_apply, s0]; rfl
  have eA0 : ∀ k : Fin 256, aStep1 (F := Ideal) q0 k0 v0 mInit1 aInit1 (ix2 r k) = kerA0 TH PH GG b n k := fun k => by
    rw [aStep_apply, mInit_apply, aInit_apply, s0]
    unfold kerA0
    exact congrArg (stepA ⊥ 0 (kerS TH PH b n 0)) (funext fun c => hv0 c k)
  have eL1 : lStep1 (F := Ideal) q1 k1 (mStep1 q0 k0 mInit1) (lStep1 q0 k0 mInit1 lInit1) (ix2 r (0 : Fin 1)) = kerL1 TH PH b n := by
    rw [lStep_apply, eM0, eL0, s1]; rfl
  have eA1 : ∀ k : Fin 256, aStep1 (F := Ideal) q1 k1 v1 (mStep1 q0 k0 mInit1) (aStep1 q0 k0 v0 mInit1 aInit1) (ix2 r k)
      = kerA1 TH PH GG b n k := fun k => by
    rw [aStep_apply, eM0, eA0, s1]
    unfold kerA1
    exact congrArg (stepA (kerM0 TH PH b n) (kerA0 TH PH GG b n k) (kerS TH PH b n 1)) (funext fun c => hv1 c k)
  rw [oFin_apply, eL1, hbf, hres]
  unfold kerOut
  refine congrArg (fun s => s + B o + X b n o) (Finset.sum_congr rfl fun k _ => ?_)
  rw [eA1 k, hwf]

/-! ## The grid: where each window's block sits at a point

The 32 points are (b, i, j) = (t / 8, t / 2 mod 4, t mod 2). The query, residual and output blocks move with (b, i),
the key and value blocks with (b, j), the weight and the bias are whole. -/

theorem N_1 : grid1.N = 32 := by decide

theorem idx_facts1 : ∀ t : Fin cfg1.N,
    (win1_0.index t (0 : Fin 3) = t.val / 8 ∧ win1_0.index t (1 : Fin 3) = t.val / 2 % 4 ∧ win1_0.index t (2 : Fin 3) = 0)
    ∧ (win1_1.index t (0 : Fin 3) = t.val / 8 ∧ win1_1.index t (1 : Fin 3) = t.val % 2 ∧ win1_1.index t (2 : Fin 3) = 0)
    ∧ (win1_2.index t (0 : Fin 3) = t.val / 8 ∧ win1_2.index t (1 : Fin 3) = t.val % 2 ∧ win1_2.index t (2 : Fin 3) = 0)
    ∧ (win1_3.index t (0 : Fin 3) = t.val / 8 ∧ win1_3.index t (1 : Fin 3) = t.val / 2 % 4 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = t.val / 2 % 4 ∧ win1_6.index t (2 : Fin 3) = 0) :=
  (by decide +kernel : ∀ t : Fin grid1.N, _)

/-- The query block at point `t`: rows 1024 (t / 2 mod 4) + r of batch t / 8. -/
theorem blk0_read (c : Dev nD) (t : Fin cfg1.N) (r : Fin 1024) (d : Fin 256) (b : Fin 4) (n : Fin 4096)
    (hb : b.val = t.val / 8) (hn : n.val = 1024 * (t.val / 2 % 4) + r.val) :
    iblk1 V c 0 t (ix3 (0 : Fin 1) r d) = V c main_v11_0 (ix3 b n d) := by
  obtain ⟨⟨e0, e1, e2⟩, -⟩ := idx_facts1 t
  show V c main_v11_0 (((cfg1.win 0).blk t).view.emb (ix3 (0 : Fin 1) r d)) = V c main_v11_0 (ix3 b n d)
  refine congrArg (V c main_v11_0) (funext fun a => Fin.ext ?_)
  match a with
  | ⟨0, _⟩ => show win1_0.index t (0 : Fin 3) * 1 + 1 * 0 = b.val; omega
  | ⟨1, _⟩ => show win1_0.index t (1 : Fin 3) * 1024 + 1 * r.val = n.val; omega
  | ⟨2, _⟩ => show win1_0.index t (2 : Fin 3) * 256 + 1 * d.val = d.val; omega

/-- The key block at point `t`: rows 2048 (t mod 2) + c of batch t / 8. -/
theorem blk1_read (c : Dev nD) (t : Fin cfg1.N) (x : Fin 2048) (d : Fin 256) (b : Fin 4) (n : Fin 4096)
    (hb : b.val = t.val / 8) (hn : n.val = 2048 * (t.val % 2) + x.val) :
    iblk1 V c 1 t (ix3 (0 : Fin 1) x d) = V c main_v11_1 (ix3 b n d) := by
  obtain ⟨-, ⟨e0, e1, e2⟩, -⟩ := idx_facts1 t
  show V c main_v11_1 (((cfg1.win 1).blk t).view.emb (ix3 (0 : Fin 1) x d)) = V c main_v11_1 (ix3 b n d)
  refine congrArg (V c main_v11_1) (funext fun a => Fin.ext ?_)
  match a with
  | ⟨0, _⟩ => show win1_1.index t (0 : Fin 3) * 1 + 1 * 0 = b.val; omega
  | ⟨1, _⟩ => show win1_1.index t (1 : Fin 3) * 2048 + 1 * x.val = n.val; omega
  | ⟨2, _⟩ => show win1_1.index t (2 : Fin 3) * 256 + 1 * d.val = d.val; omega

/-- The value block at point `t`: the same rows of the value array. -/
theorem blk2_read (c : Dev nD) (t : Fin cfg1.N) (x : Fin 2048) (d : Fin 256) (b : Fin 4) (n : Fin 4096)
    (hb : b.val = t.val / 8) (hn : n.val = 2048 * (t.val % 2) + x.val) :
    iblk1 V c 2 t (ix3 (0 : Fin 1) x d) = V c main_v11_2 (ix3 b n d) := by
  obtain ⟨-, -, ⟨e0, e1, e2⟩, -⟩ := idx_facts1 t
  show V c main_v11_2 (((cfg1.win 2).blk t).view.emb (ix3 (0 : Fin 1) x d)) = V c main_v11_2 (ix3 b n d)
  refine congrArg (V c main_v11_2) (funext fun a => Fin.ext ?_)
  match a with
  | ⟨0, _⟩ => show win1_2.index t (0 : Fin 3) * 1 + 1 * 0 = b.val; omega
  | ⟨1, _⟩ => show win1_2.index t (1 : Fin 3) * 2048 + 1 * x.val = n.val; omega
  | ⟨2, _⟩ => show win1_2.index t (2 : Fin 3) * 256 + 1 * d.val = d.val; omega

/-- The residual block at point `t`: the query block's rows of the residual array. -/
theorem blk3_read (c : Dev nD) (t : Fin cfg1.N) (r : Fin 1024) (d : Fin 256) (b : Fin 4) (n : Fin 4096)
    (hb : b.val = t.val / 8) (hn : n.val = 1024 * (t.val / 2 % 4) + r.val) :
    iblk1 V c 3 t (ix3 (0 : Fin 1) r d) = V c main_v0 (ix3 b n d) := by
  obtain ⟨-, -, -, ⟨e0, e1, e2⟩, -⟩ := idx_facts1 t
  show V c main_v0 (((cfg1.win 3).blk t).view.emb (ix3 (0 : Fin 1) r d)) = V c main_v0 (ix3 b n d)
  refine congrArg (V c main_v0) (funext fun a => Fin.ext ?_)
  match a with
  | ⟨0, _⟩ => show win1_3.index t (0 : Fin 3) * 1 + 1 * 0 = b.val; omega
  | ⟨1, _⟩ => show win1_3.index t (1 : Fin 3) * 1024 + 1 * r.val = n.val; omega
  | ⟨2, _⟩ => show win1_3.index t (2 : Fin 3) * 256 + 1 * d.val = d.val; omega

/-- The weight block is the whole weight at every point. -/
theorem blk4_read (c : Dev nD) (t : Fin cfg1.N) (k o : Fin 256) :
    iblk1 V c 4 t (ix2 k o) = V c main_v5 (ix2 k o) := by
  obtain ⟨-, -, -, -, ⟨e0, e1⟩, -⟩ := idx_facts1 t
  show V c main_v5 (((cfg1.win 4).blk t).view.emb (ix2 k o)) = V c main_v5 (ix2 k o)
  refine congrArg (V c main_v5) (funext fun a => Fin.ext ?_)
  match a with
  | ⟨0, _⟩ => show win1_4.index t (0 : Fin 2) * 256 + 1 * k.val = k.val; omega
  | ⟨1, _⟩ => show win1_4.index t (1 : Fin 2) * 256 + 1 * o.val = o.val; omega

/-- The bias block is the whole bias at every point. -/
theorem blk5_read (c : Dev nD) (t : Fin cfg1.N) (o : Fin 256) :
    iblk1 V c 5 t (ix2 (0 : Fin 1) o) = V c main_v10 (ix2 (0 : Fin 1) o) := by
  obtain ⟨-, -, -, -, -, ⟨e0, e1⟩, -⟩ := idx_facts1 t
  show V c main_v10 (((cfg1.win 5).blk t).view.emb (ix2 (0 : Fin 1) o)) = V c main_v10 (ix2 (0 : Fin 1) o)
  refine congrArg (V c main_v10) (funext fun a => Fin.ext ?_)
  match a with
  | ⟨0, _⟩ => show win1_5.index t (0 : Fin 2) * 1 + 1 * 0 = 0; omega
  | ⟨1, _⟩ => show win1_5.index t (1 : Fin 2) * 256 + 1 * o.val = o.val; omega

/-! ## The second point of a query block -/

/-- At an odd point the scratch is one step from what the even point before it left, which is one step from the reset. -/
theorem scAt1_odd (c : Dev nD) (n : ℕ) (hn : n < cfg1.N) (h : n % 2 = 1) :
    scAt1 (F := Ideal) V c n hn =
      (mStep1 (iblk1 V c 0 ⟨n, hn⟩) (iblk1 V c 1 ⟨n, hn⟩) (scReset1 V c ⟨n - 1, Nat.lt_of_le_of_lt (Nat.sub_le _ _) hn⟩).1,
       lStep1 (iblk1 V c 0 ⟨n, hn⟩) (iblk1 V c 1 ⟨n, hn⟩) (scReset1 V c ⟨n - 1, Nat.lt_of_le_of_lt (Nat.sub_le _ _) hn⟩).1
         (scReset1 V c ⟨n - 1, Nat.lt_of_le_of_lt (Nat.sub_le _ _) hn⟩).2.1,
       aStep1 (iblk1 V c 0 ⟨n, hn⟩) (iblk1 V c 1 ⟨n, hn⟩) (iblk1 V c 2 ⟨n, hn⟩)
         (scReset1 V c ⟨n - 1, Nat.lt_of_le_of_lt (Nat.sub_le _ _) hn⟩).1
         (scReset1 V c ⟨n - 1, Nat.lt_of_le_of_lt (Nat.sub_le _ _) hn⟩).2.2) := by
  unfold scAt1
  rw [if_neg (by omega)]

/-- The output element of query row `r`, channel `o`, stored at the second point of a query block: the specification at
    batch t / 8 and row 1024 (t / 2 mod 4) + r. The first point (t − 1) reads the same query and residual rows and key
    block 0; the second reads key block 1. -/
theorem out1_6_odd (c : Dev nD) (t : Fin cfg1.N) (hodd : t.val % 2 = 1) (r : Fin 1024) (o : Fin 256) (b : Fin 4) (n : Fin 4096)
    (hb : b.val = t.val / 8) (hn : n.val = 1024 * (t.val / 2 % 4) + r.val) :
    out1_6 (F := Ideal) V c t (ix3 (0 : Fin 1) r o)
      = kerOut (t3 (V c main_v11_0)) (t3 (V c main_v11_1)) (t3 (V c main_v11_2)) (t3 (V c main_v0)) (mt (V c main_v5)) (rw1 (V c main_v10))
        (Ideal.ofBits .f32 0x3C800000#32) b n o := by
  have hN : cfg1.N = 32 := N_1
  have hp : t.val - 1 < cfg1.N := Nat.lt_of_le_of_lt (Nat.sub_le _ _) t.isLt
  unfold out1_6
  rw [scAt1_odd V c t.val t.isLt hodd]
  dsimp only
  unfold scReset1
  dsimp only
  exact out_pt (iblk1 V c 0 ⟨t.val - 1, hp⟩) (iblk1 V c 0 t) (iblk1 V c 1 ⟨t.val - 1, hp⟩) (iblk1 V c 2 ⟨t.val - 1, hp⟩)
    (iblk1 V c 1 t) (iblk1 V c 2 t) (iblk1 V c 4 t) (iblk1 V c 5 t) (iblk1 V c 3 t)
    (t3 (V c main_v11_0)) (t3 (V c main_v11_1)) (t3 (V c main_v11_2)) (t3 (V c main_v0)) (mt (V c main_v5)) (rw1 (V c main_v10))
    b n r o
    (fun d => blk0_read V c ⟨t.val - 1, hp⟩ r d b n (by show b.val = (t.val - 1) / 8; omega)
      (by show n.val = 1024 * ((t.val - 1) / 2 % 4) + r.val; omega))
    (fun d => blk0_read V c t r d b n hb hn)
    (fun x d => blk1_read V c ⟨t.val - 1, hp⟩ x d b (kidx 0 x) (by show b.val = (t.val - 1) / 8; omega)
      (by show 2048 * 0 + x.val = 2048 * ((t.val - 1) % 2) + x.val; omega))
    (fun x d => blk1_read V c t x d b (kidx 1 x) hb (by show 2048 * 1 + x.val = 2048 * (t.val % 2) + x.val; omega))
    (fun x d => blk2_read V c ⟨t.val - 1, hp⟩ x d b (kidx 0 x) (by show b.val = (t.val - 1) / 8; omega)
      (by show 2048 * 0 + x.val = 2048 * ((t.val - 1) % 2) + x.val; omega))
    (fun x d => blk2_read V c t x d b (kidx 1 x) hb (by show 2048 * 1 + x.val = 2048 * (t.val % 2) + x.val; omega))
    (fun k o' => blk4_read V c t k o')
    (fun o' => blk5_read V c t o')
    (blk3_read V c t r o b n hb hn)

/-! ## From the blocks to the array

Only the second point of each query block writes its output block back; those sixteen blocks tile the array: row `n`
of batch `b` lies in the block of the point (b, n / 1024, 1). -/

/-- What the output array ends holding: the specification, index by index. -/
def G1_6 (c : Dev nD) : S4x4096x256.Idx → EReal := fun i =>
  kerOut (t3 (V c main_v11_0)) (t3 (V c main_v11_1)) (t3 (V c main_v11_2)) (t3 (V c main_v0)) (mt (V c main_v5)) (rw1 (V c main_v10))
        (Ideal.ofBits .f32 0x3C800000#32) (i 0) (i 1) (i 2)

/-- What a flushing point writes back is its block of `G1_6`. -/
theorem flushed1_6_eq (c : Dev nD) (t : Fin cfg1.N) (hf : (cfg1.win 6).flush t = true) :
    (dat1 (F := Ideal) V c).flushed 6 t = ((cfg1.win 6).blk t).view.read (Elt Ideal) (G1_6 V c) := by
  have hodd : t.val % 2 = 1 := (flush1_6 t).mp hf
  have hN : cfg1.N = 32 := N_1
  have ht : t.val < 32 := hN ▸ t.isLt
  obtain ⟨-, -, -, -, -, -, ⟨e0, e1, e2⟩⟩ := idx_facts1 t
  show (cfg1.win 6).cut (grid1.coords t) ((dat1 (F := Ideal) V c).after 6 t) = _
  rw [after1_6]
  funext y
  obtain ⟨u, r, o, rfl⟩ : ∃ (u : Fin 1) (r : Fin 1024) (o : Fin 256), y = ix3 u r o := ⟨y 0, y 1, y 2, eq_ix3 y⟩
  obtain rfl : u = 0 := Subsingleton.elim _ _
  show out1_6 (F := Ideal) V c t (ix3 (0 : Fin 1) r o) = G1_6 V c (((cfg1.win 6).blk t).view.emb (ix3 (0 : Fin 1) r o))
  have hemb : ((cfg1.win 6).blk t).view.emb (ix3 (0 : Fin 1) r o)
      = ix3 (⟨t.val / 8, by omega⟩ : Fin 4) (⟨1024 * (t.val / 2 % 4) + r.val, by omega⟩ : Fin 4096) o :=
    funext fun a => Fin.ext (by
      match a with
      | ⟨0, _⟩ => show win1_6.index t (0 : Fin 3) * 1 + 1 * 0 = t.val / 8; omega
      | ⟨1, _⟩ => show win1_6.index t (1 : Fin 3) * 1024 + 1 * r.val = 1024 * (t.val / 2 % 4) + r.val; omega
      | ⟨2, _⟩ => show win1_6.index t (2 : Fin 3) * 256 + 1 * o.val = o.val; omega)
  rw [hemb]
  exact out1_6_odd V c t hodd r o _ _ rfl rfl

/-- Every index of the output array is in the block of a flushing point. -/
theorem cover1_6 (i : S4x4096x256.Idx) :
    ∃ t : Fin cfg1.N, (cfg1.win 6).flush t = true ∧ i ∈ ((cfg1.win 6).blk t).view.set := by
  have h0 : (i 0).val < 4 := (i 0).isLt
  have h1 : (i 1).val < 4096 := (i 1).isLt
  have h2 : (i 2).val < 256 := (i 2).isLt
  have hN : cfg1.N = 32 := N_1
  obtain ⟨t, ht⟩ : ∃ t : Fin cfg1.N, t.val = ((i 0).val * 4 + (i 1).val / 1024) * 2 + 1 := ⟨⟨_, by omega⟩, rfl⟩
  obtain ⟨-, -, -, -, -, -, ⟨e0, e1, e2⟩⟩ := idx_facts1 t
  refine ⟨t, (flush1_6 t).mpr (by omega), ?_⟩
  show i ∈ ((View.whole main_v12).slice (win1_6.rect t)).set
  rw [View.set_slice_whole, Rect.mem_set_unit]
  intro a
  match a with
  | ⟨0, _⟩ =>
    show win1_6.index t (0 : Fin 3) * 1 ≤ (i 0).val ∧ (i 0).val < win1_6.index t (0 : Fin 3) * 1 + 1
    omega
  | ⟨1, _⟩ =>
    show win1_6.index t (1 : Fin 3) * 1024 ≤ (i 1).val ∧ (i 1).val < win1_6.index t (1 : Fin 3) * 1024 + 1024
    omega
  | ⟨2, _⟩ =>
    show win1_6.index t (2 : Fin 3) * 256 ≤ (i 2).val ∧ (i 2).val < win1_6.index t (2 : Fin 3) * 256 + 256
    omega

/-- After the region the output array is `G1_6`. -/
theorem final1_6 (c : Dev nD) : (dat1 (F := Ideal) V c).arrAt 6 cfg1.N = G1_6 V c :=
  (dat1 (F := Ideal) V c).arrAt_eq_of_cover 6 (G1_6 V c) (fun t hf => flushed1_6_eq V c t hf) cover1_6

end Val1

/-- After the region the output array is the kernel's attention of the region's six input arrays, index by index. -/
theorem arrAt1_6 (c : Dev nD) :
    t3 ((dat1 (F := Ideal) V c).arrAt 6 cfg1.N) =
      kerOut (t3 (V c main_v11_0)) (t3 (V c main_v11_1)) (t3 (V c main_v11_2)) (t3 (V c main_v0)) (mt (V c main_v5)) (rw1 (V c main_v10))
        (Ideal.ofBits .f32 0x3C800000#32) := by
  funext b n k
  show (dat1 (F := Ideal) V c).arrAt 6 cfg1.N (ix3 b n k) = _
  rw [Val1.final1_6 V c]
  rfl

end Cert.KernelIdeal.Hand

end
-- ==== Proof.Result.lean ====
/-
  The kernel program's result read at an index, at the extended reals: index (b, l, a, o) of the result array is the
  kernel's attention at (b, 8 l + a, o) of the three projections of the first layer's rows — the first scaled by 2⁻⁴ —,
  the input rows as residual, and the output layer's weight read transposed.
-/
import proofs.«419256_j1580547972144_3_alg».proof.Proof.Gen.KernelIdeal.Launch
import proofs.«419256_j1580547972144_3_alg».proof.Proof.Gen.KernelIdeal.Skeleton
import proofs.«419256_j1580547972144_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419256_j1580547972144_3_alg».proof.Proof.Glue
import proofs.«419256_j1580547972144_3_alg».proof.Proof.Val0
import proofs.«419256_j1580547972144_3_alg».proof.Proof.Val1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Attn Idealize.ShloMosaic.ValueIdx

variable (m : (ℓ : Loc nD τ sig) → Buf (Elt Ideal) ℓ) (ρ : Dev nD → PrngReg)

/-- A layer whose weight is handed over transposed is the layer of the weight itself. -/
theorem layerT_transposed (a : T3) (w : Mat) (b : Vc) : layerT a (fun i j => w j i) b = layer a w b := rfl

theorem kernel_result (c : Dev nD) (i : S4x512x8x256.Idx) :
    (W4 m ρ c (Proc.devRef .tc main_v13) : S4x512x8x256.Idx → EReal) i =
      kerOut
        (fun b n k => layer (layer (t4 (m ((c : Thread nD τ).loc main_arg0))) (mt (m ((c : Thread nD τ).loc main_arg1))) (vc (m ((c : Thread nD τ).loc main_arg2)))) (mt (m ((c : Thread nD τ).loc main_arg3))) (vc (m ((c : Thread nD τ).loc main_arg4))) b n k * Ideal.ofBits .f32 0x3D800000#32)
        (layer (layer (t4 (m ((c : Thread nD τ).loc main_arg0))) (mt (m ((c : Thread nD τ).loc main_arg1))) (vc (m ((c : Thread nD τ).loc main_arg2)))) (mt (m ((c : Thread nD τ).loc main_arg5))) (vc (m ((c : Thread nD τ).loc main_arg6))))
        (layer (layer (t4 (m ((c : Thread nD τ).loc main_arg0))) (mt (m ((c : Thread nD τ).loc main_arg1))) (vc (m ((c : Thread nD τ).loc main_arg2)))) (mt (m ((c : Thread nD τ).loc main_arg7))) (vc (m ((c : Thread nD τ).loc main_arg8))))
        (t4 (m ((c : Thread nD τ).loc main_arg0))) (fun k o => mt (m ((c : Thread nD τ).loc main_arg9)) o k) (vc (m ((c : Thread nD τ).loc main_arg10))) (Ideal.ofBits .f32 0x3C800000#32)
        (i 0) (row8 i) (i 3) := by
  rw [W4_main_v13_apply, V3_main_v12, arrAt1_6 (V2 m ρ) c]
  rw [V2_main_v11_0, V2_main_v11_1, V2_main_v11_2, V2_main_v0, V2_main_v5, V2_main_v10,
    arrAt0_9 (V1 m ρ) c, arrAt0_10 (V1 m ρ) c, arrAt0_11 (V1 m ρ) c,
    t3_V1_main_v0, mt_V1_main_v1, mt_V1_main_v2, mt_V1_main_v3, mt_V1_main_v4, mt_V1_main_v5,
    rw1_V1_main_v6, rw1_V1_main_v7, rw1_V1_main_v8, rw1_V1_main_v9, rw1_V1_main_v10]
  simp only [layerT_transposed]

end Cert.KernelIdeal.Hand

end
-- ==== Proof.RefValue.lean ====
/-
  The reference's result read at an index: its forty-seven operations one at a time, through the generated
  read-at-an-index lemmas over the generated run, as the softmax attention of the program-free specification.
-/
import proofs.«419256_j1580547972144_3_alg».proof.Proof.Gen.ReferenceIdeal.Run
import proofs.«419256_j1580547972144_3_alg».proof.Proof.Gen.ReferenceIdeal.Read
import proofs.«419256_j1580547972144_3_alg».proof.Proof.Arr
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Cert.Attn Idealize.ShloMosaic.ValueIdx

/-! ## The program's arrays at the ideal instance, by shape -/

abbrev A4 := (⟨S4x512x8x256, .f32⟩ : BufTy).Contents (Elt Ideal)
abbrev AM := (⟨S256x256, .f32⟩ : BufTy).Contents (Elt Ideal)
abbrev AV := (⟨S256, .f32⟩ : BufTy).Contents (Elt Ideal)

/-! ## An affine layer from its operands' entries -/

/-- An entry of an affine layer: the sum over the contracted channel of the row's entries times the weight row's, plus
    the bias's entry, each read wherever the operands keep them. -/
theorem layer_of_reads (H : T3) (W : Mat) (B : Vc) (b : Fin 4) (n : Fin 4096) (k : Fin 256)
    (l r : Fin 256 → EReal) (c : EReal)
    (hl : ∀ h, l h = H b n h) (hr : ∀ h, r h = W k h) (hc : c = B k) :
    (∑ h, l h * r h) + c = layer H W B b n k := by
  unfold layer
  rw [hc]
  exact congrArg (· + B k) (Finset.sum_congr rfl fun h _ => by rw [hl h, hr h])

/-! ## The first layer, on the rows flattened from [512, 8] to [4096] -/

/-- Row n of the flattened array is row (n / 8, n % 8) of the input: the flat position ((b · 4096 + n) · 256 + k) read
    back in the [4, 512, 8, 256] layout. -/
theorem hidden_apply (x0 : A4) (x1 : AM) (x2 : AV) (b : Fin 4) (n : Fin 4096) (k : Fin 256) :
    Read.val_main_v4 (F := Ideal) x0 x1 x2 (ix3 b n k) = layer (t4 x0) (mt x1) (vc x2) b n k := by
  rw [Read.val_main_v4_apply, Read.val_main_v3_apply, Read.val_main_v0_apply, Read.val_main_v2_apply,
    Read.val_main_v1_apply, Ideal.addf_def]
  have hb := b.isLt
  have hn := n.isLt
  have hk := k.isLt
  refine layer_of_reads _ _ _ b n k _ _ _ (fun h => ?_) (fun h => ?_) ?_
  · refine congrArg x0 (funext fun a => Fin.ext ?_)
    match a with
    | ⟨0, _⟩ => show ((b.val * 4096 + n.val) * 256 + k.val) / 1048576 = b.val; omega
    | ⟨1, _⟩ => show ((b.val * 4096 + n.val) * 256 + k.val) / 2048 % 512 = n.val / 8; omega
    | ⟨2, _⟩ => show ((b.val * 4096 + n.val) * 256 + k.val) / 256 % 8 = n.val % 8; omega
    | ⟨3, _⟩ => rfl
  · refine congrArg x1 (funext fun a => Fin.ext ?_)
    match a with
    | ⟨0, _⟩ => show ((b.val * 4096 + n.val) * 256 + k.val) % 256 = k.val; omega
    | ⟨1, _⟩ => rfl
  · refine congrArg x2 (funext fun a => Fin.ext ?_)
    match a with
    | ⟨0, _⟩ => show ((b.val * 4096 + n.val) * 256 + k.val) % 256 = k.val; omega

/-! ## The three projections of the first layer's rows -/

/-- The query rows: the second layer with the query weight and bias. -/
theorem query_apply (x0 : A4) (x1 : AM) (x2 : AV) (x3 : AM) (x4 : AV) (b : Fin 4) (n : Fin 4096) (k : Fin 256) :
    Read.val_main_v8 (F := Ideal) x0 x1 x2 x3 x4 (ix3 b n k)
      = layer (layer (t4 x0) (mt x1) (vc x2)) (mt x3) (vc x4) b n k := by
  rw [Read.val_main_v8_apply, Read.val_main_v5_apply, Read.val_main_v7_apply, Read.val_main_v6_apply, Ideal.addf_def]
  refine layer_of_reads _ _ _ b n k _ _ _ (fun h => ?_) (fun h => ?_) ?_
  · rw [show Read.lidx_main_v5 (ix3 b n k) h = ix3 b n h from
      funext fun a => Fin.ext (by match a with | ⟨0, _⟩ => rfl | ⟨1, _⟩ => rfl | ⟨2, _⟩ => rfl)]
    exact hidden_apply x0 x1 x2 b n h
  · exact congrArg x3 (funext fun a => Fin.ext (by match a with | ⟨0, _⟩ => rfl | ⟨1, _⟩ => rfl))
  · exact congrArg x4 (funext fun a => Fin.ext (by match a with | ⟨0, _⟩ => rfl))

/-- The key rows: the same layer with the key weight and bias. -/
theorem key_apply (x0 : A4) (x1 : AM) (x2 : AV) (x5 : AM) (x6 : AV) (b : Fin 4) (n : Fin 4096) (k : Fin 256) :
    Read.val_main_v12 (F := Ideal) x0 x1 x2 x5 x6 (ix3 b n k)
      = layer (layer (t4 x0) (mt x1) (vc x2)) (mt x5) (vc x6) b n k := by
  rw [Read.val_main_v12_apply, Read.val_main_v9_apply, Read.val_main_v11_apply, Read.val_main_v10_apply, Ideal.addf_def]
  refine layer_of_reads _ _ _ b n k _ _ _ (fun h => ?_) (fun h => ?_) ?_
  · rw [show Read.lidx_main_v9 (ix3 b n k) h = ix3 b n h from
      funext fun a => Fin.ext (by match a with | ⟨0, _⟩ => rfl | ⟨1, _⟩ => rfl | ⟨2, _⟩ => rfl)]
    exact hidden_apply x0 x1 x2 b n h
  · exact congrArg x5 (funext fun a => Fin.ext (by match a with | ⟨0, _⟩ => rfl | ⟨1, _⟩ => rfl))
  · exact congrArg x6 (funext fun a => Fin.ext (by match a with | ⟨0, _⟩ => rfl))

/-- The value rows: the same layer with the value weight and bias. -/
theorem value_apply (x0 : A4) (x1 : AM) (x2 : AV) (x7 : AM) (x8 : AV) (b : Fin 4) (n : Fin 4096) (k : Fin 256) :
    Read.val_main_v16 (F := Ideal) x0 x1 x2 x7 x8 (ix3 b n k)
      = layer (layer (t4 x0) (mt x1) (vc x2)) (mt x7) (vc x8) b n k := by
  rw [Read.val_main_v16_apply, Read.val_main_v13_apply, Read.val_main_v15_apply, Read.val_main_v14_apply, Ideal.addf_def]
  refine layer_of_reads _ _ _ b n k _ _ _ (fun h => ?_) (fun h => ?_) ?_
  · rw [show Read.lidx_main_v13 (ix3 b n k) h = ix3 b n h from
      funext fun a => Fin.ext (by match a with | ⟨0, _⟩ => rfl | ⟨1, _⟩ => rfl | ⟨2, _⟩ => rfl)]
    exact hidden_apply x0 x1 x2 b n h
  · exact congrArg x7 (funext fun a => Fin.ext (by match a with | ⟨0, _⟩ => rfl | ⟨1, _⟩ => rfl))
  · exact congrArg x8 (funext fun a => Fin.ext (by match a with | ⟨0, _⟩ => rfl))

/-! ## The attention, over the three projections as arbitrary arrays

The attention depends on the three projections only through their entries: the query, key and value arrays are
arbitrary arrays `Q K V` with those entries. -/

local notation "d₁" => Ideal.sqrt (Ideal.ofBits FTy.f32 0x43800000#32)
local notation "d₂" => Ideal.sqrt (Ideal.ofBits FTy.f32 0x45800000#32)

/-- The word of −∞ is the bottom of the extended reals. -/
theorem negInf_eq_bot : Ideal.ofBits .f32 0xFF800000#32 = (⊥ : EReal) := by
  simp [Ideal.ofBits, Ideal.ieee]

/-- The key axis is the one axis the row reductions drop. -/
theorem keyAxis : S4x4096x4096.Reduces [2] S4x4096 := by decide

/-- Over row (b, n), the entry with key coordinate m is (b, n, m). -/
theorem keyAxis_lift (b : Fin 4) (n : Fin 4096) (m : Fin (S4x4096x4096.size 2)) :
    keyAxis.lift (ix2 b n) m = ix3 b n (⟨m.val, m.isLt⟩ : Fin 4096) := by
  funext c; apply Fin.ext
  fin_cases c <;> rfl

/-- A row's maximum from −∞: the fold of `max` from ⊥ over the row's 4096 entries. -/
theorem rowMax_read (s : S4x4096x4096.Idx → EReal) (h' : S4x4096x4096.ReducesTo [2] S4x4096) (hu : 0 < S_.numel)
    (b : Fin 4) (n : Fin 4096) :
    Host.reduce (α := EReal) (FloatOps.maximumf (F := Ideal) (φ := .f32)) s (Read.val_main_cst_0 (F := Ideal)) h' hu (ix2 b n)
      = (Finset.univ : Finset (Fin 4096)).fold max ⊥ (fun m => s (ix3 b n m)) := by
  rw [Host.reduce_eq_fold_single (FloatOps.maximumf (F := Ideal) (φ := .f32)) s _ h' keyAxis hu]
  have hi : Read.val_main_cst_0 (F := Ideal) (Shape.Idx.first hu) = (⊥ : EReal) := by
    rw [Read.val_main_cst_0_apply, Ideal.ofBits_def, negInf_eq_bot]
  rw [hi]
  have hf : (s ∘ keyAxis.lift (ix2 b n)) = fun m : Fin 4096 => s (ix3 b n m) :=
    funext fun m => congrArg s (keyAxis_lift b n m)
  exact congrArg (fun f => Finset.fold max (⊥ : EReal) f (Finset.univ : Finset (Fin 4096))) hf

section Attention

variable (x0 : A4) (x1 : AM) (x2 : AV) (x3 : AM) (x4 : AV) (x5 : AM) (x6 : AV) (x7 : AM) (x8 : AV)
variable (Q K V : T3)
variable (hQ : ∀ b n k, Read.val_main_v8 (F := Ideal) x0 x1 x2 x3 x4 (ix3 b n k) = Q b n k)
variable (hK : ∀ b n k, Read.val_main_v12 (F := Ideal) x0 x1 x2 x5 x6 (ix3 b n k) = K b n k)
variable (hV : ∀ b n k, Read.val_main_v16 (F := Ideal) x0 x1 x2 x7 x8 (ix3 b n k) = V b n k)

include hQ hK in
/-- The score of query row n against key row m: the contraction over the channel, divided by √256. -/
theorem scores_apply (b : Fin 4) (n m : Fin 4096) :
    Read.val_main_v20 (F := Ideal) x0 x1 x2 x3 x4 x5 x6 (ix3 b n m) = refS Q K d₁ b n m := by
  rw [Read.val_main_v20_apply, Read.val_main_v17_apply, Read.val_main_v19_apply, Read.val_main_v18_apply,
    Read.val_main_cst_apply, Ideal.hostDivf_def, Ideal.hostUnary_sqrt_def, Ideal.ofBits_def]
  unfold refS
  refine congrArg (fun s => Ideal.div s d₁) (Finset.sum_congr rfl fun k _ => ?_)
  rw [show Read.lidx_main_v17 (ix3 b n m) k = ix3 b n k from
      funext fun a => Fin.ext (by match a with | ⟨0, _⟩ => rfl | ⟨1, _⟩ => rfl | ⟨2, _⟩ => rfl),
    show Read.ridx_main_v17 (ix3 b n m) k = ix3 b m k from
      funext fun a => Fin.ext (by match a with | ⟨0, _⟩ => rfl | ⟨1, _⟩ => rfl | ⟨2, _⟩ => rfl),
    hQ, hK]

include hQ hK in
/-- The row's maximum score, taken from −∞ and once more against −∞. -/
theorem rowMax_apply (b : Fin 4) (n : Fin 4096) :
    Read.val_main_v23 (F := Ideal) x0 x1 x2 x3 x4 x5 x6 (ix2 b n) = refMax Q K d₁ b n := by
  rw [Read.val_main_v23_apply, Read.val_main_v22_apply, Read.val_main_cst_1_apply, Ideal.maximumf_def, Ideal.ofBits_def,
    negInf_eq_bot]
  unfold Read.val_main_v21
  refine (congrArg (max (⊥ : EReal)) (rowMax_read _ _ _ b n)).trans ?_
  unfold refMax
  exact congrArg (fun f => max (⊥ : EReal) (Finset.fold max (⊥ : EReal) f (Finset.univ : Finset (Fin 4096))))
    (funext fun m => scores_apply x0 x1 x2 x3 x4 x5 x6 Q K hQ hK b n m)

include hQ hK in
/-- The exponential of a score less its row's maximum. -/
theorem expo_apply (b : Fin 4) (n m : Fin 4096) :
    Read.val_main_v27 (F := Ideal) x0 x1 x2 x3 x4 x5 x6 (ix3 b n m) = refE Q K d₁ b n m := by
  rw [Read.val_main_v27_apply, Read.val_main_v26_apply, Read.val_main_v25_apply, Read.val_main_v24_apply,
    Ideal.hostUnary_exp_def, Ideal.subf_def, scores_apply x0 x1 x2 x3 x4 x5 x6 Q K hQ hK b n m,
    show Read.idx_main_v24 (Read.idx_main_v25 (ix3 b n m)) = ix2 b n from
      funext fun a => Fin.ext (by match a with | ⟨0, _⟩ => rfl | ⟨1, _⟩ => rfl),
    rowMax_apply x0 x1 x2 x3 x4 x5 x6 Q K hQ hK b n]
  rfl

include hQ hK in
/-- The row's sum of exponentials, from zero. -/
theorem denom_apply (b : Fin 4) (n : Fin 4096) :
    Read.val_main_v28 (F := Ideal) x0 x1 x2 x3 x4 x5 x6 (ix2 b n) = refL Q K d₁ b n := by
  rw [Read.val_main_v28_apply, Read.val_main_cst_2_apply, Ideal.ofBits_def, Ideal.ofBits_zero_f32]
  unfold refL
  refine congrArg (fun s => (0 : EReal) + s) (Finset.sum_congr rfl fun m _ => ?_)
  rw [show Read.idx_main_v28 (ix2 b n) m = ix3 b n m from
      funext fun a => Fin.ext (by match a with | ⟨0, _⟩ => rfl | ⟨1, _⟩ => rfl | ⟨2, _⟩ => rfl),
    expo_apply x0 x1 x2 x3 x4 x5 x6 Q K hQ hK b n m]

include hQ hK in
/-- The normalised weight of key row m for query row n. -/
theorem weight_apply (b : Fin 4) (n m : Fin 4096) :
    Read.val_main_v31 (F := Ideal) x0 x1 x2 x3 x4 x5 x6 (ix3 b n m) = refY Q K d₁ b n m := by
  rw [Read.val_main_v31_apply, Read.val_main_v30_apply, Read.val_main_v29_apply, Ideal.hostDivf_def,
    expo_apply x0 x1 x2 x3 x4 x5 x6 Q K hQ hK b n m,
    show Read.idx_main_v29 (Read.idx_main_v30 (ix3 b n m)) = ix2 b n from
      funext fun a => Fin.ext (by match a with | ⟨0, _⟩ => rfl | ⟨1, _⟩ => rfl),
    denom_apply x0 x1 x2 x3 x4 x5 x6 Q K hQ hK b n]
  rfl

include hQ hK hV in
/-- The weighted sum of the value rows, divided by √4096. -/
theorem mix_apply (b : Fin 4) (n : Fin 4096) (k : Fin 256) :
    Read.val_main_v35 (F := Ideal) x0 x1 x2 x3 x4 x5 x6 x7 x8 (ix3 b n k) = refZ Q K V d₁ d₂ b n k := by
  rw [Read.val_main_v35_apply, Read.val_main_v32_apply, Read.val_main_v34_apply, Read.val_main_v33_apply,
    Read.val_main_cst_3_apply, Ideal.hostDivf_def, Ideal.hostUnary_sqrt_def, Ideal.ofBits_def]
  unfold refZ
  refine congrArg (fun s => Ideal.div s d₂) (Finset.sum_congr rfl fun m _ => ?_)
  rw [show Read.lidx_main_v32 (ix3 b n k) m = ix3 b n m from
      funext fun a => Fin.ext (by match a with | ⟨0, _⟩ => rfl | ⟨1, _⟩ => rfl | ⟨2, _⟩ => rfl),
    show Read.ridx_main_v32 (ix3 b n k) m = ix3 b m k from
      funext fun a => Fin.ext (by match a with | ⟨0, _⟩ => rfl | ⟨1, _⟩ => rfl | ⟨2, _⟩ => rfl),
    weight_apply x0 x1 x2 x3 x4 x5 x6 Q K hQ hK b n m, hV]

include hQ hK hV in
/-- The output layer on the weighted sums, read back in the [4, 512, 8, 256] layout (row 8 l + a of the flat array is
    (l, a)), plus the input's entry there. -/
theorem out_apply (x9 : AM) (x10 : AV) (b : Fin 4) (l : Fin 512) (a : Fin 8) (o : Fin 256) :
    Read.val_main_v41 (F := Ideal) x0 x1 x2 x3 x4 x5 x6 x7 x8 x9 x10 (ix4 b l a o)
      = refOut Q K V (t4 x0) (mt x9) (vc x10) d₁ d₂ b (row8 (ix4 b l a o)) o := by
  have hb := b.isLt
  have hl := l.isLt
  have ha := a.isLt
  have ho := o.isLt
  rw [Read.val_main_v41_apply, Read.val_main_v40_apply, Read.val_main_v39_apply, Read.val_main_v36_apply,
    Read.val_main_v38_apply, Read.val_main_v37_apply, Ideal.addf_def, Ideal.addf_def,
    show Read.idx_main_v40 (ix4 b l a o) = ix3 b (row8 (ix4 b l a o)) o from
      funext fun c => Fin.ext (by
        match c with
        | ⟨0, _⟩ => show (((b.val * 512 + l.val) * 8 + a.val) * 256 + o.val) / 1048576 = b.val; omega
        | ⟨1, _⟩ => show (((b.val * 512 + l.val) * 8 + a.val) * 256 + o.val) / 256 % 4096 = l.val * 8 + a.val; omega
        | ⟨2, _⟩ => show (((b.val * 512 + l.val) * 8 + a.val) * 256 + o.val) % 256 = o.val; omega)]
  unfold refOut
  refine congrArg₂ (· + ·) (congrArg₂ (· + ·) (Finset.sum_congr rfl fun k _ => ?_) ?_) ?_
  · rw [show Read.lidx_main_v36 (ix3 b (row8 (ix4 b l a o)) o) k = ix3 b (row8 (ix4 b l a o)) k from
        funext fun c => Fin.ext (by match c with | ⟨0, _⟩ => rfl | ⟨1, _⟩ => rfl | ⟨2, _⟩ => rfl),
      mix_apply x0 x1 x2 x3 x4 x5 x6 x7 x8 Q K V hQ hK hV b (row8 (ix4 b l a o)) k]
    exact congrArg (fun j => refZ Q K V d₁ d₂ b (row8 (ix4 b l a o)) k * x9 j)
      (funext fun c => Fin.ext (by match c with | ⟨0, _⟩ => rfl | ⟨1, _⟩ => rfl))
  · exact congrArg x10 (funext fun c => Fin.ext (by match c with | ⟨0, _⟩ => rfl))
  · refine congrArg x0 (funext fun c => Fin.ext ?_)
    match c with
    | ⟨0, _⟩ => rfl
    | ⟨1, _⟩ => show l.val = (l.val * 8 + a.val) / 8; omega
    | ⟨2, _⟩ => show a.val = (l.val * 8 + a.val) % 8; omega
    | ⟨3, _⟩ => rfl

end Attention

/-- The reference's result at index i = (b, l, a, o) is the softmax attention at (b, 8 l + a, o): the three projections of
    the first layer's rows, the scores divided by √256, the softmax over all keys, the weighted sum divided by √4096, the
    output layer, the residual. -/
theorem result_apply (m : (ℓ : Loc nD τ sig) → Buf (Elt Ideal) ℓ) (c : Dev nD) (i : S4x512x8x256.Idx) :
    Cert.ReferenceIdeal.Value.res_main_v41 (F := Ideal) m c i =
      refOut
        (layer (layer (t4 (m ((c.tc : Thread nD τ).loc main_arg0))) (mt (m ((c.tc : Thread nD τ).loc main_arg1))) (vc (m ((c.tc : Thread nD τ).loc main_arg2))))
          (mt (m ((c.tc : Thread nD τ).loc main_arg3))) (vc (m ((c.tc : Thread nD τ).loc main_arg4))))
        (layer (layer (t4 (m ((c.tc : Thread nD τ).loc main_arg0))) (mt (m ((c.tc : Thread nD τ).loc main_arg1))) (vc (m ((c.tc : Thread nD τ).loc main_arg2))))
          (mt (m ((c.tc : Thread nD τ).loc main_arg5))) (vc (m ((c.tc : Thread nD τ).loc main_arg6))))
        (layer (layer (t4 (m ((c.tc : Thread nD τ).loc main_arg0))) (mt (m ((c.tc : Thread nD τ).loc main_arg1))) (vc (m ((c.tc : Thread nD τ).loc main_arg2))))
          (mt (m ((c.tc : Thread nD τ).loc main_arg7))) (vc (m ((c.tc : Thread nD τ).loc main_arg8))))
        (t4 (m ((c.tc : Thread nD τ).loc main_arg0)))
        (mt (m ((c.tc : Thread nD τ).loc main_arg9))) (vc (m ((c.tc : Thread nD τ).loc main_arg10)))
        (Ideal.sqrt (Ideal.ofBits .f32 0x43800000#32)) (Ideal.sqrt (Ideal.ofBits .f32 0x45800000#32))
        (i 0) (row8 i) (i 3) := by
  obtain ⟨b, l, a, o, rfl⟩ : ∃ (b : Fin 4) (l : Fin 512) (a : Fin 8) (o : Fin 256), i = ix4 b l a o :=
    ⟨i 0, i 1, i 2, i 3, eq_ix4 i⟩
  rw [Read.val_main_v41_eq]
  exact out_apply _ _ _ _ _ _ _ _ _ _ _ _
    (fun b n k => query_apply _ _ _ _ _ b n k) (fun b n k => key_apply _ _ _ _ _ b n k)
    (fun b n k => value_apply _ _ _ _ _ b n k) _ _ b l a o

end Cert.ReferenceIdeal.RefValue

end
-- ==== Proof.RealIn.lean ====
/-
  What the precondition gives and what the literals denote: under "every input finite" each of the eleven input
  arrays is real-valued; the kernel's two scale literals are the dyadics 1/16 and 1/64, and the reference's two
  divisors, the square roots of 256 and 4096, are 16 and 64.
-/
import proofs.«419256_j1580547972144_3_alg».proof.Defs
import proofs.«419256_j1580547972144_3_alg».proof.Proof.Gen.Pre_finite_inputs
import proofs.«419256_j1580547972144_3_alg».proof.Proof.Arr
import Idealize.ShloMosaic.Lib.ValueIdx
import Idealize.ShloMosaic.Lib.ReduceAll
import Idealize.ShloMosaic.PureOps.Ideal.Laws

noncomputable section

namespace Cert.KernelIdeal.Hand

open Idealize.ShloMosaic Idealize.ShloMosaic.TcCoe Idealize.SL.Sem
open Cert.KernelIdeal Cert.Attn Idealize.ShloMosaic.ValueIdx

/-! ## Finite entries are real -/

open Cert.Pre_finite_inputs in
/-- The rank-0 shape has one index. -/
local instance realIn_subsingleton_idx : Subsingleton S_.Idx := ⟨fun a b => funext fun d => d.elim0⟩

/-- An extended real whose absolute value lies below +∞ is a real number: |±∞| = +∞ is not below +∞. -/
theorem realIn_of_abs_lt (x : EReal) (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | top => simp [Ideal.cmp, Ideal.ofBits, Ideal.ieee] at h
  | coe r => exact ⟨r, rfl⟩

open Cert.Pre_finite_inputs in
/-- An array of any shape on which "|x| < +∞ everywhere", and-ed over all of its indices, holds has every entry
    real: the conjunction over all indices gives the comparison at each index, and the comparison at an index
    gives a real there. -/
theorem realIn_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  realIn_of_abs_lt (x i) (Host.reduce_andi_all _ _ hr hu ix0 e i)

/-- Under the precondition every entry of every input array is a real number. -/
theorem real_of_pre (m : (ℓ : Loc nD τ sig) → Buf (Elt Ideal) ℓ) (hpre : Cert.Pre_KernelIdeal m) (c : Dev nD) :
    IsReal3 (t4 (m ((c.tc : Thread nD τ).loc main_arg0))) ∧ IsRealM (mt (m ((c.tc : Thread nD τ).loc main_arg1))) ∧ IsRealV (vc (m ((c.tc : Thread nD τ).loc main_arg2)))
    ∧ IsRealM (mt (m ((c.tc : Thread nD τ).loc main_arg3))) ∧ IsRealV (vc (m ((c.tc : Thread nD τ).loc main_arg4)))
    ∧ IsRealM (mt (m ((c.tc : Thread nD τ).loc main_arg5))) ∧ IsRealV (vc (m ((c.tc : Thread nD τ).loc main_arg6)))
    ∧ IsRealM (mt (m ((c.tc : Thread nD τ).loc main_arg7))) ∧ IsRealV (vc (m ((c.tc : Thread nD τ).loc main_arg8)))
    ∧ IsRealM (mt (m ((c.tc : Thread nD τ).loc main_arg9))) ∧ IsRealV (vc (m ((c.tc : Thread nD τ).loc main_arg10))) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun _ _ _ => realIn_of_all _ _ _ _ h0 _, fun _ _ => realIn_of_all _ _ _ _ h1 _, fun _ => realIn_of_all _ _ _ _ h2 _,
    fun _ _ => realIn_of_all _ _ _ _ h3 _, fun _ => realIn_of_all _ _ _ _ h4 _,
    fun _ _ => realIn_of_all _ _ _ _ h5 _, fun _ => realIn_of_all _ _ _ _ h6 _,
    fun _ _ => realIn_of_all _ _ _ _ h7 _, fun _ => realIn_of_all _ _ _ _ h8 _,
    fun _ _ => realIn_of_all _ _ _ _ h9 _, fun _ => realIn_of_all _ _ _ _ h10 _⟩

/-! ## The literals -/

/-- The pattern 0x3D800000 is 2⁻⁴. -/
theorem c16_eq : Ideal.ofBits .f32 0x3D800000#32 = ((1 / 16 : ℝ) : EReal) := by
  simp [Ideal.ofBits, Ideal.ieee, -EReal.coe_mul]; norm_num
/-- The pattern 0x3C800000 is 2⁻⁶. -/
theorem c64_eq : Ideal.ofBits .f32 0x3C800000#32 = ((1 / 64 : ℝ) : EReal) := by
  simp [Ideal.ofBits, Ideal.ieee, -EReal.coe_mul]; norm_num

/-- The square root of the square of a nonnegative real, among the extended reals. -/
theorem realIn_sqrt_mul_self (a : ℝ) (ha : 0 ≤ a) : Ideal.sqrt ((a * a : ℝ) : EReal) = (a : EReal) := by
  rw [Ideal.sqrt_coe, if_neg (not_lt.mpr (mul_self_nonneg a)), Real.sqrt_mul_self ha]

/-- The pattern 0x43800000 is 256 = 16 · 16. -/
theorem realIn_ofBits_256 : Ideal.ofBits .f32 0x43800000#32 = ((16 * 16 : ℝ) : EReal) := by
  simp [Ideal.ofBits, Ideal.ieee, -EReal.coe_mul]; norm_num
/-- The pattern 0x45800000 is 4096 = 64 · 64. -/
theorem realIn_ofBits_4096 : Ideal.ofBits .f32 0x45800000#32 = ((64 * 64 : ℝ) : EReal) := by
  simp [Ideal.ofBits, Ideal.ieee, -EReal.coe_mul]; norm_num

/-- √256 = 16. -/
theorem d1_eq : Ideal.sqrt (Ideal.ofBits .f32 0x43800000#32) = ((16 : ℝ) : EReal) := by
  rw [realIn_ofBits_256, realIn_sqrt_mul_self 16 (by norm_num)]
/-- √4096 = 64. -/
theorem d2_eq : Ideal.sqrt (Ideal.ofBits .f32 0x45800000#32) = ((64 : ℝ) : EReal) := by
  rw [realIn_ofBits_4096, realIn_sqrt_mul_self 64 (by norm_num)]

end Cert.KernelIdeal.Hand

end
-- ==== Proof.lean ====
/-
  The certificate's claims. The three programs run and leave their arguments alone: the two kernel programs by the run of
  @main over their two regions, the reference by its run read back. The idealization rewrote nothing. And at the extended
  reals, from memories agreeing on the arguments, the kernel program's result array and the reference's are one function of
  the arguments: index by index the kernel's two-block online softmax attention over the query pre-scaled by 1/16, its
  weighted sum scaled by 1/64, and the reference's softmax attention with the scores divided by √256 and the weighted sum
  by √4096 — equal because under the precondition every input, hence every intermediate quantity, is a real number.
-/
import proofs.«419256_j1580547972144_3_alg».proof.Defs
import proofs.«419256_j1580547972144_3_alg».proof.Proof.Gen.Kernel
import proofs.«419256_j1580547972144_3_alg».proof.Proof.Gen.KernelIdeal
import proofs.«419256_j1580547972144_3_alg».proof.Proof.Gen.ReferenceIdeal
import proofs.«419256_j1580547972144_3_alg».proof.Proof.Gen.Pre_finite_inputs
import proofs.«419256_j1580547972144_3_alg».proof.Proof.Gen.ReferenceIdeal.Run
import proofs.«419256_j1580547972144_3_alg».proof.Proof.Bits.Run
import proofs.«419256_j1580547972144_3_alg».proof.Proof.Run
import proofs.«419256_j1580547972144_3_alg».proof.Proof.Result
import proofs.«419256_j1580547972144_3_alg».proof.Proof.RefValue
import proofs.«419256_j1580547972144_3_alg».proof.Proof.RealIn
import proofs.«419256_j1580547972144_3_alg».proof.Proof.AttnSpec

noncomputable section

namespace Cert.Proof

open Idealize.ShloMosaic Idealize.ShloMosaic.TcCoe Idealize.SL.Sem
open Cert.Attn

/-- The word-level kernel program runs and writes no argument. -/
theorem frame_k : Cert.frame_Kernel := fun m ρ _ => Cert.Kernel.Hand.frame (F := Bits) m ρ

/-- The idealized kernel program runs and writes no argument. -/
theorem frame_ki : Cert.frame_KernelIdeal := fun m ρ _ => Cert.KernelIdeal.Hand.frame (F := Ideal) m ρ

/-- The reference runs and writes no argument: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- A layer of real arrays, the weight indexed [out, in], is real. -/
theorem isReal_layer {a : T3} {w : Mat} {b : Vc} (ha : IsReal3 a) (hw : IsRealM w) (hb : IsRealV b) : IsReal3 (layer a w b) :=
  isReal_layerT (wT := fun i j => w j i) ha (fun i j => hw j i) hb

/-- The two idealized programs, from memories agreeing on the arguments, end with equal result arrays. -/
theorem algebraic : Cert.algebraic_KernelIdeal_ReferenceIdeal := by
  intro m ρ m' ρ' hpre hagree
  refine ⟨fun c => Cert.KernelIdeal.Hand.W4 m ρ c (Proc.devRef .tc Cert.KernelIdeal.main_v13), ?_, ?_⟩
  · exact (θ_run Cert.KernelIdeal.defs _ _).mono (fun _ h c =>
      ⟨h c _ (Cert.KernelIdeal.Hand.mem_uc Cert.KernelIdeal.main_v13 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c),
       (h c _ (Cert.KernelIdeal.Hand.mem_uc Cert.KernelIdeal.main_arg9 (by decide))).trans (Cert.KernelIdeal.Hand.W4_main_arg9 m ρ c),
       (h c _ (Cert.KernelIdeal.Hand.mem_uc Cert.KernelIdeal.main_arg10 (by decide))).trans (Cert.KernelIdeal.Hand.W4_main_arg10 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    funext i
    obtain ⟨h0, h1, h2, h3, h4, h5, h6, h7, h8, h9, h10⟩ := hagree c
    obtain ⟨r0, r1, r2, r3, r4, r5, r6, r7, r8, r9, r10⟩ := Cert.KernelIdeal.Hand.real_of_pre m hpre c
    rw [Cert.ReferenceIdeal.RefValue.result_apply m' c i, h0, h1, h2, h3, h4, h5, h6, h7, h8, h9, h10]
    refine Eq.trans ?_ (Cert.KernelIdeal.Hand.kernel_result m ρ c i).symm
    exact (congrFun (congrFun (congrFun (kerOut_eq_refOut _ _ _ _ _ _ _ _ _ _
      (isReal_layer (isReal_layer r0 r1 r2) r3 r4) (isReal_layer (isReal_layer r0 r1 r2) r5 r6)
      (isReal_layer (isReal_layer r0 r1 r2) r7 r8) r0 r9 r10
      Cert.KernelIdeal.Hand.c16_eq Cert.KernelIdeal.Hand.c64_eq Cert.KernelIdeal.Hand.d1_eq Cert.KernelIdeal.Hand.d2_eq)
      (i 0)) (row8 i)) (i 3)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
